-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg1 : IVec S2x1600000 32) (main_v83 : IVec S_ 1) (main_v85 : IVec S1600000 32) : IVec S_ 1 :=
  let main_c_32 : IVec S_ 32 := constantI S_ 32 0#32
  let main_v86 : IVec S1600000 32 := broadcastInDim S1600000 ![] bcast_S_S1600000 main_c_32
  let main_v87 : IVec S1600000 1 := cmpi .sge main_v85 main_v86
  let main_c_33 : IVec S_ 1 := constantI S_ 1 1#1
  let main_v88 : IVec S_ 1 := (fun x v => Host.reduce IntOp.andi x v reducesTo_S1600000_S_d0 h_S_) main_v87 main_c_33
  let main_v89 : IVec S_ 1 := andi main_v83 main_v88
  let main_v90 : IVec S1x1600000 32 := (extractStridedSlice S1x1600000 ![0, 0] · slices_S2x1600000_S1x1600000_0_0) main_arg1
  let main_v91 : IVec S1600000 32 := shapeCast S1600000 main_v90 shapeCasts_S1x1600000_S1600000
  let main_c_34 : IVec S_ 32 := constantI S_ 32 100000#32
  let main_v92 : IVec S1600000 32 := broadcastInDim S1600000 ![] bcast_S_S1600000 main_c_34
  let main_v93 : IVec S1600000 1 := cmpi .slt main_v91 main_v92
  let main_c_35 : IVec S_ 1 := constantI S_ 1 1#1
  let main_v94 : IVec S_ 1 := (fun x v => Host.reduce IntOp.andi x v reducesTo_S1600000_S_d0 h_S_) main_v93 main_c_35
  let main_v95 : IVec S_ 1 := andi main_v89 main_v94
  main_v95

def fn_part4 {F : FTy → Type} [FloatOps F] (main_arg1 : IVec S2x1600000 32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg16
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  let main_v84 : IVec S1x1600000 32 := (extractStridedSlice S1x1600000 ![0, 0] · slices_S2x1600000_S1x1600000_0_0) main_arg1
  let main_v85 : IVec S1600000 32 := shapeCast S1600000 main_v84 shapeCasts_S1x1600000_S1600000
  fn_part5 (F := F) main_arg1 main_v83 main_v85

def fn_part3 {F : FTy → Type} [FloatOps F] (main_arg1 : IVec S2x1600000 32) (main_arg12 : FVec F S64 .f32) (main_arg13 : FVec F S64 .f32) (main_arg14 : FVec F S64 .f32) (main_arg15 : FVec F S64 .f32) (main_arg16 : FVec F S64x2 .f32) (main_arg17 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_arg17 main_v63 main_v67

def fn_part2 {F : FTy → Type} [FloatOps F] (main_arg1 : IVec S2x1600000 32) (main_arg8 : FVec F S128 .f32) (main_arg9 : FVec F S128 .f32) (main_arg10 : FVec F S128 .f32) (main_arg11 : FVec F S128 .f32) (main_arg12 : FVec F S64 .f32) (main_arg13 : FVec F S64 .f32) (main_arg14 : FVec F S64 .f32) (main_arg15 : FVec F S64 .f32) (main_arg16 : FVec F S64x2 .f32) (main_arg17 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_arg14 main_arg15 main_arg16 main_arg17 main_v48 main_v49 main_v50

def fn_part1 {F : FTy → Type} [FloatOps F] (main_arg1 : IVec S2x1600000 32) (main_arg5 : FVec F S128x64 .f32) (main_arg6 : FVec F S64 .f32) (main_arg7 : FVec F S128x64 .f32) (main_arg8 : FVec F S128 .f32) (main_arg9 : FVec F S128 .f32) (main_arg10 : FVec F S128 .f32) (main_arg11 : FVec F S128 .f32) (main_arg12 : FVec F S64 .f32) (main_arg13 : FVec F S64 .f32) (main_arg14 : FVec F S64 .f32) (main_arg15 : FVec F S64 .f32) (main_arg16 : FVec F S64x2 .f32) (main_arg17 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) (main_arg8 : FVec F S128 .f32) (main_arg9 : FVec F S128 .f32) (main_arg10 : FVec F S128 .f32) (main_arg11 : FVec F S128 .f32) (main_arg12 : FVec F S64 .f32) (main_arg13 : FVec F S64 .f32) (main_arg14 : FVec F S64 .f32) (main_arg15 : FVec F S64 .f32) (main_arg16 : FVec F S64x2 .f32) (main_arg17 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x64 : Shape := ⟨2, ![1, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 103
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x64, .f32⟩
  | .hbm, ⟨54, _⟩ => ⟨S1600000x64, .i1⟩
  | .hbm, ⟨55, _⟩ => ⟨S_, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1, .i32⟩
  | .hbm, ⟨78, _⟩ => ⟨S_, .i32⟩
  | .hbm, ⟨79, _⟩ => ⟨S1600000x1, .i32⟩
  | .hbm, ⟨80, _⟩ => ⟨S1600000x1, .i1⟩
  | .hbm, ⟨81, _⟩ => ⟨S1x1, .i32⟩
  | .hbm, ⟨82, _⟩ => ⟨S1600000x1, .i32⟩
  | .hbm, ⟨83, _⟩ => ⟨S1600000x1, .i1⟩
  | .hbm, ⟨84, _⟩ => ⟨S1600000x1, .i1⟩
  | .hbm, ⟨85, _⟩ => ⟨S_, .i1⟩
  | .hbm, ⟨86, _⟩ => ⟨S1600000, .i1⟩
  | .hbm, ⟨87, _⟩ => ⟨S1600000x64, .f32⟩
  | .hbm, ⟨88, _⟩ => ⟨S1600000x64, .i1⟩
  | .hbm, ⟨89, _⟩ => ⟨S_, .f32⟩
  | .hbm, ⟨90, _⟩ => ⟨S1600000x64, .f32⟩
  | .hbm, ⟨91, _⟩ => ⟨S1600000x64, .f32⟩
  | .hbm, ⟨92, _⟩ => ⟨S_, .f32⟩
  | .hbm, ⟨93, _⟩ => ⟨S100000x64, .f32⟩
  | .hbm, ⟨94, _⟩ => ⟨S1600000x1, .i32⟩
  | .hbm, ⟨95, _⟩ => ⟨S100000x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x2, .f32⟩
  | .hbm, ⟨102, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S128x64, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x128, .f32⟩
  | .local _ .vmem, ⟨23, _⟩ => ⟨S5000x128, .f32⟩
  | .local _ .vmem, ⟨24, _⟩ => ⟨S1x64, .f32⟩
  | .local _ .vmem, ⟨25, _⟩ => ⟨S128x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S64x2, .f32⟩
  | .local _ .vmem, ⟨31, _⟩ => ⟨S1x2, .f32⟩
  | .local _ .vmem, ⟨32, _⟩ => ⟨S5000x2, .f32⟩
  | .local _ .vmem, ⟨33, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v13 : Ref sig .tc := ⟨.hbm, 57, rfl⟩
abbrev main_cst_3 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22_0 : Ref sig .tc := ⟨.hbm, 67, rfl⟩
abbrev main_v22_1 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v23 : Ref sig .tc := ⟨.hbm, 91, rfl⟩
abbrev main_cst_4 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x2 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S64_S1x64 : S64.ShapeCasts S1x64
  shapeCasts_S2_S1x2 : S2.ShapeCasts S1x2
  shapeCasts_S5000x128_S5000x128 : S5000x128.ShapeCasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x64.size a ≤ S100000x64.size a
  hwx0_12 : ∀ i : grid0.Coords, EltTy.bits .f32 = 32 ∨ (Rect.block (s := S100000x64) S5000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x2.size a ≤ S64x2.size a
  hwx1_9 : ∀ i : grid1.Coords, EltTy.bits .f32 = 32 ∨ (Rect.block (s := S64x2) S64x2.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x2.size a ≤ S1x2.size a
  hwx1_10 : ∀ i : grid1.Coords, EltTy.bits .f32 = 32 ∨ (Rect.block (s := S1x2) S1x2.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x2.size a ≤ S100000x2.size a
  hwx1_11 : ∀ i : grid1.Coords, EltTy.bits .f32 = 32 ∨ (Rect.block (s := S100000x2) S5000x2.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22_0) S5000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_1) S5000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S64x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S1x2.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v33) S5000x2.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S100000x2 : Shape := ⟨2, ![100000, 2]⟩
abbrev S1x2 : Shape := ⟨2, ![1, 2]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S_, .f32⟩
  | .hbm, ⟨84, _⟩ => ⟨S1600000, .f32⟩
  | .hbm, ⟨85, _⟩ => ⟨S_, .f32⟩
  | .hbm, ⟨86, _⟩ => ⟨S100000, .f32⟩
  | .hbm, ⟨87, _⟩ => ⟨S1600000x1, .i32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S64, .f32⟩
  | .hbm, ⟨108, _⟩ => ⟨S64, .f32⟩
  | .hbm, ⟨109, _⟩ => ⟨S1x64, .f32⟩
  | .hbm, ⟨110, _⟩ => ⟨S100000x64, .f32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S_, .f32⟩
  | .hbm, ⟨116, _⟩ => ⟨S100000x64, .f32⟩
  | .hbm, ⟨117, _⟩ => ⟨S100000x64, .f32⟩
  | .hbm, ⟨118, _⟩ => ⟨S100000x2, .f32⟩
  | .hbm, ⟨119, _⟩ => ⟨S1x2, .f32⟩
  | .hbm, ⟨120, _⟩ => ⟨S100000x2, .f32⟩
  | .hbm, ⟨121, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_call0_cst : Ref sig .tc := ⟨.hbm, 67, rfl⟩
abbrev main_call0_v0 : Ref sig .tc := ⟨.hbm, 68, rfl⟩
abbrev main_v42 : Ref sig .tc := ⟨.hbm, 69, rfl⟩
abbrev main_c_5 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_call1_cst : Ref sig .tc := ⟨.hbm, 115, rfl⟩
abbrev main_call1_v0 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The mathematics of the two programs, with no program in sight: a two-layer GraphSAGE network with mean aggregation,
  inference-mode batch normalisation and ReLU after each layer, and a linear classifier, on the extended reals.

  A node's layer output is  bnRelu (mean_nbrs · W_l + b + x · W_r).  The mean over a node's in-neighbours is the sum
  over its in-edges divided by max(count, 1).  One program divides each summed row by that count (x / c); the other
  multiplies it by the reciprocal 1 / c computed once (x · (1 / c)): for c ≥ 1 both are x · c⁻¹.  In the second layer
  one program aggregates the 128-wide activations and then projects through W_l, the other projects every node to
  64 columns first and aggregates the projections: mean(h[nbrs]) · W = mean(h[nbrs] · W).  On the extended reals
  that exchange needs care, since a product does not distribute over a sum of infinities of both signs; it holds
  here because the activations h are outputs of a ReLU, hence nonnegative (a sum of nonnegative terms times w
  distributes), and because c⁻¹ is a nonnegative real (multiplication by it distributes over every sum).
-/
import Idealize.ShloMosaic.PureOps.Ideal
import Idealize.ShloMosaic.PureOps.Ideal.Laws
import Mathlib.Data.EReal.Inv

noncomputable section

namespace Cert.Sage

open Idealize.ShloMosaic

/-- The batch-norm epsilon both programs carry (the f32 nearest 1e-5), as the extended real its pattern denotes. -/
abbrev bnEps : EReal := Ideal.ofBits .f32 0x3727C5AC#32

/-- Inference-mode batch normalisation followed by ReLU, on one entry:
    max ((lin − mean) · (gamma · rsqrt (var + eps)) + beta, 0). -/
def bnRelu (lin mu g va be : EReal) : EReal := max ((lin - mu) * (g * Ideal.rsqrt (va + bnEps)) + be) 0

theorem bnRelu_nonneg (lin mu g va be : EReal) : 0 ≤ bnRelu lin mu g va be := le_max_right _ _

/-- Layer 1 at node `n`, feature `k`: the aggregated row through W_l, plus the bias, plus the node's own row through W_r,
    normalised and rectified. -/
def h1At {N : Nat} (mean X : Fin N → Fin 64 → EReal) (Wl Wr : Fin 64 → Fin 128 → EReal) (b g be mu va : Fin 128 → EReal)
    (n : Fin N) (k : Fin 128) : EReal :=
  bnRelu (((∑ d : Fin 64, mean n d * Wl d k) + b k) + ∑ d : Fin 64, X n d * Wr d k) (mu k) (g k) (va k) (be k)

/-- A node's 128 activations projected to 64 columns. -/
def projAt {N : Nat} (h : Fin N → Fin 128 → EReal) (W : Fin 128 → Fin 64 → EReal) (n : Fin N) (j : Fin 64) : EReal :=
  ∑ k : Fin 128, h n k * W k j

/-- Layer 2 at node `n`, feature `j`, from the already projected aggregate `agg`. -/
def h2At {N : Nat} (agg : Fin N → Fin 64 → EReal) (h : Fin N → Fin 128 → EReal) (Wr : Fin 128 → Fin 64 → EReal)
    (b g be mu va : Fin 64 → EReal) (n : Fin N) (j : Fin 64) : EReal :=
  bnRelu ((agg n j + b j) + ∑ k : Fin 128, h n k * Wr k j) (mu j) (g j) (va j) (be j)

/-- The classifier: logits of node `n`. -/
def outAt {N : Nat} (h2 : Fin N → Fin 64 → EReal) (Wc : Fin 64 → Fin 2 → EReal) (bc : Fin 2 → EReal) (n : Fin N) (q : Fin 2) :
    EReal :=
  (∑ j : Fin 64, h2 n j * Wc j q) + bc q

/-! ## The two laws -/

/-- For a count c ≥ 1, multiplying by the reciprocal is dividing: both are x · c⁻¹. -/
theorem mul_recip_eq_div (x c : EReal) (hc : 1 ≤ c) : x * Ideal.div 1 c = Ideal.div x c := by
  have h0 : c ≠ 0 := (lt_of_lt_of_le zero_lt_one hc).ne'
  rw [Ideal.div, if_neg h0, Ideal.div, if_neg h0, one_mul]

/-- A sum of nonnegative extended reals times any factor is the sum of the products. -/
theorem sum_mul_of_nonneg {ι : Type} (s : Finset ι) (f : ι → EReal) (hf : ∀ i ∈ s, 0 ≤ f i) (w : EReal) :
    (∑ i ∈ s, f i) * w = ∑ i ∈ s, f i * w := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- Any sum times a nonnegative factor that is not +∞ is the sum of the products. -/
theorem sum_mul_of_nonneg_ne_top {ι : Type} (s : Finset ι) (f : ι → EReal) (r : EReal) (h0 : 0 ≤ r) (ht : r ≠ ⊤) :
    (∑ i ∈ s, f i) * r = ∑ i ∈ s, f i * r := by
  classical
  induction s using Finset.induction_on with
  | empty => simp
  | insert a s ha ih =>
    rw [Finset.sum_insert ha, Finset.sum_insert ha, EReal.right_distrib_of_nonneg_of_ne_top h0 ht, ih]

/-- Aggregating projections is projecting the aggregate: for nonnegative activations `h` and a count c ≥ 1,
    (Σ_e Σ_k h(r e, k) · W(k, j)) · (1 / c) = Σ_k ((Σ_e h(r e, k)) / c) · W(k, j). -/
theorem agg_proj {N : Nat} {ι : Type} (Es : Finset ι) (r : ι → Fin N) (h : Fin N → Fin 128 → EReal)
    (hh : ∀ n k, 0 ≤ h n k) (W : Fin 128 → Fin 64 → EReal) (c : EReal) (hc : 1 ≤ c) (j : Fin 64) :
    (0 + ∑ e ∈ Es, projAt h W (r e) j) * Ideal.div 1 c
      = ∑ k : Fin 128, Ideal.div (0 + ∑ e ∈ Es, h (r e) k) c * W k j := by
  have h0 : c ≠ 0 := (lt_of_lt_of_le zero_lt_one hc).ne'
  have hc0 : (0 : EReal) ≤ c := zero_le_one.trans hc
  simp only [Ideal.div, if_neg h0, one_mul, zero_add, projAt]
  rw [Finset.sum_comm, sum_mul_of_nonneg_ne_top _ _ c⁻¹ (EReal.inv_nonneg_of_nonneg hc0) (EReal.inv_lt_top c).ne]
  refine Finset.sum_congr rfl fun k _ => ?_
  rw [← sum_mul_of_nonneg Es (fun e => h (r e) k) (fun e _ => hh _ _) (W k j)]
  exact mul_right_comm _ _ _

/-! ## The two programs' results, and their equality -/

section Bridge

variable {N : Nat} {ι : Type} (Es : Fin N → Finset ι) (r : ι → Fin N) (cm : Fin N → EReal)
  (X : Fin N → Fin 64 → EReal) (W1l W1r : Fin 64 → Fin 128 → EReal) (b1 g1 be1 mu1 va1 : Fin 128 → EReal)
  (W2l W2r : Fin 128 → Fin 64 → EReal) (b2 g2 be2 mu2 va2 : Fin 64 → EReal) (Wc : Fin 64 → Fin 2 → EReal) (bc : Fin 2 → EReal)

/-- Layer 1 where the summed neighbour rows are multiplied by the reciprocal count. -/
def h1K : Fin N → Fin 128 → EReal :=
  h1At (fun n d => (0 + ∑ e ∈ Es n, X (r e) d) * Ideal.div 1 (cm n)) X W1l W1r b1 g1 be1 mu1 va1

/-- Layer 1 where the summed neighbour rows are divided by the count. -/
def h1R : Fin N → Fin 128 → EReal :=
  h1At (fun n d => Ideal.div (0 + ∑ e ∈ Es n, X (r e) d) (cm n)) X W1l W1r b1 g1 be1 mu1 va1

/-- The logits where layer 2 aggregates the projected activations and multiplies by the reciprocal count. -/
def outK : Fin N → Fin 2 → EReal :=
  outAt (h2At (fun n j => (0 + ∑ e ∈ Es n, projAt (h1K Es r cm X W1l W1r b1 g1 be1 mu1 va1) W2l (r e) j) * Ideal.div 1 (cm n))
    (h1K Es r cm X W1l W1r b1 g1 be1 mu1 va1) W2r b2 g2 be2 mu2 va2) Wc bc

/-- The logits where layer 2 aggregates the activations, divides by the count and then projects. -/
def outR : Fin N → Fin 2 → EReal :=
  outAt (h2At (fun n j => ∑ k : Fin 128, Ideal.div (0 + ∑ e ∈ Es n, h1R Es r cm X W1l W1r b1 g1 be1 mu1 va1 (r e) k) (cm n) * W2l k j)
    (h1R Es r cm X W1l W1r b1 g1 be1 mu1 va1) W2r b2 g2 be2 mu2 va2) Wc bc

theorem h1K_eq_h1R (hcm : ∀ n, 1 ≤ cm n) :
    h1K Es r cm X W1l W1r b1 g1 be1 mu1 va1 = h1R Es r cm X W1l W1r b1 g1 be1 mu1 va1 := by
  unfold h1K h1R
  congr 1
  funext n d
  exact mul_recip_eq_div _ _ (hcm n)

/-- The two programs compute the same logits. -/
theorem outK_eq_outR (hcm : ∀ n, 1 ≤ cm n) :
    outK Es r cm X W1l W1r b1 g1 be1 mu1 va1 W2l W2r b2 g2 be2 mu2 va2 Wc bc
      = outR Es r cm X W1l W1r b1 g1 be1 mu1 va1 W2l W2r b2 g2 be2 mu2 va2 Wc bc := by
  unfold outK outR
  rw [h1K_eq_h1R Es r cm X W1l W1r b1 g1 be1 mu1 va1 hcm]
  congr 2
  funext n j
  exact agg_proj (Es n) r _ (fun n k => bnRelu_nonneg _ _ _ _ _) W2l (cm n) (hcm n) j

end Bridge

end Cert.Sage

end
-- ==== Proof.Region0.lean ====
/-
  Layer 1 as the first pallas_call leaves it.  The call tiles the 100000 nodes into 20 row blocks of 5000; at block t its
  body reads rows 5000·t … 5000·t + 4999 of the summed neighbour rows, of the reciprocal counts and of the node features,
  and the whole weight, bias and batch-norm arrays, and writes the same rows of two outputs: the activations h1 (window 11)
  and their projection p = h1 · W2_l (window 12).  Every output row depends only on the same row of the row-tiled inputs,
  so each output array, after the 20 blocks, is ONE function of the arrays the call was entered with, index by index.
-/
import proofs.«401283_j85796266705369_3_alg».proof.Proof.Gen.KernelIdeal.Frame
import proofs.«401283_j85796266705369_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! The arrays the call is entered with, each named at its literal type (window w stages array `Pipeline.arrRef spec0 w`). -/
/-- The summed neighbour rows. -/
abbrev aSum (c : Dev nD) : S100000x64.Idx → EReal := V c (Pipeline.arrRef spec0 0)
/-- The reciprocal neighbour counts, one per node. -/
abbrev aInv (c : Dev nD) : S100000x1.Idx → EReal := V c (Pipeline.arrRef spec0 1)
/-- The node features. -/
abbrev aX (c : Dev nD) : S100000x64.Idx → EReal := V c (Pipeline.arrRef spec0 2)
/-- W1_l. -/
abbrev aWl (c : Dev nD) : S64x128.Idx → EReal := V c (Pipeline.arrRef spec0 3)
/-- b1_l as a row. -/
abbrev aB (c : Dev nD) : S1x128.Idx → EReal := V c (Pipeline.arrRef spec0 4)
/-- W1_r. -/
abbrev aWr (c : Dev nD) : S64x128.Idx → EReal := V c (Pipeline.arrRef spec0 5)
/-- W2_l. -/
abbrev aW2 (c : Dev nD) : S128x64.Idx → EReal := V c (Pipeline.arrRef spec0 6)
/-- Batch-norm scale gamma, as a row. -/
abbrev aG (c : Dev nD) : S1x128.Idx → EReal := V c (Pipeline.arrRef spec0 7)
/-- Batch-norm shift beta, as a row. -/
abbrev aBe (c : Dev nD) : S1x128.Idx → EReal := V c (Pipeline.arrRef spec0 8)
/-- Batch-norm running mean, as a row. -/
abbrev aMu (c : Dev nD) : S1x128.Idx → EReal := V c (Pipeline.arrRef spec0 9)
/-- Batch-norm running variance, as a row. -/
abbrev aVa (c : Dev nD) : S1x128.Idx → EReal := V c (Pipeline.arrRef spec0 10)

/-! ## The body's result at an entry of its block -/

/-- A column of per-row values repeated along each row reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The [5000, 64] × [64, 128] product: at output entry (r, k) and contraction coordinate d the left operand is read at
    (r, d) and the right one at (d, k). -/
theorem lhs_in_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_in_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_in_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_in_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A row block through a [64, 128] weight, accumulated from zero: entry (r, k) is Σ_d l(r, d) · w(d, k). -/
theorem matmul_in_apply (l : FVec Ideal S5000x64 .f32) (w : FVec Ideal S64x128 .f32) (r : Fin 5000) (k : Fin 128) :
    matmul dot_S5000x64_S64x128_S5000x128_1_0_0_1_n_n none l w (constant (F := Ideal) S5000x128 .f32 0x00000000#32) (ix2 r k)
      = ∑ d : Fin 64, l (ix2 r d) * w (ix2 d k) := by
  simp only [matmul]
  rw [Ideal.matmul_constant_zero_apply, ← Equiv.sum_comp (contrEquiv1 dot_S5000x64_S64x128_S5000x128_1_0_0_1_n_n 64 rfl rfl).symm]
  refine Finset.sum_congr rfl fun d _ => ?_
  have hk := contrEquiv1_symm_val dot_S5000x64_S64x128_S5000x128_1_0_0_1_n_n 64 rfl rfl d
  have el : dot_S5000x64_S64x128_S5000x128_1_0_0_1_n_n.lhsIdx (ix2 r k) ((contrEquiv1 dot_S5000x64_S64x128_S5000x128_1_0_0_1_n_n 64 rfl rfl).symm d) = ix2 r d := funext fun a => Fin.ext (by
    match a with
    | ⟨0, _⟩ => exact lhs_in_0 _ _
    | ⟨1, _⟩ => exact (lhs_in_1 _ _).trans hk)
  have er : dot_S5000x64_S64x128_S5000x128_1_0_0_1_n_n.rhsIdx (ix2 r k) ((contrEquiv1 dot_S5000x64_S64x128_S5000x128_1_0_0_1_n_n 64 rfl rfl).symm d) = ix2 d k := funext fun a => Fin.ext (by
    match a with
    | ⟨0, _⟩ => exact (rhs_in_0 _ _).trans hk
    | ⟨1, _⟩ => exact rhs_in_1 _ _)
  rw [el, er]

/-! The [5000, 128] × [128, 64] product likewise. -/
theorem lhs_out_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_out_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_out_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_out_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A row block of activations through a [128, 64] weight, accumulated from zero: entry (r, j) is Σ_k l(r, k) · w(k, j). -/
theorem matmul_out_apply (l : FVec Ideal S5000x128 .f32) (w : FVec Ideal S128x64 .f32) (r : Fin 5000) (j : Fin 64) :
    matmul dot_S5000x128_S128x64_S5000x64_1_0_0_1_n_n none l w (constant (F := Ideal) S5000x64 .f32 0x00000000#32) (ix2 r j)
      = ∑ k : Fin 128, l (ix2 r k) * w (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhs_out_0 _ _).trans hk
    | ⟨1, _⟩ => exact rhs_out_1 _ _)
  rw [el, er]

/-- The pre-activation of a row block at (r, k): the row's mean (summed row times reciprocal count) through W_l, plus
    the bias, plus the row's own features through W_r, normalised with the running statistics and shifted. -/
theorem pre_apply (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32)
    (g va mu be : Vec Ideal S1x128 .f32) (r : Fin 5000) (k : Fin 128) :
    k0_pay3 x0 x1 x2 x3 x4 x5 g va mu be (ix2 r k)
      = ((((∑ d : Fin 64, (x0 (ix2 r d) * x1 (ix2 r 0)) * x3 (ix2 d k)) + x4 (ix2 0 k))
            + ∑ d : Fin 64, x2 (ix2 r d) * x5 (ix2 d k)) - mu (ix2 0 k))
          * (g (ix2 0 k) * Ideal.rsqrt (va (ix2 0 k) + Cert.Sage.bnEps)) + be (ix2 0 k) := by
  unfold k0_pay3
  simp only [shapeCast_self, addf_apply, mulf_apply, subf_apply, matmul_in_apply, broadcastTo_1b_ab_apply,
    broadcastTo_a1_ab_apply, broadcast_apply, rsqrt, Ideal.rsqrt_def, Ideal.ofBits_def]

/-- The activations a row block stores at (r, k): the pre-activation rectified, i.e. `bnRelu` of the linear part. -/
theorem act_apply (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32)
    (g va mu be : Vec Ideal S1x128 .f32) (r : Fin 5000) (k : Fin 128) :
    k0_pay1 (k0_pay3 x0 x1 x2 x3 x4 x5 g va mu be) (k0_pay4 (F := Ideal)) (ix2 r k)
      = Cert.Sage.bnRelu
          (((∑ d : Fin 64, (x0 (ix2 r d) * x1 (ix2 r 0)) * x3 (ix2 d k)) + x4 (ix2 0 k))
            + ∑ d : Fin 64, x2 (ix2 r d) * x5 (ix2 d k))
          (mu (ix2 0 k)) (g (ix2 0 k)) (va (ix2 0 k)) (be (ix2 0 k)) := by
  unfold k0_pay1 k0_pay4 Cert.Sage.bnRelu
  simp only [maximumf_apply, pre_apply, broadcast_apply, Ideal.ofBits_def, Ideal.ofBits_zero_f32]

/-- The projection a row block stores at (r, j): the block's activations of row r through column j of W2_l. -/
theorem proj_apply (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32)
    (g va mu be : Vec Ideal S1x128 .f32) (w2 : Vec Ideal S128x64 .f32) (r : Fin 5000) (j : Fin 64) :
    k0_pay2 (k0_pay3 x0 x1 x2 x3 x4 x5 g va mu be) (k0_pay4 (F := Ideal)) w2 (ix2 r j)
      = ∑ k : Fin 128, k0_pay1 (k0_pay3 x0 x1 x2 x3 x4 x5 g va mu be) (k0_pay4 (F := Ideal)) (ix2 r k) * w2 (ix2 k j) := by
  unfold k0_pay2
  exact matmul_out_apply _ _ r j

/-! ## The blocks the body reads, as entries of the arrays -/

theorem zero_offsets : (![0, 0] : Fin 2 → Nat) = fun _ => 0 := funext fun a => by fin_cases a <;> rfl

/-- The index maps over the 20 grid points: a row-tiled window's block at point t is block (t, 0); a whole-array window's
    is block (0, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Row r of the summed-rows block at point t is row 5000·t + r of the array. -/
theorem blk_sum (c : Dev nD) (t : Fin cfg0.N) (r : Fin 5000) (d : Fin 64) (n : Fin 100000)
    (hn : n.val = 5000 * t.val + r.val) :
    (iblk0 V c 0 t : Vec Ideal S5000x64 .f32) (ix2 r d) = aSum V c (ix2 n d) := by
  unfold iblk0
  rw [View.read_apply]
  show aSum V c (((cfg0.win 0).blk t).view.emb (ix2 r d)) = aSum V c (ix2 n d)
  refine congrArg _ (funext fun a => Fin.ext ?_)
  match a with
  | ⟨0, _⟩ => show win0_0.index t (0 : Fin 2) * 5000 + 1 * r.val = n.val; rw [(idx_rows t).1.1, hn]; omega
  | ⟨1, _⟩ => show win0_0.index t (1 : Fin 2) * 64 + 1 * d.val = d.val; rw [(idx_rows t).1.2]; omega

/-- The one entry of row r of the reciprocal-counts block at point t is that of row 5000·t + r of the array. -/
theorem blk_inv (c : Dev nD) (t : Fin cfg0.N) (r : Fin 5000) (n : Fin 100000)
    (hn : n.val = 5000 * t.val + r.val) :
    (iblk0 V c 1 t : Vec Ideal S5000x1 .f32) (ix2 r 0) = aInv V c (ix2 n 0) := by
  unfold iblk0
  rw [View.read_apply]
  show aInv V c (((cfg0.win 1).blk t).view.emb (ix2 r 0)) = aInv V c (ix2 n 0)
  refine congrArg _ (funext fun a => Fin.ext ?_)
  match a with
  | ⟨0, _⟩ => show win0_1.index t (0 : Fin 2) * 5000 + 1 * r.val = n.val; rw [(idx_rows t).2.1.1, hn]; omega
  | ⟨1, _⟩ => show win0_1.index t (1 : Fin 2) * 1 + 1 * 0 = 0; have h := (idx_rows t).2.1.2; omega

/-- Row r of the features block at point t is row 5000·t + r of the array. -/
theorem blk_x (c : Dev nD) (t : Fin cfg0.N) (r : Fin 5000) (d : Fin 64) (n : Fin 100000)
    (hn : n.val = 5000 * t.val + r.val) :
    (iblk0 V c 2 t : Vec Ideal S5000x64 .f32) (ix2 r d) = aX V c (ix2 n d) := by
  unfold iblk0
  rw [View.read_apply]
  show aX V c (((cfg0.win 2).blk t).view.emb (ix2 r d)) = aX V c (ix2 n d)
  refine congrArg _ (funext fun a => Fin.ext ?_)
  match a with
  | ⟨0, _⟩ => show win0_2.index t (0 : Fin 2) * 5000 + 1 * r.val = n.val; rw [(idx_rows t).2.2.1.1, hn]; omega
  | ⟨1, _⟩ => show win0_2.index t (1 : Fin 2) * 64 + 1 * d.val = d.val; rw [(idx_rows t).2.2.1.2]; omega

/-- The W1_l block at every point is the whole array. -/
theorem blk_wl (c : Dev nD) (t : Fin cfg0.N) : (iblk0 V c 3 t : Vec Ideal S64x128 .f32) = aWl V c := by
  funext y
  unfold iblk0
  rw [View.read_apply]
  show aWl V c (((cfg0.win 3).blk t).view.emb y) = aWl V c y
  refine congrArg _ (funext fun a => Fin.ext ?_)
  match a with
  | ⟨0, _⟩ => show win0_3.index t (0 : Fin 2) * 64 + 1 * (y 0).val = (y 0).val; rw [(idx_whole t).1.1]; omega
  | ⟨1, _⟩ => show win0_3.index t (1 : Fin 2) * 128 + 1 * (y 1).val = (y 1).val; rw [(idx_whole t).1.2]; omega
/-- The bias block at every point is the whole array. -/
theorem blk_b (c : Dev nD) (t : Fin cfg0.N) : (iblk0 V c 4 t : Vec Ideal S1x128 .f32) = aB V c := by
  funext y
  unfold iblk0
  rw [View.read_apply]
  show aB V c (((cfg0.win 4).blk t).view.emb y) = aB V c y
  refine congrArg _ (funext fun a => Fin.ext ?_)
  match a with
  | ⟨0, _⟩ => show win0_4.index t (0 : Fin 2) * 1 + 1 * (y 0).val = (y 0).val; rw [(idx_whole t).2.1.1]; omega
  | ⟨1, _⟩ => show win0_4.index t (1 : Fin 2) * 128 + 1 * (y 1).val = (y 1).val; rw [(idx_whole t).2.1.2]; omega
/-- The W1_r block at every point is the whole array. -/
theorem blk_wr (c : Dev nD) (t : Fin cfg0.N) : (iblk0 V c 5 t : Vec Ideal S64x128 .f32) = aWr V c := by
  funext y
  unfold iblk0
  rw [View.read_apply]
  show aWr V c (((cfg0.win 5).blk t).view.emb y) = aWr V c y
  refine congrArg _ (funext fun a => Fin.ext ?_)
  match a with
  | ⟨0, _⟩ => show win0_5.index t (0 : Fin 2) * 64 + 1 * (y 0).val = (y 0).val; rw [(idx_whole t).2.2.1.1]; omega
  | ⟨1, _⟩ => show win0_5.index t (1 : Fin 2) * 128 + 1 * (y 1).val = (y 1).val; rw [(idx_whole t).2.2.1.2]; omega
/-- The W2_l block at every point is the whole array. -/
theorem blk_w2 (c : Dev nD) (t : Fin cfg0.N) : (iblk0 V c 6 t : Vec Ideal S128x64 .f32) = aW2 V c := by
  funext y
  unfold iblk0
  rw [View.read_apply]
  show aW2 V c (((cfg0.win 6).blk t).view.emb y) = aW2 V c y
  refine congrArg _ (funext fun a => Fin.ext ?_)
  match a with
  | ⟨0, _⟩ => show win0_6.index t (0 : Fin 2) * 128 + 1 * (y 0).val = (y 0).val; rw [(idx_whole t).2.2.2.1.1]; omega
  | ⟨1, _⟩ => show win0_6.index t (1 : Fin 2) * 64 + 1 * (y 1).val = (y 1).val; rw [(idx_whole t).2.2.2.1.2]; omega
/-- The batch-norm scale block at every point is the whole array. -/
theorem blk_g (c : Dev nD) (t : Fin cfg0.N) : (iblk0 V c 7 t : Vec Ideal S1x128 .f32) = aG V c := by
  funext y
  unfold iblk0
  rw [View.read_apply]
  show aG V c (((cfg0.win 7).blk t).view.emb y) = aG V c y
  refine congrArg _ (funext fun a => Fin.ext ?_)
  match a with
  | ⟨0, _⟩ => show win0_7.index t (0 : Fin 2) * 1 + 1 * (y 0).val = (y 0).val; rw [(idx_whole t).2.2.2.2.1.1]; omega
  | ⟨1, _⟩ => show win0_7.index t (1 : Fin 2) * 128 + 1 * (y 1).val = (y 1).val; rw [(idx_whole t).2.2.2.2.1.2]; omega
/-- The batch-norm shift block at every point is the whole array. -/
theorem blk_be (c : Dev nD) (t : Fin cfg0.N) : (iblk0 V c 8 t : Vec Ideal S1x128 .f32) = aBe V c := by
  funext y
  unfold iblk0
  rw [View.read_apply]
  show aBe V c (((cfg0.win 8).blk t).view.emb y) = aBe V c y
  refine congrArg _ (funext fun a => Fin.ext ?_)
  match a with
  | ⟨0, _⟩ => show win0_8.index t (0 : Fin 2) * 1 + 1 * (y 0).val = (y 0).val; rw [(idx_whole t).2.2.2.2.2.1.1]; omega
  | ⟨1, _⟩ => show win0_8.index t (1 : Fin 2) * 128 + 1 * (y 1).val = (y 1).val; rw [(idx_whole t).2.2.2.2.2.1.2]; omega
/-- The running-mean block at every point is the whole array. -/
theorem blk_mu (c : Dev nD) (t : Fin cfg0.N) : (iblk0 V c 9 t : Vec Ideal S1x128 .f32) = aMu V c := by
  funext y
  unfold iblk0
  rw [View.read_apply]
  show aMu V c (((cfg0.win 9).blk t).view.emb y) = aMu V c y
  refine congrArg _ (funext fun a => Fin.ext ?_)
  match a with
  | ⟨0, _⟩ => show win0_9.index t (0 : Fin 2) * 1 + 1 * (y 0).val = (y 0).val; rw [(idx_whole t).2.2.2.2.2.2.1.1]; omega
  | ⟨1, _⟩ => show win0_9.index t (1 : Fin 2) * 128 + 1 * (y 1).val = (y 1).val; rw [(idx_whole t).2.2.2.2.2.2.1.2]; omega
/-- The running-variance block at every point is the whole array. -/
theorem blk_va (c : Dev nD) (t : Fin cfg0.N) : (iblk0 V c 10 t : Vec Ideal S1x128 .f32) = aVa V c := by
  funext y
  unfold iblk0
  rw [View.read_apply]
  show aVa V c (((cfg0.win 10).blk t).view.emb y) = aVa V c y
  refine congrArg _ (funext fun a => Fin.ext ?_)
  match a with
  | ⟨0, _⟩ => show win0_10.index t (0 : Fin 2) * 1 + 1 * (y 0).val = (y 0).val; rw [(idx_whole t).2.2.2.2.2.2.2.1]; omega
  | ⟨1, _⟩ => show win0_10.index t (1 : Fin 2) * 128 + 1 * (y 1).val = (y 1).val; rw [(idx_whole t).2.2.2.2.2.2.2.2]; omega
/-- Layer 1's activations as a function of the arrays the call is entered with. -/
abbrev h1Of (c : Dev nD) : Fin 100000 → Fin 128 → EReal :=
  Cert.Sage.h1At
    (fun n d => aSum V c (ix2 n d) * aInv V c (ix2 n 0))
    (fun n d => aX V c (ix2 n d))
    (fun d k => aWl V c (ix2 d k)) (fun d k => aWr V c (ix2 d k))
    (fun k => aB V c (ix2 0 k)) (fun k => aG V c (ix2 0 k))
    (fun k => aBe V c (ix2 0 k)) (fun k => aMu V c (ix2 0 k))
    (fun k => aVa V c (ix2 0 k))

/-! ## What each point writes back -/

/-- At point t the activations the body computes at (r, k) are layer 1 at node 5000·t + r, feature k. -/
theorem act_at (c : Dev nD) (t : Fin cfg0.N) (r : Fin 5000) (k : Fin 128) (n : Fin 100000)
    (hn : n.val = 5000 * t.val + r.val) :
    k0_pay1 (k0_pay3 (iblk0 V c 0 t) (iblk0 V c 1 t) (iblk0 V c 2 t) (iblk0 V c 3 t) (iblk0 V c 4 t) (iblk0 V c 5 t)
        (iblk0 V c 7 t) (iblk0 V c 10 t) (iblk0 V c 9 t) (iblk0 V c 8 t)) (k0_pay4 (F := Ideal)) (ix2 r k)
      = h1Of V c n k := by
  rw [blk_wl V c t, blk_b V c t, blk_wr V c t, blk_g V c t, blk_va V c t, blk_mu V c t, blk_be V c t]
  refine (act_apply _ _ _ _ _ _ _ _ _ _ r k).trans ?_
  simp only [fun d => blk_sum V c t r d n hn, blk_inv V c t r n hn, fun d => blk_x V c t r d n hn]
  rfl

/-- The activations array the call leaves: entry (n, k) is layer 1 at node n, feature k. -/
abbrev h1Arr (c : Dev nD) : S100000x128.Idx → EReal :=
  fun i => h1Of V c ⟨(i 0).val, idx2_lt0 i⟩ ⟨(i 1).val, idx2_lt1 i⟩

/-- The projection array the call leaves: entry (n, j) is node n's activations through column j of W2_l. -/
abbrev pArr (c : Dev nD) : S100000x64.Idx → EReal :=
  fun i => Cert.Sage.projAt (h1Of V c) (fun k j => aW2 V c (ix2 k j)) ⟨(i 0).val, idx2_lt0 i⟩ ⟨(i 1).val, idx2_lt1 i⟩

/-- WHAT POINT t WRITES BACK to the activations array is rows 5000·t … 5000·t + 4999 of `h1Arr`. -/
theorem flushed_h1 (c : Dev nD) (t : Fin cfg0.N) :
    (dat0 (F := Ideal) V c).flushed 11 t = ((cfg0.win 11).blk t).view.read (Elt Ideal) (h1Arr V c) := by
  show (cfg0.win 11).cut (grid0.coords t) ((dat0 (F := Ideal) V c).after 11 t) = _
  rw [after0_11]
  unfold out0_11
  rw [View.canon_unit_zero zero_offsets]
  simp only [View.ld_unit_zero (S := S5000x64) zero_offsets, View.ld_unit_zero (S := S5000x1) zero_offsets,
    View.ld_unit_zero (S := S64x128) zero_offsets, View.ld_unit_zero (S := S1x128) zero_offsets]
  funext j
  obtain ⟨r, k, rfl⟩ : ∃ (r : Fin 5000) (k : Fin 128), j = ix2 r k := ⟨j 0, j 1, eq_ix2 j⟩
  have hN : cfg0.N = 20 := N_0
  have hlt : 5000 * t.val + r.val < 100000 := by have := t.isLt; have := r.isLt; omega
  show k0_pay1 (k0_pay3 (iblk0 V c 0 t) (iblk0 V c 1 t) (iblk0 V c 2 t) (iblk0 V c 3 t) (iblk0 V c 4 t) (iblk0 V c 5 t)
        (iblk0 V c 7 t) (iblk0 V c 10 t) (iblk0 V c 9 t) (iblk0 V c 8 t)) (k0_pay4 (F := Ideal)) (ix2 r k)
      = h1Arr V c (((cfg0.win 11).blk t).view.emb (ix2 r k))
  have hemb : ((cfg0.win 11).blk t).view.emb (ix2 r k) = ix2 (⟨5000 * t.val + r.val, hlt⟩ : Fin 100000) k := by
    funext a; apply Fin.ext
    match a with
    | ⟨0, _⟩ => show win0_11.index t (0 : Fin 2) * 5000 + 1 * r.val = 5000 * t.val + r.val; rw [(idx_rows t).2.2.2.1.1]; omega
    | ⟨1, _⟩ => show win0_11.index t (1 : Fin 2) * 128 + 1 * k.val = k.val; rw [(idx_rows t).2.2.2.1.2]; omega
  rw [hemb]
  exact act_at V c t r k ⟨_, hlt⟩ rfl

/-- WHAT POINT t WRITES BACK to the projection array is rows 5000·t … 5000·t + 4999 of `pArr`. -/
theorem flushed_p (c : Dev nD) (t : Fin cfg0.N) :
    (dat0 (F := Ideal) V c).flushed 12 t = ((cfg0.win 12).blk t).view.read (Elt Ideal) (pArr V c) := by
  show (cfg0.win 12).cut (grid0.coords t) ((dat0 (F := Ideal) V c).after 12 t) = _
  rw [after0_12]
  unfold out0_12
  rw [View.canon_unit_zero zero_offsets]
  simp only [View.ld_unit_zero (S := S5000x64) zero_offsets, View.ld_unit_zero (S := S5000x1) zero_offsets,
    View.ld_unit_zero (S := S64x128) zero_offsets, View.ld_unit_zero (S := S1x128) zero_offsets,
    View.ld_unit_zero (S := S128x64) zero_offsets]
  funext i
  obtain ⟨r, j, rfl⟩ : ∃ (r : Fin 5000) (j : Fin 64), i = ix2 r j := ⟨i 0, i 1, eq_ix2 i⟩
  have hN : cfg0.N = 20 := N_0
  have hlt : 5000 * t.val + r.val < 100000 := by have := t.isLt; have := r.isLt; omega
  show k0_pay2 (k0_pay3 (iblk0 V c 0 t) (iblk0 V c 1 t) (iblk0 V c 2 t) (iblk0 V c 3 t) (iblk0 V c 4 t) (iblk0 V c 5 t)
        (iblk0 V c 7 t) (iblk0 V c 10 t) (iblk0 V c 9 t) (iblk0 V c 8 t)) (k0_pay4 (F := Ideal)) (iblk0 V c 6 t) (ix2 r j)
      = pArr V c (((cfg0.win 12).blk t).view.emb (ix2 r j))
  have hemb : ((cfg0.win 12).blk t).view.emb (ix2 r j) = ix2 (⟨5000 * t.val + r.val, hlt⟩ : Fin 100000) j := by
    funext a; apply Fin.ext
    match a with
    | ⟨0, _⟩ => show win0_12.index t (0 : Fin 2) * 5000 + 1 * r.val = 5000 * t.val + r.val; rw [(idx_rows t).2.2.2.2.1]; omega
    | ⟨1, _⟩ => show win0_12.index t (1 : Fin 2) * 64 + 1 * j.val = j.val; rw [(idx_rows t).2.2.2.2.2]; omega
  rw [hemb, blk_w2 V c t]
  refine (proj_apply _ _ _ _ _ _ _ _ _ _ _ r j).trans ?_
  show _ = ∑ k : Fin 128, h1Of V c ⟨5000 * t.val + r.val, hlt⟩ k * aW2 V c (ix2 k j)
  exact Finset.sum_congr rfl fun k _ => by rw [act_at V c t r k ⟨_, hlt⟩ rfl]

/-! ## The 20 row blocks tile the arrays -/

/-- An entry of the activations array is in point t's block iff each coordinate is in the block's range on its axis. -/
theorem mem_blk_h1 (t : Fin cfg0.N) (i : S100000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v22_0).slice (win0_11.rect t)).set ↔ _
  rw [View.set_slice_whole, Rect.mem_set_unit]
  exact Iff.rfl

/-- An entry of the projection array is in point t's block iff each coordinate is in the block's range on its axis. -/
theorem mem_blk_p (t : Fin cfg0.N) (i : S100000x64.Idx) :
    i ∈ ((cfg0.win 12).blk t).view.set ↔ ∀ a : Fin 2, win0_12.index t a * S5000x64.size a ≤ (i a).val ∧ (i a).val < win0_12.index t a * S5000x64.size a + S5000x64.size a := by
  show i ∈ ((View.whole main_v22_1).slice (win0_12.rect t)).set ↔ _
  rw [View.set_slice_whole, Rect.mem_set_unit]
  exact Iff.rfl

/-- Row n of the activations array lies in the block of point n / 5000. -/
theorem cover_h1 (i : S100000x128.Idx) :
    ∃ t : Fin cfg0.N, (cfg0.win 11).flush t = true ∧ i ∈ ((cfg0.win 11).blk t).view.set := by
  have hN : cfg0.N = 20 := N_0
  have hi0 : (i 0).val < 100000 := idx2_lt0 i
  have hi1 : (i 1).val < 128 := idx2_lt1 i
  obtain ⟨t, ht⟩ : ∃ t : Fin cfg0.N, t.val = (i 0).val / 5000 := ⟨⟨(i 0).val / 5000, by omega⟩, rfl⟩
  refine ⟨t, flush0_11 t, ?_⟩
  rw [mem_blk_h1]
  intro a
  match a with
  | ⟨0, _⟩ =>
    show win0_11.index t (0 : Fin 2) * 5000 ≤ (i 0).val ∧ (i 0).val < win0_11.index t (0 : Fin 2) * 5000 + 5000
    rw [(idx_rows t).2.2.2.1.1]; omega
  | ⟨1, _⟩ =>
    show win0_11.index t (1 : Fin 2) * 128 ≤ (i 1).val ∧ (i 1).val < win0_11.index t (1 : Fin 2) * 128 + 128
    rw [(idx_rows t).2.2.2.1.2]; omega

/-- Row n of the projection array lies in the block of point n / 5000. -/
theorem cover_p (i : S100000x64.Idx) :
    ∃ t : Fin cfg0.N, (cfg0.win 12).flush t = true ∧ i ∈ ((cfg0.win 12).blk t).view.set := by
  have hN : cfg0.N = 20 := N_0
  have hi0 : (i 0).val < 100000 := idx2_lt0 i
  have hi1 : (i 1).val < 64 := idx2_lt1 i
  obtain ⟨t, ht⟩ : ∃ t : Fin cfg0.N, t.val = (i 0).val / 5000 := ⟨⟨(i 0).val / 5000, by omega⟩, rfl⟩
  refine ⟨t, flush0_12 t, ?_⟩
  rw [mem_blk_p]
  intro a
  match a with
  | ⟨0, _⟩ =>
    show win0_12.index t (0 : Fin 2) * 5000 ≤ (i 0).val ∧ (i 0).val < win0_12.index t (0 : Fin 2) * 5000 + 5000
    rw [(idx_rows t).2.2.2.2.1]; omega
  | ⟨1, _⟩ =>
    show win0_12.index t (1 : Fin 2) * 64 ≤ (i 1).val ∧ (i 1).val < win0_12.index t (1 : Fin 2) * 64 + 64
    rw [(idx_rows t).2.2.2.2.2]; omega

/-! ## The arrays after the 20 blocks -/

/-- The activations array after the call is `h1Arr`. -/
theorem h1_final (c : Dev nD) : (dat0 (F := Ideal) V c).arrAt 11 cfg0.N = h1Arr V c :=
  (dat0 (F := Ideal) V c).arrAt_eq_of_cover 11 (h1Arr V c) (fun t _ => flushed_h1 V c t) cover_h1

/-- The projection array after the call is `pArr`. -/
theorem p_final (c : Dev nD) : (dat0 (F := Ideal) V c).arrAt 12 cfg0.N = pArr V c :=
  (dat0 (F := Ideal) V c).arrAt_eq_of_cover 12 (pArr V c) (fun t _ => flushed_p V c t) cover_p

/-- THE ACTIVATIONS ARRAY after the call: entry (n, k) is layer 1 at node n, feature k. -/
theorem h1_arr (c : Dev nD) (n : Fin 100000) (k : Fin 128) :
    (dat0 (F := Ideal) V c).arrAt 11 cfg0.N (ix2 n k) = h1Of V c n k :=
  congrFun (h1_final V c) (ix2 n k)

/-- THE PROJECTION ARRAY after the call: entry (n, j) is node n's activations through W2_l's column j. -/
theorem p_arr (c : Dev nD) (n : Fin 100000) (j : Fin 64) :
    (dat0 (F := Ideal) V c).arrAt 12 cfg0.N (ix2 n j)
      = Cert.Sage.projAt (h1Of V c) (fun k j => aW2 V c (ix2 k j)) n j :=
  congrFun (p_final V c) (ix2 n j)

end Cert.KernelIdeal.Region0

end
-- ==== Proof.Region1.lean ====
/-
  Layer 2 and the classifier as the second pallas_call leaves them.  The call tiles the 100000 nodes into 20 row blocks
  of 5000; at block t its body reads the same rows of the summed projected neighbour rows, of the reciprocal counts and
  of layer 1's activations, and the whole weight, bias and batch-norm arrays, and writes the same rows of the logits
  (window 11).  Every output row depends only on the same row of the row-tiled inputs, so the logits array, after the
  20 blocks, is ONE function of the arrays the call was entered with, index by index.
-/
import proofs.«401283_j85796266705369_3_alg».proof.Proof.Gen.KernelIdeal.Frame
import proofs.«401283_j85796266705369_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! The arrays the call is entered with, each named at its literal type (window w stages array `Pipeline.arrRef spec1 w`). -/
/-- The summed projected neighbour rows. -/
abbrev bSum (c : Dev nD) : S100000x64.Idx → EReal := V c (Pipeline.arrRef spec1 0)
/-- The reciprocal neighbour counts, one per node. -/
abbrev bInv (c : Dev nD) : S100000x1.Idx → EReal := V c (Pipeline.arrRef spec1 1)
/-- Layer 1's activations. -/
abbrev bH (c : Dev nD) : S100000x128.Idx → EReal := V c (Pipeline.arrRef spec1 2)
/-- b2_l as a row. -/
abbrev bB (c : Dev nD) : S1x64.Idx → EReal := V c (Pipeline.arrRef spec1 3)
/-- W2_r. -/
abbrev bWr (c : Dev nD) : S128x64.Idx → EReal := V c (Pipeline.arrRef spec1 4)
/-- Batch-norm scale gamma, as a row. -/
abbrev bG (c : Dev nD) : S1x64.Idx → EReal := V c (Pipeline.arrRef spec1 5)
/-- Batch-norm shift beta, as a row. -/
abbrev bBe (c : Dev nD) : S1x64.Idx → EReal := V c (Pipeline.arrRef spec1 6)
/-- Batch-norm running mean, as a row. -/
abbrev bMu (c : Dev nD) : S1x64.Idx → EReal := V c (Pipeline.arrRef spec1 7)
/-- Batch-norm running variance, as a row. -/
abbrev bVa (c : Dev nD) : S1x64.Idx → EReal := V c (Pipeline.arrRef spec1 8)
/-- The classifier's weights. -/
abbrev bWc (c : Dev nD) : S64x2.Idx → EReal := V c (Pipeline.arrRef spec1 9)
/-- The classifier's bias, as a row. -/
abbrev bBc (c : Dev nD) : S1x2.Idx → EReal := V c (Pipeline.arrRef spec1 10)

/-- The logits as a function of the arrays the call is entered with. -/
abbrev outOf (c : Dev nD) : Fin 100000 → Fin 2 → EReal :=
  Cert.Sage.outAt
    (Cert.Sage.h2At
      (fun n j => bSum V c (ix2 n j) * bInv V c (ix2 n 0))
      (fun n k => bH V c (ix2 n k))
      (fun k j => bWr V c (ix2 k j))
      (fun j => bB V c (ix2 0 j)) (fun j => bG V c (ix2 0 j))
      (fun j => bBe V c (ix2 0 j)) (fun j => bMu V c (ix2 0 j))
      (fun j => bVa V c (ix2 0 j)))
    (fun j q => bWc V c (ix2 j q)) (fun q => bBc V c (ix2 0 q))

/-! ## Layout and contraction operations read at an index -/

/-- A column broadcast along the rows. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the [5000,128] × [128,64] contraction, axis by axis: the left operand is read at (row, contracted), the right at (contracted, column). -/
theorem lhsH_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsH_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsH_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsH_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The [5000,128] × [128,64] product with a zero accumulator, at (r, j): the sum over the 128 contracted columns. -/
theorem matmulH_apply (x : FVec Ideal S5000x128 .f32) (w : FVec Ideal S128x64 .f32) (r : Fin 5000) (j : Fin 64) :
    matmul dot_S5000x128_S128x64_S5000x64_1_0_0_1_n_n none x w (constant S5000x64 .f32 0x00000000#32) (ix2 r j)
      = ∑ k : Fin 128, x (ix2 r k) * w (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact lhsH_0 _ _
    | ⟨1, _⟩ => exact (lhsH_1 _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (rhsH_0 _ _).trans hk
    | ⟨1, _⟩ => exact rhsH_1 _ _)
  rw [el, er]

/-! ## The body's two payloads at an index -/

/-- LAYER 2 at row r, feature j of a block: the summed projected row times the reciprocal count, plus the bias, plus the
    row's activations through W2_r, batch-normalised and rectified. -/
theorem pay_h2 (x0 : Vec Ideal S5000x64 .f32) (x1 : Vec Ideal S5000x1 .f32) (x2 : Vec Ideal S5000x128 .f32)
    (x3 : Vec Ideal S1x64 .f32) (x4 : Vec Ideal S128x64 .f32) (g va mu be : Vec Ideal S1x64 .f32) (r : Fin 5000) (j : Fin 64) :
    k1_pay2 x0 x1 x2 x3 x4 g va mu be (ix2 r j)
      = Cert.Sage.bnRelu ((x0 (ix2 r j) * x1 (ix2 r 0) + x3 (ix2 0 j)) + ∑ k : Fin 128, x2 (ix2 r k) * x4 (ix2 k j))
          (mu (ix2 0 j)) (g (ix2 0 j)) (va (ix2 0 j)) (be (ix2 0 j)) := by
  unfold k1_pay2 Cert.Sage.bnRelu
  simp only [shapeCast_self]
  rw [maximumf_apply, addf_apply, mulf_apply, subf_apply, addf_apply, addf_apply, mulf_apply]
  rw [broadcastTo_a1_ab_apply x1, matmulH_apply]
  simp only [broadcastTo_1b_ab_apply]
  rw [mulf_apply, broadcast_apply]
  simp only [Ideal.ofBits_def, Ideal.ofBits_zero_f32]
  rfl

/-- The operand indices of the [5000,64] × [64,2] contraction, axis by axis, likewise. -/
theorem lhsC_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhsC_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem rhsC_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem rhsC_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The [5000,64] × [64,2] product with a zero accumulator, at (r, q): the sum over the 64 contracted columns. -/
theorem matmulC_apply (x : FVec Ideal S5000x64 .f32) (w : FVec Ideal S64x2 .f32) (r : Fin 5000) (q : Fin 2) :
    matmul dot_S5000x64_S64x2_S5000x2_1_0_0_1_n_n none x w (constant S5000x2 .f32 0x00000000#32) (ix2 r q)
      = ∑ j : Fin 64, x (ix2 r j) * w (ix2 j q) := by
  simp only [matmul]
  rw [Ideal.matmul_constant_zero_apply, ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have el : dot_S5000x64_S64x2_S5000x2_1_0_0_1_n_n.lhsIdx (ix2 r q) ((contrEquiv1 dot_S5000x64_S64x2_S5000x2_1_0_0_1_n_n 64 rfl rfl).symm k) = ix2 r k := funext fun a => Fin.ext (by
    match a with
    | ⟨0, _⟩ => exact lhsC_0 _ _
    | ⟨1, _⟩ => exact (lhsC_1 _ _).trans hk)
  have er : dot_S5000x64_S64x2_S5000x2_1_0_0_1_n_n.rhsIdx (ix2 r q) ((contrEquiv1 dot_S5000x64_S64x2_S5000x2_1_0_0_1_n_n 64 rfl rfl).symm k) = ix2 k q := funext fun a => Fin.ext (by
    match a with
    | ⟨0, _⟩ => exact (rhsC_0 _ _).trans hk
    | ⟨1, _⟩ => exact rhsC_1 _ _)
  rw [el, er]

/-- THE CLASSIFIER at row r, class q of a block: the row of layer 2 through the classifier's weights, plus its bias. -/
theorem pay_out (h : FVec Ideal S5000x64 .f32) (wc : Vec Ideal S64x2 .f32) (bc : Vec Ideal S1x2 .f32) (r : Fin 5000) (q : Fin 2) :
    k1_pay1 h wc bc (ix2 r q) = (∑ j : Fin 64, h (ix2 r j) * wc (ix2 j q)) + bc (ix2 0 q) := by
  unfold k1_pay1
  simp only [shapeCast_self]
  rw [addf_apply, matmulC_apply, broadcastTo_1b_ab_apply]

/-! ## The windows' blocks as rows of the entry arrays -/

theorem hz : (![0, 0] : Fin 2 → Nat) = fun _ => 0 := funext fun a => by match a with | ⟨0, _⟩ => rfl | ⟨1, _⟩ => rfl

/-- The index maps over the grid: a row tile's block index at point t is (t, 0), a whole array's is (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

theorem row_lt (t : Fin cfg1.N) (r : Fin 5000) : 5000 * t.val + r.val < 100000 := by
  have h := t.isLt
  have hN : cfg1.N = 20 := N_1
  have hr := r.isLt
  omega

/-- Window 0's block at point t is rows 5000·t … 5000·t + 4999 of the summed projected rows. -/
theorem blk_sum (c : Dev nD) (t : Fin cfg1.N) (r : Fin 5000) (d : Fin 64) :
    (iblk1 V c 0 t : Vec Ideal S5000x64 .f32) (ix2 r d) = bSum V c (ix2 ⟨5000 * t.val + r.val, row_lt t r⟩ d) := by
  obtain ⟨h0, h1⟩ := (idx_facts t).1
  unfold iblk1; rw [View.read_apply]
  show V c (Pipeline.arrRef spec1 0) _ = V c (Pipeline.arrRef spec1 0) _
  congr 1
  funext a; apply Fin.ext
  match a with
  | ⟨0, _⟩ => show win1_0.index t (0 : Fin 2) * 5000 + 1 * r.val = 5000 * t.val + r.val; rw [h0]; omega
  | ⟨1, _⟩ => show win1_0.index t (1 : Fin 2) * 64 + 1 * d.val = d.val; rw [h1]; omega

/-- Window 1's block at point t is the same rows of the reciprocal counts. -/
theorem blk_inv (c : Dev nD) (t : Fin cfg1.N) (r : Fin 5000) (d : Fin 1) :
    (iblk1 V c 1 t : Vec Ideal S5000x1 .f32) (ix2 r d) = bInv V c (ix2 ⟨5000 * t.val + r.val, row_lt t r⟩ d) := by
  obtain ⟨h0, h1⟩ := (idx_facts t).2.1
  unfold iblk1; rw [View.read_apply]
  show V c (Pipeline.arrRef spec1 1) _ = V c (Pipeline.arrRef spec1 1) _
  congr 1
  funext a; apply Fin.ext
  match a with
  | ⟨0, _⟩ => show win1_1.index t (0 : Fin 2) * 5000 + 1 * r.val = 5000 * t.val + r.val; rw [h0]; omega
  | ⟨1, _⟩ => show win1_1.index t (1 : Fin 2) * 1 + 1 * d.val = d.val; rw [h1]; omega

/-- Window 2's block at point t is the same rows of layer 1's activations. -/
theorem blk_h (c : Dev nD) (t : Fin cfg1.N) (r : Fin 5000) (d : Fin 128) :
    (iblk1 V c 2 t : Vec Ideal S5000x128 .f32) (ix2 r d) = bH V c (ix2 ⟨5000 * t.val + r.val, row_lt t r⟩ d) := by
  obtain ⟨h0, h1⟩ := (idx_facts t).2.2.1
  unfold iblk1; rw [View.read_apply]
  show V c (Pipeline.arrRef spec1 2) _ = V c (Pipeline.arrRef spec1 2) _
  congr 1
  funext a; apply Fin.ext
  match a with
  | ⟨0, _⟩ => show win1_2.index t (0 : Fin 2) * 5000 + 1 * r.val = 5000 * t.val + r.val; rw [h0]; omega
  | ⟨1, _⟩ => show win1_2.index t (1 : Fin 2) * 128 + 1 * d.val = d.val; rw [h1]; omega

/-- Window 3's block at every point is the whole bias row. -/
theorem blk_bias (c : Dev nD) (t : Fin cfg1.N) : (iblk1 V c 3 t : Vec Ideal S1x64 .f32) = bB V c := by
  obtain ⟨h0, h1⟩ := (idx_facts t).2.2.2.1
  funext y
  unfold iblk1; rw [View.read_apply]
  show V c (Pipeline.arrRef spec1 3) _ = V c (Pipeline.arrRef spec1 3) _
  congr 1
  funext a; apply Fin.ext
  match a with
  | ⟨0, _⟩ => show win1_3.index t (0 : Fin 2) * 1 + 1 * (y 0).val = (y 0).val; rw [h0]; omega
  | ⟨1, _⟩ => show win1_3.index t (1 : Fin 2) * 64 + 1 * (y 1).val = (y 1).val; rw [h1]; omega

/-- Window 4's block at every point is the whole of W2_r. -/
theorem blk_wr (c : Dev nD) (t : Fin cfg1.N) : (iblk1 V c 4 t : Vec Ideal S128x64 .f32) = bWr V c := by
  obtain ⟨h0, h1⟩ := (idx_facts t).2.2.2.2.1
  funext y
  unfold iblk1; rw [View.read_apply]
  show V c (Pipeline.arrRef spec1 4) _ = V c (Pipeline.arrRef spec1 4) _
  congr 1
  funext a; apply Fin.ext
  match a with
  | ⟨0, _⟩ => show win1_4.index t (0 : Fin 2) * 128 + 1 * (y 0).val = (y 0).val; rw [h0]; omega
  | ⟨1, _⟩ => show win1_4.index t (1 : Fin 2) * 64 + 1 * (y 1).val = (y 1).val; rw [h1]; omega

/-- Window 5's block at every point is the whole scale row. -/
theorem blk_gamma (c : Dev nD) (t : Fin cfg1.N) : (iblk1 V c 5 t : Vec Ideal S1x64 .f32) = bG V c := by
  obtain ⟨h0, h1⟩ := (idx_facts t).2.2.2.2.2.1
  funext y
  unfold iblk1; rw [View.read_apply]
  show V c (Pipeline.arrRef spec1 5) _ = V c (Pipeline.arrRef spec1 5) _
  congr 1
  funext a; apply Fin.ext
  match a with
  | ⟨0, _⟩ => show win1_5.index t (0 : Fin 2) * 1 + 1 * (y 0).val = (y 0).val; rw [h0]; omega
  | ⟨1, _⟩ => show win1_5.index t (1 : Fin 2) * 64 + 1 * (y 1).val = (y 1).val; rw [h1]; omega

/-- Window 6's block at every point is the whole shift row. -/
theorem blk_beta (c : Dev nD) (t : Fin cfg1.N) : (iblk1 V c 6 t : Vec Ideal S1x64 .f32) = bBe V c := by
  obtain ⟨h0, h1⟩ := (idx_facts t).2.2.2.2.2.2.1
  funext y
  unfold iblk1; rw [View.read_apply]
  show V c (Pipeline.arrRef spec1 6) _ = V c (Pipeline.arrRef spec1 6) _
  congr 1
  funext a; apply Fin.ext
  match a with
  | ⟨0, _⟩ => show win1_6.index t (0 : Fin 2) * 1 + 1 * (y 0).val = (y 0).val; rw [h0]; omega
  | ⟨1, _⟩ => show win1_6.index t (1 : Fin 2) * 64 + 1 * (y 1).val = (y 1).val; rw [h1]; omega

/-- Window 7's block at every point is the whole running-mean row. -/
theorem blk_mean (c : Dev nD) (t : Fin cfg1.N) : (iblk1 V c 7 t : Vec Ideal S1x64 .f32) = bMu V c := by
  obtain ⟨h0, h1⟩ := (idx_facts t).2.2.2.2.2.2.2.1
  funext y
  unfold iblk1; rw [View.read_apply]
  show V c (Pipeline.arrRef spec1 7) _ = V c (Pipeline.arrRef spec1 7) _
  congr 1
  funext a; apply Fin.ext
  match a with
  | ⟨0, _⟩ => show win1_7.index t (0 : Fin 2) * 1 + 1 * (y 0).val = (y 0).val; rw [h0]; omega
  | ⟨1, _⟩ => show win1_7.index t (1 : Fin 2) * 64 + 1 * (y 1).val = (y 1).val; rw [h1]; omega

/-- Window 8's block at every point is the whole running-variance row. -/
theorem blk_var (c : Dev nD) (t : Fin cfg1.N) : (iblk1 V c 8 t : Vec Ideal S1x64 .f32) = bVa V c := by
  obtain ⟨h0, h1⟩ := (idx_facts t).2.2.2.2.2.2.2.2.1
  funext y
  unfold iblk1; rw [View.read_apply]
  show V c (Pipeline.arrRef spec1 8) _ = V c (Pipeline.arrRef spec1 8) _
  congr 1
  funext a; apply Fin.ext
  match a with
  | ⟨0, _⟩ => show win1_8.index t (0 : Fin 2) * 1 + 1 * (y 0).val = (y 0).val; rw [h0]; omega
  | ⟨1, _⟩ => show win1_8.index t (1 : Fin 2) * 64 + 1 * (y 1).val = (y 1).val; rw [h1]; omega

/-- Window 9's block at every point is the whole of the classifier's weights. -/
theorem blk_wc (c : Dev nD) (t : Fin cfg1.N) : (iblk1 V c 9 t : Vec Ideal S64x2 .f32) = bWc V c := by
  obtain ⟨h0, h1⟩ := (idx_facts t).2.2.2.2.2.2.2.2.2.1
  funext y
  unfold iblk1; rw [View.read_apply]
  show V c (Pipeline.arrRef spec1 9) _ = V c (Pipeline.arrRef spec1 9) _
  congr 1
  funext a; apply Fin.ext
  match a with
  | ⟨0, _⟩ => show win1_9.index t (0 : Fin 2) * 64 + 1 * (y 0).val = (y 0).val; rw [h0]; omega
  | ⟨1, _⟩ => show win1_9.index t (1 : Fin 2) * 2 + 1 * (y 1).val = (y 1).val; rw [h1]; omega

/-- Window 10's block at every point is the whole classifier bias row. -/
theorem blk_bc (c : Dev nD) (t : Fin cfg1.N) : (iblk1 V c 10 t : Vec Ideal S1x2 .f32) = bBc V c := by
  obtain ⟨h0, h1⟩ := (idx_facts t).2.2.2.2.2.2.2.2.2.2.1
  funext y
  unfold iblk1; rw [View.read_apply]
  show V c (Pipeline.arrRef spec1 10) _ = V c (Pipeline.arrRef spec1 10) _
  congr 1
  funext a; apply Fin.ext
  match a with
  | ⟨0, _⟩ => show win1_10.index t (0 : Fin 2) * 1 + 1 * (y 0).val = (y 0).val; rw [h0]; omega
  | ⟨1, _⟩ => show win1_10.index t (1 : Fin 2) * 2 + 1 * (y 1).val = (y 1).val; rw [h1]; omega

/-! ## From the blocks to the array -/

/-- WHAT POINT t's BODY LEAVES at row r, class q of the output block: the logits of node 5000·t + r. -/
theorem block_value (c : Dev nD) (t : Fin cfg1.N) (r : Fin 5000) (q : Fin 2) :
    k1_pay1 (k1_pay2 (iblk1 V c 0 t) (iblk1 V c 1 t) (iblk1 V c 2 t) (iblk1 V c 3 t) (iblk1 V c 4 t) (iblk1 V c 5 t)
        (iblk1 V c 8 t) (iblk1 V c 7 t) (iblk1 V c 6 t)) (iblk1 V c 9 t) (iblk1 V c 10 t) (ix2 r q)
      = outOf V c ⟨5000 * t.val + r.val, row_lt t r⟩ q := by
  rw [pay_out]
  simp only [pay_h2]
  rw [blk_bias V c t, blk_wr V c t, blk_gamma V c t, blk_beta V c t, blk_mean V c t, blk_var V c t, blk_wc V c t, blk_bc V c t]
  simp only [blk_sum V c t, blk_inv V c t, blk_h V c t]
  rfl

/-- The logits as an array over the output window's index set. -/
abbrev logits (c : Dev nD) : Buf (Elt Ideal) ((cfg1.win 11).arr.view.loc (c.tc : Thread nD τ)) :=
  fun i => outOf V c (i 0) (i 1)

/-- WHAT POINT t WRITES BACK is block t of the logits array. -/
theorem flushed_eq (c : Dev nD) (t : Fin cfg1.N) :
    (dat1 (F := Ideal) V c).flushed 11 t = ((cfg1.win 11).blk t).view.read (Elt Ideal) (logits V c) := by
  show (cfg1.win 11).cut (grid1.coords t) ((dat1 (F := Ideal) V c).after 11 t) = _
  rw [after1_11]
  unfold out1_11
  rw [View.canon_unit_zero hz]
  simp only [View.ld_unit_zero (S := S5000x64) hz, View.ld_unit_zero (S := S5000x1) hz, View.ld_unit_zero (S := S5000x128) hz,
    View.ld_unit_zero (S := S1x64) hz, View.ld_unit_zero (S := S128x64) hz, View.ld_unit_zero (S := S64x2) hz, View.ld_unit_zero (S := S1x2) hz]
  obtain ⟨h0, h1⟩ := (idx_facts t).2.2.2.2.2.2.2.2.2.2.2
  funext j
  obtain ⟨r, q, rfl⟩ : ∃ (r : Fin 5000) (q : Fin 2), j = ix2 r q := ⟨j 0, j 1, eq_ix2 j⟩
  refine (block_value V c t r q).trans ?_
  show outOf V c _ _ = outOf V c ((((cfg1.win 11).blk t).view.emb (ix2 r q)) 0) ((((cfg1.win 11).blk t).view.emb (ix2 r q)) 1)
  congr 1
  · apply Fin.ext
    show 5000 * t.val + r.val = win1_11.index t (0 : Fin 2) * 5000 + 1 * r.val
    rw [h0]; omega
  · apply Fin.ext
    show q.val = win1_11.index t (1 : Fin 2) * 2 + 1 * q.val
    rw [h1]; omega

/-- An index of the logits array is in point t's block iff each coordinate is in the block's range on its axis. -/
theorem mem_blk (t : Fin cfg1.N) (i : S100000x2.Idx) :
    i ∈ ((cfg1.win 11).blk t).view.set ↔ ∀ a : Fin 2, win1_11.index t a * S5000x2.size a ≤ (i a).val ∧ (i a).val < win1_11.index t a * S5000x2.size a + S5000x2.size a := by
  show i ∈ ((View.whole main_v33).slice (win1_11.rect t)).set ↔ _
  rw [View.set_slice_whole, Rect.mem_set_unit]
  exact Iff.rfl

/-- THE COVER: row n of the logits lies in the block of point n / 5000, which is written back. -/
theorem cover (i : S100000x2.Idx) :
    ∃ t : Fin cfg1.N, (cfg1.win 11).flush t = true ∧ i ∈ ((cfg1.win 11).blk t).view.set := by
  have hi0 : (i 0).val < 100000 := (i 0).isLt
  have hi1 : (i 1).val < 2 := (i 1).isLt
  have hN : cfg1.N = 20 := N_1
  obtain ⟨t, ht⟩ : ∃ t : Fin cfg1.N, t.val = (i 0).val / 5000 := ⟨⟨(i 0).val / 5000, by omega⟩, rfl⟩
  obtain ⟨h0, h1⟩ := (idx_facts t).2.2.2.2.2.2.2.2.2.2.2
  refine ⟨t, flush1_11 t, ?_⟩
  rw [mem_blk]
  intro a
  match a with
  | ⟨0, _⟩ => show win1_11.index t (0 : Fin 2) * 5000 ≤ (i 0).val ∧ (i 0).val < win1_11.index t (0 : Fin 2) * 5000 + 5000; omega
  | ⟨1, _⟩ => show win1_11.index t (1 : Fin 2) * 2 ≤ (i 1).val ∧ (i 1).val < win1_11.index t (1 : Fin 2) * 2 + 2; omega

/-- THE LOGITS ARRAY after the call: entry (n, q) is the classifier on layer 2 at node n. -/
theorem out_arr (c : Dev nD) (n : Fin 100000) (q : Fin 2) :
    (dat1 (F := Ideal) V c).arrAt 11 cfg1.N (ix2 n q) = outOf V c n q :=
  congrFun ((dat1 (F := Ideal) V c).arrAt_eq_of_cover 11 (logits V c) (fun t _ => flushed_eq V c t) cover) (ix2 n q)

end Cert.KernelIdeal.Region1

end
-- ==== Proof.Args.lean ====
/-
  The kernel program's eighteen argument arrays, each named at its literal type.
-/
import proofs.«401283_j85796266705369_3_alg».proof.Proof.Gen.KernelIdeal
import Idealize.ShloMosaic.PureOps.Ideal

noncomputable section

namespace Cert.KernelIdeal.Args

open Cert.KernelIdeal Cert.KernelIdeal.Gen Idealize.ShloMosaic Idealize.ShloMosaic.TcCoe Idealize.SL.Sem

variable (m : (ℓ : Loc nD τ sig) → Buf (Elt Ideal) ℓ) (c : Dev nD)

/-- The node features. -/
abbrev argX : S100000x64.Idx → EReal := m ((c.tc : Thread nD τ).loc main_arg0)
/-- The edges: row 0 the sources, row 1 the destinations. -/
abbrev argEi : IVec S2x1600000 32 := m ((c.tc : Thread nD τ).loc main_arg1)
abbrev argW1l : S64x128.Idx → EReal := m ((c.tc : Thread nD τ).loc main_arg2)
abbrev argB1 : S128.Idx → EReal := m ((c.tc : Thread nD τ).loc main_arg3)
abbrev argW1r : S64x128.Idx → EReal := m ((c.tc : Thread nD τ).loc main_arg4)
abbrev argW2l : S128x64.Idx → EReal := m ((c.tc : Thread nD τ).loc main_arg5)
abbrev argB2 : S64.Idx → EReal := m ((c.tc : Thread nD τ).loc main_arg6)
abbrev argW2r : S128x64.Idx → EReal := m ((c.tc : Thread nD τ).loc main_arg7)
/-- Layer 1's batch norm: scale, shift, running mean, running variance. -/
abbrev argG1 : S128.Idx → EReal := m ((c.tc : Thread nD τ).loc main_arg8)
abbrev argBe1 : S128.Idx → EReal := m ((c.tc : Thread nD τ).loc main_arg9)
abbrev argMu1 : S128.Idx → EReal := m ((c.tc : Thread nD τ).loc main_arg10)
abbrev argVa1 : S128.Idx → EReal := m ((c.tc : Thread nD τ).loc main_arg11)
/-- Layer 2's batch norm. -/
abbrev argG2 : S64.Idx → EReal := m ((c.tc : Thread nD τ).loc main_arg12)
abbrev argBe2 : S64.Idx → EReal := m ((c.tc : Thread nD τ).loc main_arg13)
abbrev argMu2 : S64.Idx → EReal := m ((c.tc : Thread nD τ).loc main_arg14)
abbrev argVa2 : S64.Idx → EReal := m ((c.tc : Thread nD τ).loc main_arg15)
/-- The classifier. -/
abbrev argWc : S64x2.Idx → EReal := m ((c.tc : Thread nD τ).loc main_arg16)
abbrev argBc : S2.Idx → EReal := m ((c.tc : Thread nD τ).loc main_arg17)

end Cert.KernelIdeal.Args

end
-- ==== Proof.LibRowScatter.lean ====
/-
  Reading a ROW gather and a ROW scatter-add at an index.

  jnp's `table[idx]` over a rank-2 table [N, D] with a vector of E row positions prints as a gather whose start
  indices are the [E, 1] column of positions: operand axis 0 is collapsed and start-indexed, axis 1 is the one
  offset axis (slice sizes [1, D]).  Result entry (e, k) reads the table at row (position e, read signed and clamped
  into [0, N − 1]) and column k.

  `segment_sum` / `.at[idx].add` of [E, D] updates into an [N, D] operand prints as a scatter with an `add` body:
  update window axis 1, inserted window axis 0, start indices the [E, 1] column.  At the ideal instance entry (n, k)
  of the result is the operand's entry plus the sum of the updates' entries (e, k) over the rows e whose position,
  read signed, is exactly n (a position outside [0, N) lands nowhere and is dropped).
-/
import Idealize.ShloMosaic.PureOps
import Idealize.ShloMosaic.PureOps.Ideal
import Idealize.ShloMosaic.Lib.ValueIdx

noncomputable section

namespace Cert.RowScatter

open Idealize.ShloMosaic Idealize.ShloMosaic.ValueIdx

/-- The update rows whose start position, read signed, is row `n`. -/
def rowsAt {E : Nat} (idx : IVec ⟨2, ![E, 1]⟩ 32) (n : Nat) : Finset (Fin E) :=
  Finset.univ.filter fun e => (idx (ix2 e 0)).toInt = (n : Int)

/-- The row a start position reads: signed, clamped into the table. -/
def clampRow {E : Nat} (N : Nat) (hN : 0 < N) (idx : IVec ⟨2, ![E, 1]⟩ 32) (e : Fin E) : Fin N :=
  ⟨min (idx (ix2 e 0)).toInt.toNat (N - 1), by omega⟩

/-- On a rank-2 index, an axis equal to 0 reads the first coordinate. -/
theorem ix2_val_of_eq_zero {n0 n1 : Nat} (a : Fin n0) (b : Fin n1) (X : Fin 2) (hX : X = 0) :
    ((ix2 a b : (⟨2, ![n0, n1]⟩ : Shape).Idx) X).val = a.val := by subst hX; rfl

/-- On a rank-2 index, an axis equal to 1 reads the second coordinate. -/
theorem ix2_val_of_eq_one {n0 n1 : Nat} (a : Fin n0) (b : Fin n1) (X : Fin 2) (hX : X = 1) :
    ((ix2 a b : (⟨2, ![n0, n1]⟩ : Shape).Idx) X).val = b.val := by subst hX; rfl

/-- THE ROW GATHER read at an index. -/
theorem gather_rows_apply {α : Type} {N D E : Nat} (hN : 0 < N)
    (g : GatherDims ⟨2, ![N, D]⟩ ⟨2, ![E, 1]⟩ ⟨2, ![E, D]⟩)
    (hoff : g.offsetDims = [1]) (hcoll : g.collapsedSliceDims = [0]) (hob : g.operandBatchingDims = [])
    (hsim : g.startIndexMap = [0]) (hivd : g.indexVectorDim = 1) (hsl : g.sliceSizes = ![1, D])
    (x : (⟨2, ![N, D]⟩ : Shape).Idx → α) (idx : IVec ⟨2, ![E, 1]⟩ 32) (e : Fin E) (k : Fin D) :
    Host.gather g x idx (ix2 e k) = x (ix2 (clampRow N hN idx e) k) := by
  have hb : ∀ a : Fin 2, a ∉ g.operandBatchingDims := fun a => by rw [hob]; exact List.not_mem_nil
  have hk0 : (0 : Fin 2) ∉ g.sKept := fun h => ((g.mem_sKept 0).mp h).1 (by rw [hcoll]; exact List.mem_singleton.mpr rfl)
  have hk1 : (1 : Fin 2) ∈ g.sKept := (g.mem_sKept 1).mpr ⟨by rw [hcoll]; simp, hb 1⟩
  have hm0 : (0 : Fin 2) ∈ g.startIndexMap := by rw [hsim]; exact List.mem_singleton.mpr rfl
  have hm1 : (1 : Fin 2) ∉ g.startIndexMap := by rw [hsim]; simp
  -- every offset axis of the result is axis 1, every batch axis is axis 0
  have hoffmem : ∀ X ∈ g.offsetDims, X = (1 : Fin 2) := fun X hX => by
    rw [hoff] at hX; exact List.mem_singleton.mp hX
  have hbatchmem : ∀ X ∈ g.batchDims, X = (0 : Fin 2) := fun X hX => by
    have h1 : X ∉ g.offsetDims := by simpa [GatherDims.batchDims, Shape.kept] using hX
    rw [hoff] at h1
    have h3 : X.val ≠ 1 := fun h => h1 (List.mem_singleton.mpr (Fin.ext h))
    have hlt : X.val < 2 := X.isLt
    apply Fin.ext
    show X.val = 0
    clear h1
    omega
  unfold Host.gather
  congr 1
  funext a
  apply Fin.ext
  match a with
  | ⟨0, _⟩ =>
    show g.start _ _ (0 : Fin 2) + g.batchCoord _ (0 : Fin 2) + g.offCoord _ (0 : Fin 2) = _
    rw [g.batchCoord_eq_zero _ _ (hb 0), g.offCoord_eq_zero _ _ hk0]
    simp only [Nat.add_zero]
    unfold GatherDims.start
    rw [dif_pos hm0]
    have hsi : g.siIdx (ix2 e k) ⟨List.idxOf 0 g.startIndexMap, List.idxOf_lt_length_iff.2 hm0⟩ = ix2 e 0 := by
      funext b
      apply Fin.ext
      match b with
      | ⟨0, _⟩ =>
        unfold GatherDims.siIdx
        rw [dif_neg (by rw [hivd]; simp)]
        unfold GatherDims.siCoord
        simp only [Fin.val_cast]
        exact ix2_val_of_eq_zero e k _ (hbatchmem _ (List.getElem_mem _))
      | ⟨1, _⟩ =>
        unfold GatherDims.siIdx
        rw [dif_pos (by rw [hivd])]
        show List.idxOf 0 g.startIndexMap = 0
        rw [hsim]; simp
    rw [hsi, hsl]
    rfl
  | ⟨1, _⟩ =>
    show g.start _ _ (1 : Fin 2) + g.batchCoord _ (1 : Fin 2) + g.offCoord _ (1 : Fin 2) = _
    rw [g.batchCoord_eq_zero _ _ (hb 1)]
    unfold GatherDims.start
    rw [dif_neg hm1]
    unfold GatherDims.offCoord
    rw [dif_pos hk1]
    simp only [Nat.add_zero, Nat.zero_add]
    exact ix2_val_of_eq_one e k _ (hoffmem _ (List.getElem_mem _))

section ScatterPoint
variable {N D E : Nat} (d : ScatterDims ⟨2, ![N, D]⟩ ⟨2, ![E, 1]⟩ ⟨2, ![E, D]⟩)

/-- With the index vector on axis 1 and one scatter axis, update (e, c) reads its start position at (e, 0). -/
theorem scatter_siIdx (huw : d.updateWindowDims = [1]) (hivd : d.indexVectorDim = 1)
    (e : Fin E) (c : Fin D) (q : Fin d.scatterDimsToOperandDims.length) (hq : q.val = 0) :
    d.siIdx (ix2 e c) q = ix2 e 0 := by
  have hscat : ∀ X ∈ d.uScatter, X = (0 : Fin 2) := fun X hX => by
    have h1 : X ∉ d.updateWindowDims := by simpa [ScatterDims.uScatter, Shape.kept] using hX
    rw [huw] at h1
    have h3 : X.val ≠ 1 := fun h => h1 (List.mem_singleton.mpr (Fin.ext h))
    have hlt : X.val < 2 := X.isLt
    apply Fin.ext
    show X.val = 0
    clear h1
    omega
  funext b
  apply Fin.ext
  match b with
  | ⟨0, _⟩ =>
    unfold ScatterDims.siIdx
    rw [dif_neg (by rw [hivd]; simp)]
    unfold ScatterDims.siCoord
    simp only [Fin.val_cast]
    exact ix2_val_of_eq_zero e c _ (hscat _ (List.getElem_mem _))
  | ⟨1, _⟩ =>
    unfold ScatterDims.siIdx
    rw [dif_pos (by rw [hivd])]
    exact hq

/-- The start of update (e, c)'s window on operand axis 0 is its start position read signed. -/
theorem scatter_start0 (huw : d.updateWindowDims = [1]) (hsd : d.scatterDimsToOperandDims = [0])
    (hivd : d.indexVectorDim = 1) (idx : IVec ⟨2, ![E, 1]⟩ 32) (e : Fin E) (c : Fin D) :
    d.start (ix2 e c) idx (0 : Fin 2) = (idx (ix2 e 0)).toInt := by
  have hm0 : (0 : Fin 2) ∈ d.scatterDimsToOperandDims := by rw [hsd]; exact List.mem_singleton.mpr rfl
  unfold ScatterDims.start
  rw [dif_pos hm0, scatter_siIdx d huw hivd e c _ (by show List.idxOf 0 d.scatterDimsToOperandDims = 0; rw [hsd]; simp)]

/-- The start of every window on operand axis 1 is 0. -/
theorem scatter_start1 (hsd : d.scatterDimsToOperandDims = [0])
    (idx : IVec ⟨2, ![E, 1]⟩ 32) (j : (⟨2, ![E, D]⟩ : Shape).Idx) :
    d.start j idx (1 : Fin 2) = 0 := by
  have hm1 : (1 : Fin 2) ∉ d.scatterDimsToOperandDims := by rw [hsd]; simp
  unfold ScatterDims.start
  rw [dif_neg hm1]

/-- The window coordinate on the inserted operand axis 0 is 0. -/
theorem scatter_window0 (hiw : d.insertedWindowDims = [0]) (j : (⟨2, ![E, D]⟩ : Shape).Idx) :
    d.window j (0 : Fin 2) = 0 := by
  have hk0 : (0 : Fin 2) ∉ d.sKept := by simp [ScatterDims.sKept, Shape.kept, hiw]
  unfold ScatterDims.window
  rw [dif_neg hk0]

/-- The window coordinate of update (e, c) on operand axis 1 is its column c. -/
theorem scatter_window1 (huw : d.updateWindowDims = [1]) (hiw : d.insertedWindowDims = [0])
    (e : Fin E) (c : Fin D) : d.window (ix2 e c) (1 : Fin 2) = c.val := by
  have hk1 : (1 : Fin 2) ∈ d.sKept := by simp [ScatterDims.sKept, Shape.kept, hiw]
  have hwmem : ∀ X ∈ d.updateWindowDims, X = (1 : Fin 2) := fun X hX => by
    rw [huw] at hX; exact List.mem_singleton.mp hX
  unfold ScatterDims.window
  rw [dif_pos hk1]
  exact ix2_val_of_eq_one e c _ (hwmem _ (List.getElem_mem _))

end ScatterPoint

/-- Update (e, c) lands on operand entry (n, k) exactly when c = k and its start position, read signed, is n. -/
theorem scatter_resultIdx_iff {N D E : Nat} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hivd : d.indexVectorDim = 1) (idx : IVec ⟨2, ![E, 1]⟩ 32) (e : Fin E) (c : Fin D) (n : Fin N) (k : Fin D) :
    d.resultIdx? (ix2 e c) idx = some (ix2 n k) ↔ c = k ∧ (idx (ix2 e 0)).toInt = (n.val : Int) := by
  have hs0 := scatter_start0 d huw hsd hivd idx e c
  have hs1 := scatter_start1 d hsd idx (ix2 e c)
  have hw0 := scatter_window0 d hiw (ix2 e c)
  have hw1 := scatter_window1 d huw hiw e c
  have hn : n.val < N := n.isLt
  have hc : c.val < D := c.isLt
  unfold ScatterDims.resultIdx?
  constructor
  · intro h
    split at h
    · rename_i hin
      have hf := Option.some.inj h
      have h0 : (d.start (ix2 e c) idx (0 : Fin 2) + (d.window (ix2 e c) (0 : Fin 2) : Int)).toNat = n.val :=
        congrArg Fin.val (congrFun hf (0 : Fin 2))
      have h1 : (d.start (ix2 e c) idx (1 : Fin 2) + (d.window (ix2 e c) (1 : Fin 2) : Int)).toNat = k.val :=
        congrArg Fin.val (congrFun hf (1 : Fin 2))
      have hin0 := (hin (0 : Fin 2)).1
      rw [hs0, hw0] at h0 hin0
      rw [hs1, hw1] at h1
      refine ⟨Fin.ext ?_, ?_⟩
      · omega
      · omega
    · exact absurd h (by simp)
  · rintro ⟨rfl, hidx⟩
    have hin : ∀ a : Fin 2, 0 ≤ d.start (ix2 e c) idx a + (d.window (ix2 e c) a : Int) ∧
        d.start (ix2 e c) idx a + (d.window (ix2 e c) a : Int) < ((⟨2, ![N, D]⟩ : Shape).size a : Int) := fun a =>
      match a with
      | ⟨0, _⟩ => by
        show 0 ≤ d.start (ix2 e c) idx (0 : Fin 2) + (d.window (ix2 e c) (0 : Fin 2) : Int) ∧
          d.start (ix2 e c) idx (0 : Fin 2) + (d.window (ix2 e c) (0 : Fin 2) : Int) < (N : Int)
        rw [hs0, hw0, hidx]; omega
      | ⟨1, _⟩ => by
        show 0 ≤ d.start (ix2 e c) idx (1 : Fin 2) + (d.window (ix2 e c) (1 : Fin 2) : Int) ∧
          d.start (ix2 e c) idx (1 : Fin 2) + (d.window (ix2 e c) (1 : Fin 2) : Int) < (D : Int)
        rw [hs1, hw1]; omega
    rw [dif_pos hin]
    congr 1
    funext a
    apply Fin.ext
    match a with
    | ⟨0, _⟩ =>
      show (d.start (ix2 e c) idx (0 : Fin 2) + (d.window (ix2 e c) (0 : Fin 2) : Int)).toNat = n.val
      rw [hs0, hw0, hidx]; omega
    | ⟨1, _⟩ =>
      show (d.start (ix2 e c) idx (1 : Fin 2) + (d.window (ix2 e c) (1 : Fin 2) : Int)).toNat = c.val
      rw [hs1, hw1]; omega

/-- THE ROW SCATTER-ADD read at an index, at the ideal instance. -/
theorem scatterAdd_rows_apply {N D E : Nat}
    (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![E, 1]⟩ 32) (upd : FVec Ideal ⟨2, ![E, D]⟩ .f32)
    (n : Fin N) (k : Fin D) :
    Host.scatterAdd d x idx upd (ix2 n k) = x (ix2 n k) + ∑ e ∈ rowsAt idx n.val, upd (ix2 e k) := by
  show x (ix2 n k) + ∑ j ∈ Finset.univ.filter (fun j => d.resultIdx? j idx = some (ix2 n k)), upd j = _
  congr 1
  -- the updates landing on (n, k) are the (e, k) with e a row of position n: re-index by the row
  have key : ∀ j : (⟨2, ![E, D]⟩ : Shape).Idx, d.resultIdx? j idx = some (ix2 n k) →
      j = ix2 (j 0 : Fin E) k ∧ (idx (ix2 (j 0 : Fin E) 0)).toInt = (n.val : Int) := fun j hj => by
    obtain ⟨a, b, rfl⟩ : ∃ (a : Fin E) (b : Fin D), j = ix2 a b := ⟨j 0, j 1, eq_ix2 j⟩
    obtain ⟨rfl, h⟩ := (scatter_resultIdx_iff d huw hiw hsd hivd idx a b n k).mp hj
    exact ⟨rfl, h⟩
  refine Finset.sum_nbij' (fun j => (j 0 : Fin E)) (fun e => ix2 e k) ?_ ?_ ?_ ?_ ?_
  · intro j hj
    exact Finset.mem_filter.2 ⟨Finset.mem_univ _, (key j (Finset.mem_filter.1 hj).2).2⟩
  · intro e he
    exact Finset.mem_filter.2 ⟨Finset.mem_univ _,
      (scatter_resultIdx_iff d huw hiw hsd hivd idx e k n k).mpr ⟨rfl, (Finset.mem_filter.1 he).2⟩⟩
  · intro j hj
    exact (key j (Finset.mem_filter.1 hj).2).1.symm
  · intro e _
    rfl
  · intro j hj
    exact congrArg upd (key j (Finset.mem_filter.1 hj).2).1

end Cert.RowScatter

end
-- ==== Proof.Graph.lean ====
/-
  The graph, as both programs read it off the [2, E] edge array: row 0 holds each edge's source node, row 1 its
  destination.  A source position is wrapped the way numpy indexing wraps a negative position (i < 0 ↦ i + N) and laid
  out as an [E, 1] column of start positions for the row gather; the destinations are laid out as an [E, 1] column of
  start positions for the row scatter-add.  The in-degree of a node is the scatter-add of ones; both programs guard it
  from below by one before dividing.
-/
import proofs.«401283_j85796266705369_3_alg».proof.Proof.LibRowScatter
import Idealize.ShloMosaic.Lib.IdealHost

noncomputable section

namespace Cert.Sage.Graph

open Idealize.ShloMosaic Idealize.ShloMosaic.ValueIdx Cert.RowScatter

/-- Number of nodes and of edges. -/
abbrev nN : Nat := 100000
abbrev nE : Nat := 1600000

abbrev S2xE : Shape := ⟨2, ![2, 1600000]⟩
abbrev S1xE : Shape := ⟨2, ![1, 1600000]⟩
abbrev SE : Shape := ⟨1, ![1600000]⟩
abbrev SEx1 : Shape := ⟨2, ![1600000, 1]⟩
abbrev SN : Shape := ⟨1, ![100000]⟩
abbrev S0 : Shape := ⟨0, ![]⟩

/-- Row `a` of the edge array as a vector of E positions. -/
def edgeRow (a : Nat) (ei : IVec S2xE 32) (h : S2xE.Slices ![a, 0] S1xE := by decide) : IVec SE 32 :=
  shapeCast SE (extractStridedSlice S1xE ![a, 0] ei h) (by decide)

/-- The destinations as an [E, 1] column. -/
def dstCol (ei : IVec S2xE 32) : IVec SEx1 32 :=
  broadcastInDim SEx1 ![0] (by decide) (edgeRow 1 ei)

/-- A source position wrapped as numpy wraps a negative position. -/
def wrapSrc (ei : IVec S2xE 32) : IVec SE 32 :=
  select (cmpi .slt (edgeRow 0 ei) (broadcastInDim SE ![] (by decide) (constantI S0 32 0#32)))
    (addi (edgeRow 0 ei) (broadcastInDim SE ![] (by decide) (constantI S0 32 100000#32))) (edgeRow 0 ei)

/-- The wrapped sources as an [E, 1] column. -/
def srcCol (ei : IVec S2xE 32) : IVec SEx1 32 :=
  broadcastInDim SEx1 ![0] (by decide) (wrapSrc ei)

/-- The scatter of one number per edge into one slot per node. -/
def countDims : ScatterDims SN SEx1 SE where
  updateWindowDims := []
  insertedWindowDims := [0]
  scatterDimsToOperandDims := [0]
  indexVectorDim := 1

/-- max(in-degree, 1) of every node, as an extended real. -/
def degMax (ei : IVec S2xE 32) : FVec Ideal SN .f32 :=
  maximumf
    (Host.scatterAdd countDims (broadcastInDim SN ![] (by decide) (constant S0 .f32 0x00000000#32)) (dstCol ei)
      (broadcastInDim SE ![] (by decide) (constant S0 .f32 0x3F800000#32)))
    (broadcastInDim SN ![] (by decide) (constant S0 .f32 0x3F800000#32))

/-- The guarded in-degree is at least one. -/
theorem one_le_degMax (ei : IVec S2xE 32) (n : Fin 100000) : 1 ≤ degMax ei (ix1 n) := by
  unfold degMax
  rw [ValueIdx.maximumf_apply]
  refine le_trans (le_of_eq ?_) (le_max_right _ _)
  exact Ideal.ofBits_one_f32.symm

/-- Every source position is a node: 0 ≤ src < N (the domain on which indexing the node table is meaningful). -/
def SrcInRange (ei : IVec S2xE 32) : Prop :=
  ∀ e : Fin 1600000, 0 ≤ (ei (ix2 0 e)).toInt ∧ (ei (ix2 0 e)).toInt < 100000

abbrev SEx64 : Shape := ⟨2, ![1600000, 64]⟩
abbrev S1 : Shape := ⟨1, ![1]⟩
abbrev S1x1 : Shape := ⟨2, ![1, 1]⟩

/-- The in-bounds test a filling take makes of every (wrapped) source position, 0 ≤ i ≤ N − 1, one bit per edge,
    laid along each gathered row of 64. -/
def takeMask (ei : IVec S2xE 32) : IVec SEx64 1 :=
  broadcastInDim SEx64 ![0] (by decide)
    (Host.reduce (axes := [1]) (t := SE) IntOp.andi
      (andi (cmpi .sge (srcCol ei) (broadcastInDim SEx1 ![] (by decide) (constantI S0 32 0#32)))
        (cmpi .sle (srcCol ei) (broadcastInDim SEx1 ![0, 1] (by decide) (broadcastInDim S1x1 ![1] (by decide) (constantI S1 32 99999#32)))))
      (constantI S0 1 1#1) (by decide) (by decide))

/-- The in-edges of node `n`. -/
abbrev inEdges (ei : IVec S2xE 32) (n : Fin 100000) : Finset (Fin 1600000) := rowsAt (dstCol ei) n.val

/-- The node an edge reads: its wrapped source, clamped into the table as the gather clamps it. -/
abbrev srcNode (ei : IVec S2xE 32) (e : Fin 1600000) : Fin 100000 := clampRow 100000 (by decide) (srcCol ei) e

end Cert.Sage.Graph

end
-- ==== Proof.TakeMask.lean ====
/-
  The precondition, decoded, and what it buys.  The stated precondition's last two conjuncts say that every entry of the
  edge array's row 0 (the sources) is a node: 0 ≤ src and src < 100000, each as a jnp.all (an AND-reduction of a
  signed comparison over the 1600000 entries).  Under it the wrapped source position is the position itself, so the
  in-bounds test that a filling take makes of it (0 ≤ i ≤ 99999) holds on every edge: the take reads no fill value.
-/
import proofs.«401283_j85796266705369_3_alg».proof.Proof.Gen.Pre_finite_inputs
import proofs.«401283_j85796266705369_3_alg».proof.Proof.Graph
import Idealize.ShloMosaic.Lib.ReduceAll
import Idealize.ShloMosaic.Lib.StableHlo.Predicate
import Idealize.ShloMosaic.Lib.ValueIdx

noncomputable section

namespace Cert.Sage.TakeMask

open Idealize.ShloMosaic Idealize.ShloMosaic.ValueIdx Cert.Sage

/-! ## Row 0 of the edge array, read at an edge -/

/-- The reshape of the [1, E] block at the origin of a [2, E] array to a vector of E reads, at edge `e`, the array at (0, e). -/
theorem row0_apply {α : Type} (x : (⟨2, ![2, 1600000]⟩ : Shape).Idx → α)
    (h1 : (⟨2, ![2, 1600000]⟩ : Shape).Slices ![0, 0] ⟨2, ![1, 1600000]⟩)
    (h2 : (⟨2, ![1, 1600000]⟩ : Shape).ShapeCasts ⟨1, ![1600000]⟩) (e : Fin 1600000) :
    shapeCast ⟨1, ![1600000]⟩ (extractStridedSlice ⟨2, ![1, 1600000]⟩ ![0, 0] x h1) h2 (ix1 e) = x (ix2 0 e) := by
  have hre : Shape.reshapeEquiv h2 (ix1 e) = ix2 (0 : Fin 1) e :=
    Shape.reshapeEquiv_eq_of_rowMajor h2 (by rw [Shape.rowMajor_val_two, Shape.rowMajor_val_one]; show 0 * 1600000 + e.val = e.val; omega)
  unfold shapeCast extractStridedSlice
  refine congrArg x (funext fun a => Fin.ext ?_)
  show (![0, 0] : Fin 2 → Nat) a + (Shape.reshapeEquiv h2 (ix1 e) (a.cast h1.1.symm)).val = (ix2 (0 : Fin 2) e a).val
  rw [hre]
  match a with
  | ⟨0, _⟩ => rfl
  | ⟨1, _⟩ => show 0 + e.val = e.val; omega

/-! ## An AND-reduction of ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An AND-reduction, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ## The precondition's last two conjuncts -/

open Cert.Pre_finite_inputs in
/-- The last part of the stated predicate being 1 says: the vector it is handed is nonnegative at every entry, and
    row 0 of the edge array is below 100000 at every entry. -/
theorem of_part5 [Cert.Pre_finite_inputs.Facts] (a1 : IVec S2x1600000 32) (v83 : IVec S_ 1) (v85 : IVec S1600000 32)
    (h : fn_part5 (F := Ideal) a1 v83 v85 ix0 = 1#1) :
    (∀ e : Fin 1600000, 0 ≤ (v85 (ix1 e)).toInt) ∧ ∀ e : Fin 1600000, (a1 (ix2 0 e)).toInt < 100000 := by
  haveI : Subsingleton S_.Idx := ⟨fun a b => funext fun d => d.elim0⟩
  unfold fn_part5 at h
  have h' : IntOp.andi (IntOp.andi (v83 ix0) _) _ = 1#1 := h
  obtain ⟨h12, h2⟩ := IntOp.andi_eq_one.1 h'
  obtain ⟨-, h1⟩ := IntOp.andi_eq_one.1 h12
  refine ⟨fun e => ?_, fun e => ?_⟩
  · have hb := Host.reduce_andi_all _ _ _ _ _ h1 (ix1 e)
    have hb' : IntOp.cmpi .sge (v85 (ix1 e)) 0#32 = 1#1 := hb
    rw [IntOp.cmpi_sge, show (0#32 : BitVec 32).toInt = 0 from by decide] at hb'
    exact hb'
  · have hb := Host.reduce_andi_all _ _ _ _ _ h2 (ix1 e)
    have hb' : IntOp.cmpi .slt
        (shapeCast S1600000 (extractStridedSlice S1x1600000 ![0, 0] a1 Facts.slices_S2x1600000_S1x1600000_0_0)
          Facts.shapeCasts_S1x1600000_S1600000 (ix1 e)) 100000#32 = 1#1 := hb
    rw [row0_apply, IntOp.cmpi_slt, show (100000#32 : BitVec 32).toInt = 100000 from by decide] at hb'
    exact hb'

/-- THE PRECONDITION, DECODED: if the stated predicate is all ones, every source position is a node. -/
theorem srcInRange_of_fn [Cert.Pre_finite_inputs.Facts]
    (x0 : FVec Ideal Cert.Pre_finite_inputs.S100000x64 .f32) (x1 : IVec Cert.Pre_finite_inputs.S2x1600000 32)
    (x2 : FVec Ideal Cert.Pre_finite_inputs.S64x128 .f32) (x3 : FVec Ideal Cert.Pre_finite_inputs.S128 .f32)
    (x4 : FVec Ideal Cert.Pre_finite_inputs.S64x128 .f32) (x5 : FVec Ideal Cert.Pre_finite_inputs.S128x64 .f32)
    (x6 : FVec Ideal Cert.Pre_finite_inputs.S64 .f32) (x7 : FVec Ideal Cert.Pre_finite_inputs.S128x64 .f32)
    (x8 x9 x10 x11 : FVec Ideal Cert.Pre_finite_inputs.S128 .f32) (x12 x13 x14 x15 : FVec Ideal Cert.Pre_finite_inputs.S64 .f32)
    (x16 : FVec Ideal Cert.Pre_finite_inputs.S64x2 .f32) (x17 : FVec Ideal Cert.Pre_finite_inputs.S2 .f32)
    (h : Cert.Pre_finite_inputs.fn (F := Ideal) x0 x1 x2 x3 x4 x5 x6 x7 x8 x9 x10 x11 x12 x13 x14 x15 x16 x17 = fun _ => 1#1) :
    Graph.SrcInRange x1 := by
  have h0 := congrFun h ix0
  unfold Cert.Pre_finite_inputs.fn Cert.Pre_finite_inputs.fn_part1 Cert.Pre_finite_inputs.fn_part2
    Cert.Pre_finite_inputs.fn_part3 Cert.Pre_finite_inputs.fn_part4 at h0
  obtain ⟨hA, hB⟩ := of_part5 x1 _ _ h0
  intro e
  refine ⟨?_, hB e⟩
  have := hA e
  rwa [row0_apply] at this

/-! ## The take's in-bounds test -/

/-- Row 0 of the edge array at edge `e` is the array's entry (0, e). -/
theorem edgeRow0_apply (ei : IVec Graph.S2xE 32) (e : Fin 1600000) : (Graph.edgeRow 0 ei) (ix1 e) = ei (ix2 0 e) := by
  unfold Graph.edgeRow
  exact row0_apply ei _ _ e

/-- A source that is a node is not wrapped, so the wrapped source is a node too. -/
theorem wrapSrc_range (ei : IVec Graph.S2xE 32) (h : Graph.SrcInRange ei) (k : Graph.SE.Idx) :
    0 ≤ (Graph.wrapSrc ei k).toInt ∧ (Graph.wrapSrc ei k).toInt ≤ 99999 := by
  obtain ⟨e, rfl⟩ : ∃ e, k = ix1 e := ⟨k 0, eq_ix1 k⟩
  obtain ⟨h0, h1⟩ := h e
  have hw : Graph.wrapSrc ei (ix1 e)
      = Scalar.select (IntOp.cmpi .slt ((Graph.edgeRow 0 ei) (ix1 e)) 0#32)
          (IntOp.addi ((Graph.edgeRow 0 ei) (ix1 e)) 100000#32) ((Graph.edgeRow 0 ei) (ix1 e)) := rfl
  have hc : IntOp.cmpi .slt (ei (ix2 0 e)) 0#32 = 0#1 := by
    refine eq_zero_of_ne_one fun hc => ?_
    rw [IntOp.cmpi_slt, show (0#32 : BitVec 32).toInt = 0 from by decide] at hc
    omega
  rw [hw, edgeRow0_apply, hc, select_zero]
  exact ⟨h0, by omega⟩

/-- With every source a node, the take's in-bounds test holds on every edge. -/
theorem takeMask_eq_one (ei : IVec Graph.S2xE 32) (h : Graph.SrcInRange ei) (e : Fin 1600000) (j : Fin 64) :
    Graph.takeMask ei (ix2 e j) = 1#1 := by
  unfold Graph.takeMask
  refine reduce_andi_of_all _ _ _ _ (fun i => ?_) rfl _
  show IntOp.andi (IntOp.cmpi .sge (Graph.srcCol ei i) 0#32) (IntOp.cmpi .sle (Graph.srcCol ei i) 99999#32) = 1#1
  obtain ⟨h0, h1⟩ : 0 ≤ (Graph.srcCol ei i).toInt ∧ (Graph.srcCol ei i).toInt ≤ 99999 := wrapSrc_range ei h _
  rw [IntOp.andi_eq_one, IntOp.cmpi_sge, IntOp.cmpi_sle, show (0#32 : BitVec 32).toInt = 0 from by decide,
    show (99999#32 : BitVec 32).toInt = 99999 from by decide]
  exact ⟨h0, h1⟩

end Cert.Sage.TakeMask

end
-- ==== Proof.KHost0.lean ====
/-
  What the first pallas_call is entered with.  Before it the program slices the edge array into sources and
  destinations, counts each node's in-edges by a scatter-add of ones, guards the count from below by one and takes its
  reciprocal; takes each edge's source row of the node features (a filling take: positions out of range would read a
  fill value, and none is, under the precondition) and sums the rows into the destinations; and reshapes the bias and
  batch-norm vectors into rows.  Each array the call stages is read here as a function of the program's arguments.
-/
import proofs.«401283_j85796266705369_3_alg».proof.Proof.Gen.KernelIdeal.Frame
import proofs.«401283_j85796266705369_3_alg».proof.Proof.Args
import proofs.«401283_j85796266705369_3_alg».proof.Proof.Graph
import proofs.«401283_j85796266705369_3_alg».proof.Proof.TakeMask
import proofs.«401283_j85796266705369_3_alg».proof.Proof.LibRowScatter
import Idealize.ShloMosaic.Lib.StableHlo.Run
import Idealize.ShloMosaic.Lib.Pipeline.Value
import Idealize.ShloMosaic.Lib.ValueLayout

noncomputable section

namespace Cert.KernelIdeal.KHost0

open Cert.KernelIdeal Cert.KernelIdeal.Gen Cert.KernelIdeal.Args Idealize.ShloMosaic Idealize.ShloMosaic.TcCoe Idealize.SL.Sem
open Idealize.ShloMosaic.ValueIdx Cert.Sage

variable (m : (ℓ : Loc nD τ sig) → Buf (Elt Ideal) ℓ) (ρ : Dev nD → PrngReg) (c : Dev nD)

abbrev e0 : S100000x64.Idx → EReal := V3 m ρ c (Pipeline.arrRef spec0 0)
abbrev e1 : S100000x1.Idx → EReal := V3 m ρ c (Pipeline.arrRef spec0 1)
abbrev e2 : S100000x64.Idx → EReal := V3 m ρ c (Pipeline.arrRef spec0 2)
abbrev e3 : S64x128.Idx → EReal := V3 m ρ c (Pipeline.arrRef spec0 3)
abbrev e4 : S1x128.Idx → EReal := V3 m ρ c (Pipeline.arrRef spec0 4)
abbrev e5 : S64x128.Idx → EReal := V3 m ρ c (Pipeline.arrRef spec0 5)
abbrev e6 : S128x64.Idx → EReal := V3 m ρ c (Pipeline.arrRef spec0 6)
abbrev e7 : S1x128.Idx → EReal := V3 m ρ c (Pipeline.arrRef spec0 7)
abbrev e8 : S1x128.Idx → EReal := V3 m ρ c (Pipeline.arrRef spec0 8)
abbrev e9 : S1x128.Idx → EReal := V3 m ρ c (Pipeline.arrRef spec0 9)
abbrev e10 : S1x128.Idx → EReal := V3 m ρ c (Pipeline.arrRef spec0 10)

/-! ## Buffers a stretch of host operations does not write -/

/-- Closes `after ops V b = V b` for a buffer `b` none of the listed operations writes. -/
local macro "unwritten" : tactic => `(tactic| (
  refine StableHlo.after_of_forall_not_mem _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- No operation of the first stretch writes an argument. -/
theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten

/-- An argument the three stretches before the first call do not write is as launched. -/
theorem W3_arg0 : W3 m ρ c (Proc.devRef .tc main_arg0) = m ((c : Thread nD τ).loc main_arg0) :=
  calc W3 m ρ c (Proc.devRef .tc main_arg0)
    _ = W2 m ρ c (Proc.devRef .tc main_arg0) := by unwritten
    _ = W1 m ρ c (Proc.devRef .tc main_arg0) := by unwritten
    _ = m ((c : Thread nD τ).loc main_arg0) := W1_arg0 m ρ c
theorem W3_arg2 : W3 m ρ c (Proc.devRef .tc main_arg2) = m ((c : Thread nD τ).loc main_arg2) :=
  calc W3 m ρ c (Proc.devRef .tc main_arg2)
    _ = W2 m ρ c (Proc.devRef .tc main_arg2) := by unwritten
    _ = W1 m ρ c (Proc.devRef .tc main_arg2) := by unwritten
    _ = W0 m ρ c (Proc.devRef .tc main_arg2) := by unwritten
    _ = m ((c : Thread nD τ).loc main_arg2) := rfl
theorem W3_arg4 : W3 m ρ c (Proc.devRef .tc main_arg4) = m ((c : Thread nD τ).loc main_arg4) :=
  calc W3 m ρ c (Proc.devRef .tc main_arg4)
    _ = W2 m ρ c (Proc.devRef .tc main_arg4) := by unwritten
    _ = W1 m ρ c (Proc.devRef .tc main_arg4) := by unwritten
    _ = W0 m ρ c (Proc.devRef .tc main_arg4) := by unwritten
    _ = m ((c : Thread nD τ).loc main_arg4) := rfl
theorem W3_arg5 : W3 m ρ c (Proc.devRef .tc main_arg5) = m ((c : Thread nD τ).loc main_arg5) :=
  calc W3 m ρ c (Proc.devRef .tc main_arg5)
    _ = W2 m ρ c (Proc.devRef .tc main_arg5) := by unwritten
    _ = W1 m ρ c (Proc.devRef .tc main_arg5) := by unwritten
    _ = W0 m ρ c (Proc.devRef .tc main_arg5) := by unwritten
    _ = m ((c : Thread nD τ).loc main_arg5) := rfl

/-- The vectors the third stretch reshapes are, before it, as launched. -/
theorem W2_arg3 : W2 m ρ c (Proc.devRef .tc main_arg3) = m ((c : Thread nD τ).loc main_arg3) :=
  calc W2 m ρ c (Proc.devRef .tc main_arg3)
    _ = W1 m ρ c (Proc.devRef .tc main_arg3) := by unwritten
    _ = W0 m ρ c (Proc.devRef .tc main_arg3) := by unwritten
    _ = m ((c : Thread nD τ).loc main_arg3) := rfl
theorem W2_arg8 : W2 m ρ c (Proc.devRef .tc main_arg8) = m ((c : Thread nD τ).loc main_arg8) :=
  calc W2 m ρ c (Proc.devRef .tc main_arg8)
    _ = W1 m ρ c (Proc.devRef .tc main_arg8) := by unwritten
    _ = W0 m ρ c (Proc.devRef .tc main_arg8) := by unwritten
    _ = m ((c : Thread nD τ).loc main_arg8) := rfl
theorem W2_arg9 : W2 m ρ c (Proc.devRef .tc main_arg9) = m ((c : Thread nD τ).loc main_arg9) :=
  calc W2 m ρ c (Proc.devRef .tc main_arg9)
    _ = W1 m ρ c (Proc.devRef .tc main_arg9) := by unwritten
    _ = W0 m ρ c (Proc.devRef .tc main_arg9) := by unwritten
    _ = m ((c : Thread nD τ).loc main_arg9) := rfl
theorem W2_arg10 : W2 m ρ c (Proc.devRef .tc main_arg10) = m ((c : Thread nD τ).loc main_arg10) :=
  calc W2 m ρ c (Proc.devRef .tc main_arg10)
    _ = W1 m ρ c (Proc.devRef .tc main_arg10) := by unwritten
    _ = W0 m ρ c (Proc.devRef .tc main_arg10) := by unwritten
    _ = m ((c : Thread nD τ).loc main_arg10) := rfl
theorem W2_arg11 : W2 m ρ c (Proc.devRef .tc main_arg11) = m ((c : Thread nD τ).loc main_arg11) :=
  calc W2 m ρ c (Proc.devRef .tc main_arg11)
    _ = W1 m ρ c (Proc.devRef .tc main_arg11) := by unwritten
    _ = W0 m ρ c (Proc.devRef .tc main_arg11) := by unwritten
    _ = m ((c : Thread nD τ).loc main_arg11) := rfl

/-! ## Reshapes read at an index -/

/-- A vector reshaped to a column, read at (n, 0). -/
theorem col_of_vec (x : S100000.Idx → EReal) (h : S100000.ShapeCasts S100000x1) (n : Fin 100000) :
    shapeCast S100000x1 x h (ix2 n 0) = x (ix1 n) :=
  shapeCast_apply x h _ _ (by rw [Shape.rowMajor_val_one, Shape.rowMajor_val_two]; show n.val = n.val * 1 + 0; omega)

/-- A vector reshaped to a row, read at (0, k). -/
theorem row_of_vec (x : S128.Idx → EReal) (h : S128.ShapeCasts S1x128) (k : Fin 128) :
    shapeCast S1x128 x h (ix2 0 k) = x (ix1 k) :=
  shapeCast_apply x h _ _ (by rw [Shape.rowMajor_val_one, Shape.rowMajor_val_two]; show k.val = 0 * 128 + k.val; omega)

/-! ## What each stretch leaves in the buffers the call stages, over any contents before the stretch -/

theorem after0_v1 (V : Valuation τ sig (Elt Ideal)) :
    (StableHlo.after hostOps0 V (Proc.devRef .tc main_v1) : S1600000.Idx → BitVec 32)
      = Graph.edgeRow 0 (V (Proc.devRef .tc main_arg1)) := by
  after_results
  rfl

theorem after0_v3 (V : Valuation τ sig (Elt Ideal)) :
    (StableHlo.after hostOps0 V (Proc.devRef .tc main_v3) : S1600000.Idx → BitVec 32)
      = Graph.edgeRow 1 (V (Proc.devRef .tc main_arg1)) := by
  after_results
  rfl

/-- The reciprocal of the guarded in-degree, as a column. -/
theorem after0_v12 (V : Valuation τ sig (Elt Ideal)) :
    (StableHlo.after hostOps0 V (Proc.devRef .tc main_v12) : S100000x1.Idx → EReal)
      = shapeCast S100000x1 (Host.divf (broadcastInDim S100000 ![] bcast_S_S100000 (constant (F := Ideal) S_ .f32 0x3F800000#32))
          (Graph.degMax (V (Proc.devRef .tc main_arg1)))) shapeCasts_S100000_S100000x1 := by
  after_results
  rfl

/-- The scatter-add of the taken rows into a zero array. -/
theorem after2_v16 (V : Valuation τ sig (Elt Ideal)) :
    (StableHlo.after hostOps0_2 V (Proc.devRef .tc main_v16) : S100000x64.Idx → EReal)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v13)) := by
  after_results

theorem after2_v17 (V : Valuation τ sig (Elt Ideal)) :
    (StableHlo.after hostOps0_2 V (Proc.devRef .tc main_v17) : S1x128.Idx → EReal)
      = shapeCast S1x128 (V (Proc.devRef .tc main_arg3)) shapeCasts_S128_S1x128 := by
  after_results
  rfl
theorem after2_v18 (V : Valuation τ sig (Elt Ideal)) :
    (StableHlo.after hostOps0_2 V (Proc.devRef .tc main_v18) : S1x128.Idx → EReal)
      = shapeCast S1x128 (V (Proc.devRef .tc main_arg8)) shapeCasts_S128_S1x128 := by
  after_results
  rfl
theorem after2_v19 (V : Valuation τ sig (Elt Ideal)) :
    (StableHlo.after hostOps0_2 V (Proc.devRef .tc main_v19) : S1x128.Idx → EReal)
      = shapeCast S1x128 (V (Proc.devRef .tc main_arg9)) shapeCasts_S128_S1x128 := by
  after_results
  rfl
theorem after2_v20 (V : Valuation τ sig (Elt Ideal)) :
    (StableHlo.after hostOps0_2 V (Proc.devRef .tc main_v20) : S1x128.Idx → EReal)
      = shapeCast S1x128 (V (Proc.devRef .tc main_arg10)) shapeCasts_S128_S1x128 := by
  after_results
  rfl
theorem after2_v21 (V : Valuation τ sig (Elt Ideal)) :
    (StableHlo.after hostOps0_2 V (Proc.devRef .tc main_v21) : S1x128.Idx → EReal)
      = shapeCast S1x128 (V (Proc.devRef .tc main_arg11)) shapeCasts_S128_S1x128 := by
  after_results
  rfl

/-! ## The take, stretch by stretch -/

/-- Operations run one stretch after another are their concatenation run as one. -/
theorem after_append' (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The wrapped source positions, their column of start positions, the in-bounds test of every position and the take's
    mask, each over what it is computed from. -/
def wrapOf (r : IVec S1600000 32) : IVec S1600000 32 :=
  select (cmpi .slt r (broadcastInDim S1600000 ![] bcast_S_S1600000 (constantI S_ 32 0#32)))
    (addi r (broadcastInDim S1600000 ![] bcast_S_S1600000 (constantI S_ 32 100000#32))) r
def colOf (r : IVec S1600000 32) : IVec S1600000x1 32 :=
  broadcastInDim S1600000x1 ![0] bcast_S1600000_S1600000x1_0 (wrapOf r)
def testOf (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_
def maskOf (r : IVec S1600000 32) : IVec S1600000x64 1 :=
  broadcastInDim S1600000x64 ![0] bcast_S1600000_S1600000x64_0 (testOf (colOf r))

theorem colOf_eq (ei : IVec S2x1600000 32) : colOf (Graph.edgeRow 0 ei) = Graph.srcCol ei := rfl
theorem maskOf_eq (ei : IVec S2x1600000 32) : maskOf (Graph.edgeRow 0 ei) = Graph.takeMask ei := rfl

/-- The take's 23 operations in three stretches: the start positions (8), the in-bounds test (10), the gather and the
    fill (5). -/
theorem take_split (V : Valuation τ sig (Elt Ideal)) :
    StableHlo.after hostOps0_1 V
      = StableHlo.after (hostOps0_1.drop 18) (StableHlo.after ((hostOps0_1.drop 8).take 10) (StableHlo.after (hostOps0_1.take 8) V)) := by
  rw [← after_append', ← after_append']
  rfl

theorem takeA_v5 (V : Valuation τ sig (Elt Ideal)) :
    (StableHlo.after (hostOps0_1.take 8) V (Proc.devRef .tc main_call0_v5) : S1600000x1.Idx → BitVec 32)
      = colOf (V (Proc.devRef .tc main_v1)) := by
  unfold colOf wrapOf
  simp only [hostOps0_1, List.take_succ_cons, List.take_zero]
  after_results
  simp only [StableHlo.TRef.ofBuf, StableHlo.TRef.toBuf, cast_eq]
  try rfl

theorem takeA_arg0 (V : Valuation τ sig (Elt Ideal)) :
    StableHlo.after (hostOps0_1.take 8) V (Proc.devRef .tc main_arg0) = V (Proc.devRef .tc main_arg0) := by
  simp only [hostOps0_1, List.take_succ_cons, List.take_zero]
  after_results
  try rfl

theorem takeB_v12 (V : Valuation τ sig (Elt Ideal)) :
    (StableHlo.after ((hostOps0_1.drop 8).take 10) V (Proc.devRef .tc main_call0_v12) : S1600000.Idx → BitVec 1)
      = testOf (V (Proc.devRef .tc main_call0_v5)) := by
  unfold testOf
  simp only [hostOps0_1, List.drop_succ_cons, List.drop_zero, List.take_succ_cons, List.take_zero]
  after_results
  simp only [StableHlo.TRef.ofBuf, StableHlo.TRef.toBuf, cast_eq]
  try rfl

theorem takeB_v5 (V : Valuation τ sig (Elt Ideal)) :
    StableHlo.after ((hostOps0_1.drop 8).take 10) V (Proc.devRef .tc main_call0_v5) = V (Proc.devRef .tc main_call0_v5) := by
  simp only [hostOps0_1, List.drop_succ_cons, List.drop_zero, List.take_succ_cons, List.take_zero]
  after_results
  try rfl

theorem takeB_arg0 (V : Valuation τ sig (Elt Ideal)) :
    StableHlo.after ((hostOps0_1.drop 8).take 10) V (Proc.devRef .tc main_arg0) = V (Proc.devRef .tc main_arg0) := by
  simp only [hostOps0_1, List.drop_succ_cons, List.drop_zero, List.take_succ_cons, List.take_zero]
  after_results
  try rfl

theorem takeC_v13 (V : Valuation τ sig (Elt Ideal)) :
    (StableHlo.after (hostOps0_1.drop 18) V (Proc.devRef .tc main_v13) : S1600000x64.Idx → EReal)
      = select (broadcastInDim S1600000x64 ![0] bcast_S1600000_S1600000x64_0 (V (Proc.devRef .tc main_call0_v12)))
          (Host.gather gather_S100000x64_S1600000x1_S1600000x64_1_0_n_n_0_1_164 (V (Proc.devRef .tc main_arg0))
            (V (Proc.devRef .tc main_call0_v5)))
          (broadcastInDim S1600000x64 ![] bcast_S_S1600000x64 (constant (F := Ideal) S_ .f32 0x7FC00000#32)) := by
  simp only [hostOps0_1, List.drop_succ_cons, List.drop_zero]
  after_results
  simp only [StableHlo.TRef.ofBuf, StableHlo.TRef.toBuf, cast_eq]
  try rfl

/-- What the take leaves: the gathered source rows under the in-bounds mask, the fill value elsewhere. -/
theorem after1_v13 (V : Valuation τ sig (Elt Ideal)) :
    (StableHlo.after hostOps0_1 V (Proc.devRef .tc main_v13) : S1600000x64.Idx → EReal)
      = select (maskOf (V (Proc.devRef .tc main_v1)))
          (Host.gather gather_S100000x64_S1600000x1_S1600000x64_1_0_n_n_0_1_164 (V (Proc.devRef .tc main_arg0))
            (colOf (V (Proc.devRef .tc main_v1))))
          (broadcastInDim S1600000x64 ![] bcast_S_S1600000x64 (constant (F := Ideal) S_ .f32 0x7FC00000#32)) := by
  rw [take_split, takeC_v13, takeB_v12, takeB_v5, takeB_arg0, takeA_v5, takeA_arg0]
  rfl

/-! ## The staged arrays over the program's arguments -/

theorem W1_v1 : (W1 m ρ c (Proc.devRef .tc main_v1) : S1600000.Idx → BitVec 32) = Graph.edgeRow 0 (argEi m c) :=
  after0_v1 (W0 m ρ c)

theorem W2_v3 : (W2 m ρ c (Proc.devRef .tc main_v3) : S1600000.Idx → BitVec 32) = Graph.edgeRow 1 (argEi m c) :=
  calc W2 m ρ c (Proc.devRef .tc main_v3)
    _ = W1 m ρ c (Proc.devRef .tc main_v3) := by unwritten
    _ = Graph.edgeRow 1 (argEi m c) := after0_v3 (W0 m ρ c)

/-- The taken rows: each edge's source row of the node features under the take's mask. -/
theorem W2_v13 :
    (W2 m ρ c (Proc.devRef .tc main_v13) : S1600000x64.Idx → EReal)
      = select (Graph.takeMask (argEi m c))
          (Host.gather gather_S100000x64_S1600000x1_S1600000x64_1_0_n_n_0_1_164 (argX m c) (Graph.srcCol (argEi m c)))
          (broadcastInDim S1600000x64 ![] bcast_S_S1600000x64 (constant (F := Ideal) S_ .f32 0x7FC00000#32)) := by
  refine (after1_v13 (W1 m ρ c)).trans ?_
  rw [W1_v1 m ρ c, W1_arg0 m ρ c, maskOf_eq, colOf_eq]

theorem W3_v16 :
    (W3 m ρ c (Proc.devRef .tc main_v16) : S100000x64.Idx → EReal)
      = Host.scatterAdd scatter_S100000x64_S1600000x1_S1600000x64_1_0_0_1
          (broadcastInDim S100000x64 ![] bcast_S_S100000x64 (constant (F := Ideal) S_ .f32 0x00000000#32))
          (Graph.dstCol (argEi m c))
          (select (Graph.takeMask (argEi m c))
            (Host.gather gather_S100000x64_S1600000x1_S1600000x64_1_0_n_n_0_1_164 (argX m c) (Graph.srcCol (argEi m c)))
            (broadcastInDim S1600000x64 ![] bcast_S_S1600000x64 (constant (F := Ideal) S_ .f32 0x7FC00000#32))) := by
  refine (after2_v16 (W2 m ρ c)).trans ?_
  rw [W2_v3 m ρ c, W2_v13 m ρ c]
  rfl

theorem W3_v12 :
    (W3 m ρ c (Proc.devRef .tc main_v12) : S100000x1.Idx → EReal)
      = shapeCast S100000x1 (Host.divf (broadcastInDim S100000 ![] bcast_S_S100000 (constant (F := Ideal) S_ .f32 0x3F800000#32))
          (Graph.degMax (argEi m c))) shapeCasts_S100000_S100000x1 :=
  calc W3 m ρ c (Proc.devRef .tc main_v12)
    _ = W2 m ρ c (Proc.devRef .tc main_v12) := by unwritten
    _ = W1 m ρ c (Proc.devRef .tc main_v12) := by unwritten
    _ = _ := after0_v12 (W0 m ρ c)

/-- The scatter-add of the masked gathered rows into zeros, at an index: with every source a node the mask is all ones,
    and entry (n, d) is the sum over n's in-edges of the source node's feature d. -/
theorem sum_rows_apply (x : S100000x64.Idx → EReal) (ei : IVec S2x1600000 32) (hsrc : Graph.SrcInRange ei)
    (n : Fin 100000) (d : Fin 64) :
    Host.scatterAdd scatter_S100000x64_S1600000x1_S1600000x64_1_0_0_1
        (broadcastInDim S100000x64 ![] bcast_S_S100000x64 (constant (F := Ideal) S_ .f32 0x00000000#32))
        (Graph.dstCol ei)
        (select (Graph.takeMask ei)
          (Host.gather gather_S100000x64_S1600000x1_S1600000x64_1_0_n_n_0_1_164 x (Graph.srcCol ei))
          (broadcastInDim S1600000x64 ![] bcast_S_S1600000x64 (constant (F := Ideal) S_ .f32 0x7FC00000#32))) (ix2 n d)
      = 0 + ∑ e ∈ Graph.inEdges ei n, x (ix2 (Graph.srcNode ei e) d) := by
  rw [Cert.RowScatter.scatterAdd_rows_apply _ rfl rfl rfl rfl]
  refine congrArg₂ (· + ·) ?_ ?_
  · exact (broadcastInDim_scalar_apply _ _ _).trans Ideal.ofBits_zero_f32
  · refine Finset.sum_congr rfl fun e _ => ?_
    rw [select_apply, TakeMask.takeMask_eq_one ei hsrc e d, select_one]
    exact Cert.RowScatter.gather_rows_apply (by decide) _ rfl rfl rfl rfl rfl rfl x _ e d

/-- The reciprocal column at an index. -/
theorem inv_point (ei : IVec S2x1600000 32) (n : Fin 100000) :
    shapeCast S100000x1 (Host.divf (broadcastInDim S100000 ![] bcast_S_S100000 (constant (F := Ideal) S_ .f32 0x3F800000#32))
        (Graph.degMax ei)) shapeCasts_S100000_S100000x1 (ix2 n 0)
      = Ideal.div 1 (Graph.degMax ei (ix1 n)) := by
  have h1 : broadcastInDim S100000 ![] bcast_S_S100000 (constant (F := Ideal) S_ .f32 0x3F800000#32) (ix1 n) = (1 : EReal) :=
    (broadcastInDim_scalar_apply _ _ _).trans Ideal.ofBits_one_f32
  rw [col_of_vec, hostDivf_apply, h1]

/-- The summed neighbour rows: node n, column d holds the sum over n's in-edges of the source node's feature d. -/
theorem sum1_apply (hsrc : Graph.SrcInRange (argEi m c)) (n : Fin 100000) (d : Fin 64) :
    e0 m ρ c (ix2 n d) = 0 + ∑ e ∈ Graph.inEdges (argEi m c) n, argX m c (ix2 (Graph.srcNode (argEi m c) e) d) := by
  show (W3 m ρ c (Proc.devRef .tc main_v16) : S100000x64.Idx → EReal) (ix2 n d) = _
  rw [W3_v16 m ρ c]
  exact sum_rows_apply (argX m c) (argEi m c) hsrc n d

/-- The reciprocal guarded in-degree of node n. -/
theorem inv_apply (n : Fin 100000) : e1 m ρ c (ix2 n 0) = Ideal.div 1 (Graph.degMax (argEi m c) (ix1 n)) := by
  show (W3 m ρ c (Proc.devRef .tc main_v12) : S100000x1.Idx → EReal) (ix2 n 0) = _
  rw [W3_v12 m ρ c]
  exact inv_point (argEi m c) n

theorem entry2 : e2 m ρ c = argX m c := W3_arg0 m ρ c
theorem entry3 : e3 m ρ c = argW1l m c := W3_arg2 m ρ c
theorem entry4 (k : Fin 128) : e4 m ρ c (ix2 0 k) = argB1 m c (ix1 k) := by
  show (W3 m ρ c (Proc.devRef .tc main_v17) : S1x128.Idx → EReal) (ix2 0 k) = _
  rw [show W3 m ρ c (Proc.devRef .tc main_v17) = _ from after2_v17 (W2 m ρ c), W2_arg3 m ρ c]
  exact row_of_vec _ _ k
theorem entry5 : e5 m ρ c = argW1r m c := W3_arg4 m ρ c
theorem entry6 : e6 m ρ c = argW2l m c := W3_arg5 m ρ c
theorem entry7 (k : Fin 128) : e7 m ρ c (ix2 0 k) = argG1 m c (ix1 k) := by
  show (W3 m ρ c (Proc.devRef .tc main_v18) : S1x128.Idx → EReal) (ix2 0 k) = _
  rw [show W3 m ρ c (Proc.devRef .tc main_v18) = _ from after2_v18 (W2 m ρ c), W2_arg8 m ρ c]
  exact row_of_vec _ _ k
theorem entry8 (k : Fin 128) : e8 m ρ c (ix2 0 k) = argBe1 m c (ix1 k) := by
  show (W3 m ρ c (Proc.devRef .tc main_v19) : S1x128.Idx → EReal) (ix2 0 k) = _
  rw [show W3 m ρ c (Proc.devRef .tc main_v19) = _ from after2_v19 (W2 m ρ c), W2_arg9 m ρ c]
  exact row_of_vec _ _ k
theorem entry9 (k : Fin 128) : e9 m ρ c (ix2 0 k) = argMu1 m c (ix1 k) := by
  show (W3 m ρ c (Proc.devRef .tc main_v20) : S1x128.Idx → EReal) (ix2 0 k) = _
  rw [show W3 m ρ c (Proc.devRef .tc main_v20) = _ from after2_v20 (W2 m ρ c), W2_arg10 m ρ c]
  exact row_of_vec _ _ k
theorem entry10 (k : Fin 128) : e10 m ρ c (ix2 0 k) = argVa1 m c (ix1 k) := by
  show (W3 m ρ c (Proc.devRef .tc main_v21) : S1x128.Idx → EReal) (ix2 0 k) = _
  rw [show W3 m ρ c (Proc.devRef .tc main_v21) = _ from after2_v21 (W2 m ρ c), W2_arg11 m ρ c]
  exact row_of_vec _ _ k

end Cert.KernelIdeal.KHost0

end
-- ==== Proof.KHost1.lean ====
/-
  What the second pallas_call is entered with.  Between the calls the program takes each edge's source row of the
  projected activations the first call wrote (the same filling take) and sums the rows into the destinations, and
  reshapes layer 2's bias and batch-norm vectors and the classifier's bias into rows; the reciprocal counts are the ones
  computed before the first call, and the activations are the first call's other output.  Each array the call stages is
  read here as a function of the program's arguments and of the first call's two outputs.
-/
import proofs.«401283_j85796266705369_3_alg».proof.Proof.Gen.KernelIdeal.Frame
import proofs.«401283_j85796266705369_3_alg».proof.Proof.Args
import proofs.«401283_j85796266705369_3_alg».proof.Proof.Graph
import proofs.«401283_j85796266705369_3_alg».proof.Proof.TakeMask
import proofs.«401283_j85796266705369_3_alg».proof.Proof.LibRowScatter
import Idealize.ShloMosaic.Lib.StableHlo.Run
import Idealize.ShloMosaic.Lib.Pipeline.Value
import Idealize.ShloMosaic.Lib.ValueLayout

noncomputable section

namespace Cert.KernelIdeal.KHost1

open Cert.KernelIdeal Cert.KernelIdeal.Gen Cert.KernelIdeal.Args Idealize.ShloMosaic Idealize.ShloMosaic.TcCoe Idealize.SL.Sem
open Idealize.ShloMosaic.ValueIdx Cert.Sage

variable (m : (ℓ : Loc nD τ sig) → Buf (Elt Ideal) ℓ) (ρ : Dev nD → PrngReg) (c : Dev nD)

/-- The first call's two outputs after its write-backs: the activations and their projection. -/
abbrev h1Arr : S100000x128.Idx → EReal := (dat0 (V3 m ρ) c).arrAt 11 cfg0.N
abbrev pArr : S100000x64.Idx → EReal := (dat0 (V3 m ρ) c).arrAt 12 cfg0.N

/-! The arrays the second call stages (window w stages `Pipeline.arrRef spec1 w`), at their literal types. -/
abbrev f0 : S100000x64.Idx → EReal := V6 m ρ c (Pipeline.arrRef spec1 0)
abbrev f1 : S100000x1.Idx → EReal := V6 m ρ c (Pipeline.arrRef spec1 1)
abbrev f2 : S100000x128.Idx → EReal := V6 m ρ c (Pipeline.arrRef spec1 2)
abbrev f3 : S1x64.Idx → EReal := V6 m ρ c (Pipeline.arrRef spec1 3)
abbrev f4 : S128x64.Idx → EReal := V6 m ρ c (Pipeline.arrRef spec1 4)
abbrev f5 : S1x64.Idx → EReal := V6 m ρ c (Pipeline.arrRef spec1 5)
abbrev f6 : S1x64.Idx → EReal := V6 m ρ c (Pipeline.arrRef spec1 6)
abbrev f7 : S1x64.Idx → EReal := V6 m ρ c (Pipeline.arrRef spec1 7)
abbrev f8 : S1x64.Idx → EReal := V6 m ρ c (Pipeline.arrRef spec1 8)
abbrev f9 : S64x2.Idx → EReal := V6 m ρ c (Pipeline.arrRef spec1 9)
abbrev f10 : S1x2.Idx → EReal := V6 m ρ c (Pipeline.arrRef spec1 10)

/-! ## The host stretches read over an arbitrary valuation -/

section Stretches
variable {F : FTy → Type} [FloatOps F]

/-- The wrapped source positions of a filling take, over a vector of source positions. -/
def wrapOf (s : IVec Graph.SE 32) : IVec Graph.SE 32 :=
  select (cmpi .slt s (broadcastInDim Graph.SE ![] (by decide) (constantI Graph.S0 32 0#32)))
    (addi s (broadcastInDim Graph.SE ![] (by decide) (constantI Graph.S0 32 100000#32))) s

/-- The wrapped positions as a column of start positions. -/
def colOf (s : IVec Graph.SE 32) : IVec Graph.SEx1 32 :=
  broadcastInDim Graph.SEx1 ![0] (by decide) (wrapOf s)

/-- The take's in-bounds test, one bit per edge, laid along each gathered row. -/
def maskOf (s : IVec Graph.SE 32) : IVec Graph.SEx64 1 :=
  broadcastInDim Graph.SEx64 ![0] (by decide)
    (Host.reduce (axes := [1]) (t := Graph.SE) IntOp.andi
      (andi (cmpi .sge (colOf s) (broadcastInDim Graph.SEx1 ![] (by decide) (constantI Graph.S0 32 0#32)))
        (cmpi .sle (colOf s) (broadcastInDim Graph.SEx1 ![0, 1] (by decide) (broadcastInDim Graph.S1x1 ![1] (by decide) (constantI Graph.S1 32 99999#32)))))
      (constantI Graph.S0 1 1#1) (by decide) (by decide))

/-- The value a filling take reads out of range. -/
def fillOf : FVec F Graph.SEx64 .f32 :=
  broadcastInDim Graph.SEx64 ![] (by decide) (constant (F := F) Graph.S0 .f32 0x7FC00000#32)

/-- The filling take of the rows of a table `p` at the source positions `s`. -/
def takeOf (p : FVec F S100000x64 .f32) (s : IVec Graph.SE 32) : FVec F Graph.SEx64 .f32 :=
  select (maskOf s) (Host.gather gather_S100000x64_S1600000x1_S1600000x64_1_0_n_n_0_1_164 p (colOf s)) (fillOf (F := F))

/-- Contents moved to a typed reference's buffer and back are the contents. -/
theorem ofBuf_toBuf {Val : EltTy → Type} {T : BufTy} (x : StableHlo.TRef sig T) (v : T.Contents Val) :
    x.ofBuf (x.toBuf v) = v := by
  obtain ⟨r, rfl, _, _⟩ := x
  rfl

/-- Reading a buffer at its own type changes nothing (three buffers of the second take). -/
theorem ofBuf_v23 (y : BufTy.Contents (Elt F) (Proc.devRef (τ := τ) .tc main_v23).ty) :
    (StableHlo.TRef.of main_v23 : StableHlo.TRef sig ⟨S1600000x64, .f32⟩).ofBuf y = y := rfl
theorem ofBuf_v22_1 (y : BufTy.Contents (Elt F) (Proc.devRef (τ := τ) .tc main_v22_1).ty) :
    (StableHlo.TRef.of main_v22_1 : StableHlo.TRef sig ⟨S100000x64, .f32⟩).ofBuf y = y := rfl
theorem ofBuf_v1 (y : BufTy.Contents (Elt F) (Proc.devRef (τ := τ) .tc main_v1).ty) :
    (StableHlo.TRef.of main_v1 : StableHlo.TRef sig ⟨S1600000, .i32⟩).ofBuf y = y := rfl

attribute [local irreducible] Host.reduce Host.gather in
/-- The second take's result is the filling take of the table it is called on at the sources. -/
theorem take_v23_cast (V : Valuation τ sig (Elt F)) :
    (StableHlo.TRef.of main_v23 : StableHlo.TRef sig ⟨S1600000x64, .f32⟩).ofBuf (StableHlo.after (hostOps1 (F := F)) V (Proc.devRef .tc main_v23))
      = takeOf (F := F) ((StableHlo.TRef.of main_v22_1 : StableHlo.TRef sig ⟨S100000x64, .f32⟩).ofBuf (V (Proc.devRef .tc main_v22_1)))
          ((StableHlo.TRef.of main_v1 : StableHlo.TRef sig ⟨S1600000, .i32⟩).ofBuf (V (Proc.devRef .tc main_v1))) := by
  after_results_simp
  simp only [ofBuf_toBuf]
  rfl

theorem take_v23 (V : Valuation τ sig (Elt F)) :
    StableHlo.after (hostOps1 (F := F)) V (Proc.devRef .tc main_v23)
      = takeOf (F := F) (V (Proc.devRef .tc main_v22_1)) (V (Proc.devRef .tc main_v1)) :=
  (ofBuf_v23 _).symm.trans ((take_v23_cast V).trans (congrArg₂ (takeOf (F := F)) (ofBuf_v22_1 _) (ofBuf_v1 _)))

/-- The sources and the destinations are rows 0 and 1 of the edge array. -/
theorem edge_v1 (V : Valuation τ sig (Elt F)) :
    StableHlo.after (hostOps0 (F := F)) V (Proc.devRef .tc main_v1) = Graph.edgeRow 0 (V (Proc.devRef .tc main_arg1)) := by
  after_results_simp
  rfl
theorem edge_v3 (V : Valuation τ sig (Elt F)) :
    StableHlo.after (hostOps0 (F := F)) V (Proc.devRef .tc main_v3) = Graph.edgeRow 1 (V (Proc.devRef .tc main_arg1)) := by
  after_results_simp
  rfl

/-- The second row sum: the taken rows scattered into a zero table at the destinations. -/
theorem scat_v26 (V : Valuation τ sig (Elt F)) :
    StableHlo.after (hostOps1_1 (F := F)) V (Proc.devRef .tc main_v26)
      = Host.scatterAdd scatter_S100000x64_S1600000x1_S1600000x64_1_0_0_1
          (broadcastInDim S100000x64 ![] (by decide) (constant (F := F) Graph.S0 .f32 0x00000000#32))
          (broadcastInDim Graph.SEx1 ![0] (by decide) (V (Proc.devRef .tc main_v3))) (V (Proc.devRef .tc main_v23)) := by
  after_results

/-- The guarded in-degree over a column of destinations, and its reciprocal as an [N, 1] column. -/
def degOf (d : IVec Graph.SEx1 32) : FVec F Graph.SN .f32 :=
  maximumf
    (Host.scatterAdd Graph.countDims (broadcastInDim Graph.SN ![] (by decide) (constant (F := F) Graph.S0 .f32 0x00000000#32)) d
      (broadcastInDim Graph.SE ![] (by decide) (constant (F := F) Graph.S0 .f32 0x3F800000#32)))
    (broadcastInDim Graph.SN ![] (by decide) (constant (F := F) Graph.S0 .f32 0x3F800000#32))

def invOf (d : IVec Graph.SEx1 32) : FVec F S100000x1 .f32 :=
  shapeCast S100000x1
    (Host.divf (broadcastInDim Graph.SN ![] (by decide) (constant (F := F) Graph.S0 .f32 0x3F800000#32)) (degOf (F := F) d)) (by decide)

attribute [local irreducible] Host.scatterAdd in
/-- The reciprocal counts, computed before the first call. -/
theorem inv_v12 (V : Valuation τ sig (Elt F)) :
    StableHlo.after (hostOps0 (F := F)) V (Proc.devRef .tc main_v12)
      = invOf (F := F) (Graph.dstCol (V (Proc.devRef .tc main_arg1))) := by
  after_results_simp
  rfl

/-- Layer 2's bias and batch-norm vectors and the classifier's bias, reshaped into rows. -/
theorem row_v27 (V : Valuation τ sig (Elt F)) :
    StableHlo.after (hostOps1_1 (F := F)) V (Proc.devRef .tc main_v27)
      = shapeCast S1x64 (V (Proc.devRef .tc main_arg6) : FVec F S64 .f32) (by decide) := by
  after_results
  rfl
theorem row_v28 (V : Valuation τ sig (Elt F)) :
    StableHlo.after (hostOps1_1 (F := F)) V (Proc.devRef .tc main_v28)
      = shapeCast S1x64 (V (Proc.devRef .tc main_arg12) : FVec F S64 .f32) (by decide) := by
  after_results
  rfl
theorem row_v29 (V : Valuation τ sig (Elt F)) :
    StableHlo.after (hostOps1_1 (F := F)) V (Proc.devRef .tc main_v29)
      = shapeCast S1x64 (V (Proc.devRef .tc main_arg13) : FVec F S64 .f32) (by decide) := by
  after_results
  rfl
theorem row_v30 (V : Valuation τ sig (Elt F)) :
    StableHlo.after (hostOps1_1 (F := F)) V (Proc.devRef .tc main_v30)
      = shapeCast S1x64 (V (Proc.devRef .tc main_arg14) : FVec F S64 .f32) (by decide) := by
  after_results
  rfl
theorem row_v31 (V : Valuation τ sig (Elt F)) :
    StableHlo.after (hostOps1_1 (F := F)) V (Proc.devRef .tc main_v31)
      = shapeCast S1x64 (V (Proc.devRef .tc main_arg15) : FVec F S64 .f32) (by decide) := by
  after_results
  rfl
theorem row_v32 (V : Valuation τ sig (Elt F)) :
    StableHlo.after (hostOps1_1 (F := F)) V (Proc.devRef .tc main_v32)
      = shapeCast S1x2 (V (Proc.devRef .tc main_arg17) : FVec F S2 .f32) (by decide) := by
  after_results
  rfl

end Stretches

/-! ## The buffers the second call reads, walked back to the arguments and the first call's outputs -/

/-- A buffer no operation of a stretch writes is carried through the stretch. -/
macro "carried" : tactic =>
  `(tactic| exact StableHlo.after_of_forall_not_mem _ _ (List.forall_iff_forall_mem.mp (by
      simp only [hostOps0, hostOps0_1, hostOps0_2, hostOps1, hostOps1_1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The sources, as the second take finds them. -/
theorem W4_v1 : W4 m ρ c (Proc.devRef .tc main_v1) = Graph.edgeRow 0 (argEi m c) :=
  calc W4 m ρ c (Proc.devRef .tc main_v1)
    _ = W3 m ρ c (Proc.devRef .tc main_v1) := W4_of_ne m ρ c main_v1 (by decide)
    _ = W2 m ρ c (Proc.devRef .tc main_v1) := by carried
    _ = W1 m ρ c (Proc.devRef .tc main_v1) := by carried
    _ = Graph.edgeRow 0 (argEi m c) := edge_v1 (W0 m ρ c)

/-- The destinations, as the second row sum finds them. -/
theorem W5_v3 : W5 m ρ c (Proc.devRef .tc main_v3) = Graph.edgeRow 1 (argEi m c) :=
  calc W5 m ρ c (Proc.devRef .tc main_v3)
    _ = W4 m ρ c (Proc.devRef .tc main_v3) := by carried
    _ = W3 m ρ c (Proc.devRef .tc main_v3) := W4_of_ne m ρ c main_v3 (by decide)
    _ = W2 m ρ c (Proc.devRef .tc main_v3) := by carried
    _ = W1 m ρ c (Proc.devRef .tc main_v3) := by carried
    _ = Graph.edgeRow 1 (argEi m c) := edge_v3 (W0 m ρ c)

/-- The table the second take reads is the first call's projection output. -/
theorem W4_p : W4 m ρ c (Proc.devRef .tc main_v22_1) = pArr m ρ c := W4_arr m ρ c 12

/-- The taken rows. -/
theorem W5_v23 : W5 m ρ c (Proc.devRef .tc main_v23) = takeOf (F := Ideal) (pArr m ρ c) (Graph.edgeRow 0 (argEi m c)) :=
  (take_v23 (W4 m ρ c)).trans (congrArg₂ (takeOf (F := Ideal)) (W4_p m ρ c) (W4_v1 m ρ c))

theorem f0_W6 : f0 m ρ c = W6 m ρ c (Proc.devRef .tc main_v26) := rfl

/-- The staged row sum as one scatter-add of the taken rows. -/
theorem f0_eq : f0 m ρ c
    = Host.scatterAdd scatter_S100000x64_S1600000x1_S1600000x64_1_0_0_1
        (broadcastInDim S100000x64 ![] (by decide) (constant (F := Ideal) Graph.S0 .f32 0x00000000#32))
        (Graph.dstCol (argEi m c)) (takeOf (F := Ideal) (pArr m ρ c) (Graph.edgeRow 0 (argEi m c))) := by
  refine (f0_W6 m ρ c).trans ((scat_v26 (W5 m ρ c)).trans ?_)
  rw [W5_v3 m ρ c, W5_v23 m ρ c]
  rfl

/-- Over the edge array's row 0 the take's mask and start column are the graph's. -/
theorem mask_eq (ei : IVec Graph.S2xE 32) : maskOf (Graph.edgeRow 0 ei) = Graph.takeMask ei := rfl
theorem col_eq (ei : IVec Graph.S2xE 32) : colOf (Graph.edgeRow 0 ei) = Graph.srcCol ei := rfl

/-- With every source a node, the take reads row (source of e) of the table, and no fill value. -/
theorem take_apply (ei : IVec Graph.S2xE 32) (hsrc : Graph.SrcInRange ei) (p : FVec Ideal S100000x64 .f32)
    (e : Fin 1600000) (j : Fin 64) :
    takeOf (F := Ideal) p (Graph.edgeRow 0 ei) (ix2 e j) = p (ix2 (Graph.srcNode ei e) j) := by
  unfold takeOf
  rw [select_apply, mask_eq, TakeMask.takeMask_eq_one ei hsrc e j, select_one, col_eq]
  exact Cert.RowScatter.gather_rows_apply (by decide) _ rfl rfl rfl rfl rfl rfl p (Graph.srcCol ei) e j

/-- The table the rows are summed into is zero. -/
theorem zero_apply (n : Fin 100000) (j : Fin 64) :
    broadcastInDim S100000x64 ![] (by decide) (constant (F := Ideal) Graph.S0 .f32 0x00000000#32) (ix2 n j) = 0 := by
  rw [broadcastInDim_scalar_apply, constant_apply, Ideal.ofBits_zero_f32]

/-- The summed projected neighbour rows: node n, column j holds the sum over n's in-edges of the source node's
    projection j. -/
theorem sump_apply (hsrc : Graph.SrcInRange (argEi m c)) (n : Fin 100000) (j : Fin 64) :
    f0 m ρ c (ix2 n j) = 0 + ∑ e ∈ Graph.inEdges (argEi m c) n, pArr m ρ c (ix2 (Graph.srcNode (argEi m c) e) j) := by
  rw [f0_eq m ρ c, Cert.RowScatter.scatterAdd_rows_apply _ rfl rfl rfl rfl, zero_apply]
  exact congrArg (fun t : EReal => 0 + t)
    (Finset.sum_congr rfl fun e _ => take_apply (argEi m c) hsrc (pArr m ρ c) e j)

/-! ## The reciprocal counts -/

/-- The reciprocal counts were computed before the first call, which reads them through an input window, and no
    later operation writes them. -/
theorem f1_eq : f1 m ρ c = invOf (F := Ideal) (Graph.dstCol (argEi m c)) :=
  calc f1 m ρ c
    _ = W6 m ρ c (Proc.devRef .tc main_v12) := rfl
    _ = W5 m ρ c (Proc.devRef .tc main_v12) := by carried
    _ = W4 m ρ c (Proc.devRef .tc main_v12) := by carried
    _ = W3 m ρ c (Proc.devRef .tc main_v12) :=
          (W4_arr m ρ c 1).trans (((dat0 (V3 m ρ) c).arrAt_in 1 rfl _).trans (A_eq0 (V3 m ρ) c 1))
    _ = W2 m ρ c (Proc.devRef .tc main_v12) := by carried
    _ = W1 m ρ c (Proc.devRef .tc main_v12) := by carried
    _ = invOf (F := Ideal) (Graph.dstCol (argEi m c)) := inv_v12 (W0 m ρ c)

/-- Over the destinations' column the guarded count is the graph's. -/
theorem deg_eq (ei : IVec Graph.S2xE 32) : degOf (F := Ideal) (Graph.dstCol ei) = Graph.degMax ei := rfl

/-- An [N] array cast to an [N, 1] column reads, at (n, 0), the operand at n. -/
theorem shapeCast_col_apply {α : Type} (x : Graph.SN.Idx → α) (h : Graph.SN.ShapeCasts S100000x1) (n : Fin 100000) :
    shapeCast S100000x1 x h (ix2 n 0) = x (ix1 n) :=
  shapeCast_apply x h _ _ (by
    rw [Shape.rowMajor_val_two, Shape.rowMajor_val_one]
    show n.val = n.val * 1 + 0
    omega)

/-- The reciprocal guarded in-degree of node n (computed before the first call, untouched since). -/
theorem inv_apply (n : Fin 100000) : f1 m ρ c (ix2 n 0) = Ideal.div 1 (Graph.degMax (argEi m c) (ix1 n)) := by
  rw [f1_eq m ρ c]
  unfold invOf
  rw [shapeCast_col_apply, hostDivf_apply, deg_eq, broadcastInDim_scalar_apply, constant_apply, Ideal.ofBits_one_f32]

/-! ## The first call's activations, the weights passed straight through, and the reshaped rows -/

theorem entry2 : f2 m ρ c = h1Arr m ρ c :=
  calc f2 m ρ c
    _ = W6 m ρ c (Proc.devRef .tc main_v22_0) := rfl
    _ = W5 m ρ c (Proc.devRef .tc main_v22_0) := by carried
    _ = W4 m ρ c (Proc.devRef .tc main_v22_0) := by carried
    _ = h1Arr m ρ c := W4_arr m ρ c 11

theorem W5_arg6 : W5 m ρ c (Proc.devRef .tc main_arg6) = argB2 m c :=
  ((by carried : W6 m ρ c (Proc.devRef .tc main_arg6) = W5 m ρ c (Proc.devRef .tc main_arg6)).symm).trans
    ((W7_of_ne m ρ c main_arg6 (by decide)).symm.trans (W7_main_arg6 m ρ c))
theorem f3_eq : f3 m ρ c = shapeCast S1x64 (argB2 m c) (by decide) := by
  refine (show f3 m ρ c = W6 m ρ c (Proc.devRef .tc main_v27) from rfl).trans ((row_v27 (W5 m ρ c)).trans ?_)
  rw [W5_arg6 m ρ c]
theorem entry3 (j : Fin 64) : f3 m ρ c (ix2 0 j) = argB2 m c (ix1 j) := by
  rw [f3_eq m ρ c]
  exact shapeCast_a_1a_apply _ _ 0 j

theorem entry4 : f4 m ρ c = argW2r m c :=
  ((W7_arr m ρ c 4).trans (((dat1 (V6 m ρ) c).arrAt_in 4 rfl _).trans (A_eq1 (V6 m ρ) c 4))).symm.trans (W7_main_arg7 m ρ c)

theorem W5_arg12 : W5 m ρ c (Proc.devRef .tc main_arg12) = argG2 m c :=
  ((by carried : W6 m ρ c (Proc.devRef .tc main_arg12) = W5 m ρ c (Proc.devRef .tc main_arg12)).symm).trans
    ((W7_of_ne m ρ c main_arg12 (by decide)).symm.trans (W7_main_arg12 m ρ c))
theorem f5_eq : f5 m ρ c = shapeCast S1x64 (argG2 m c) (by decide) := by
  refine (show f5 m ρ c = W6 m ρ c (Proc.devRef .tc main_v28) from rfl).trans ((row_v28 (W5 m ρ c)).trans ?_)
  rw [W5_arg12 m ρ c]
theorem entry5 (j : Fin 64) : f5 m ρ c (ix2 0 j) = argG2 m c (ix1 j) := by
  rw [f5_eq m ρ c]
  exact shapeCast_a_1a_apply _ _ 0 j

theorem W5_arg13 : W5 m ρ c (Proc.devRef .tc main_arg13) = argBe2 m c :=
  ((by carried : W6 m ρ c (Proc.devRef .tc main_arg13) = W5 m ρ c (Proc.devRef .tc main_arg13)).symm).trans
    ((W7_of_ne m ρ c main_arg13 (by decide)).symm.trans (W7_main_arg13 m ρ c))
theorem f6_eq : f6 m ρ c = shapeCast S1x64 (argBe2 m c) (by decide) := by
  refine (show f6 m ρ c = W6 m ρ c (Proc.devRef .tc main_v29) from rfl).trans ((row_v29 (W5 m ρ c)).trans ?_)
  rw [W5_arg13 m ρ c]
theorem entry6 (j : Fin 64) : f6 m ρ c (ix2 0 j) = argBe2 m c (ix1 j) := by
  rw [f6_eq m ρ c]
  exact shapeCast_a_1a_apply _ _ 0 j

theorem W5_arg14 : W5 m ρ c (Proc.devRef .tc main_arg14) = argMu2 m c :=
  ((by carried : W6 m ρ c (Proc.devRef .tc main_arg14) = W5 m ρ c (Proc.devRef .tc main_arg14)).symm).trans
    ((W7_of_ne m ρ c main_arg14 (by decide)).symm.trans (W7_main_arg14 m ρ c))
theorem f7_eq : f7 m ρ c = shapeCast S1x64 (argMu2 m c) (by decide) := by
  refine (show f7 m ρ c = W6 m ρ c (Proc.devRef .tc main_v30) from rfl).trans ((row_v30 (W5 m ρ c)).trans ?_)
  rw [W5_arg14 m ρ c]
theorem entry7 (j : Fin 64) : f7 m ρ c (ix2 0 j) = argMu2 m c (ix1 j) := by
  rw [f7_eq m ρ c]
  exact shapeCast_a_1a_apply _ _ 0 j

theorem W5_arg15 : W5 m ρ c (Proc.devRef .tc main_arg15) = argVa2 m c :=
  ((by carried : W6 m ρ c (Proc.devRef .tc main_arg15) = W5 m ρ c (Proc.devRef .tc main_arg15)).symm).trans
    ((W7_of_ne m ρ c main_arg15 (by decide)).symm.trans (W7_main_arg15 m ρ c))
theorem f8_eq : f8 m ρ c = shapeCast S1x64 (argVa2 m c) (by decide) := by
  refine (show f8 m ρ c = W6 m ρ c (Proc.devRef .tc main_v31) from rfl).trans ((row_v31 (W5 m ρ c)).trans ?_)
  rw [W5_arg15 m ρ c]
theorem entry8 (j : Fin 64) : f8 m ρ c (ix2 0 j) = argVa2 m c (ix1 j) := by
  rw [f8_eq m ρ c]
  exact shapeCast_a_1a_apply _ _ 0 j

theorem entry9 : f9 m ρ c = argWc m c :=
  ((W7_arr m ρ c 9).trans (((dat1 (V6 m ρ) c).arrAt_in 9 rfl _).trans (A_eq1 (V6 m ρ) c 9))).symm.trans (W7_main_arg16 m ρ c)

theorem W5_arg17 : W5 m ρ c (Proc.devRef .tc main_arg17) = argBc m c :=
  ((by carried : W6 m ρ c (Proc.devRef .tc main_arg17) = W5 m ρ c (Proc.devRef .tc main_arg17)).symm).trans
    ((W7_of_ne m ρ c main_arg17 (by decide)).symm.trans (W7_main_arg17 m ρ c))
theorem f10_eq : f10 m ρ c = shapeCast S1x2 (argBc m c) (by decide) := by
  refine (show f10 m ρ c = W6 m ρ c (Proc.devRef .tc main_v32) from rfl).trans ((row_v32 (W5 m ρ c)).trans ?_)
  rw [W5_arg17 m ρ c]
theorem entry10 (q : Fin 2) : f10 m ρ c (ix2 0 q) = argBc m c (ix1 q) := by
  rw [f10_eq m ρ c]
  exact shapeCast_a_1a_apply _ _ 0 q

end Cert.KernelIdeal.KHost1

end
-- ==== Proof.RefSide.lean ====
/-
  The reference's logits, index by index.  The reference gathers each edge's source row, sums the rows into the
  destinations, divides by max(in-degree, 1), applies the layer (two matrix products, bias, batch norm, ReLU), does the
  same once more on the 128-wide activations, and ends with the classifier.  Read one operation at a time, its result at
  node n, class q is the specification's `outR` over the graph's in-edges, source nodes and guarded in-degrees.
-/
import proofs.«401283_j85796266705369_3_alg».proof.Proof.Gen.ReferenceIdeal.Read
import proofs.«401283_j85796266705369_3_alg».proof.Proof.Spec
import proofs.«401283_j85796266705369_3_alg».proof.Proof.Graph
import proofs.«401283_j85796266705369_3_alg».proof.Proof.LibRowScatter

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Sage

section Stages

variable (x0 : S100000x64.Idx → EReal) (x1 : IVec S2x1600000 32) (x2 : S64x128.Idx → EReal) (x3 : S128.Idx → EReal)
    (x4 : S64x128.Idx → EReal) (x5 : S128x64.Idx → EReal) (x6 : S64.Idx → EReal) (x7 : S128x64.Idx → EReal)
    (x8 x9 x10 x11 : S128.Idx → EReal) (x12 x13 x14 x15 : S64.Idx → EReal) (x16 : S64x2.Idx → EReal) (x17 : S2.Idx → EReal)

/-! ## The graph terms: the reference builds the very columns and the very guarded in-degree the graph names -/

theorem v9_eq : val_main_v9 (F := Ideal) x1 = Graph.srcCol x1 := rfl
theorem v48_eq : val_main_v48 (F := Ideal) x1 = Graph.srcCol x1 := rfl
theorem v12_eq : val_main_v12 (F := Ideal) x1 = Graph.dstCol x1 := rfl
theorem v51_eq : val_main_v51 (F := Ideal) x1 = Graph.dstCol x1 := rfl
theorem v19_eq : val_main_v19 (F := Ideal) x1 = Graph.degMax x1 := rfl
theorem v58_eq : val_main_v58 (F := Ideal) x1 = Graph.degMax x1 := rfl

/-! ## Constants -/

theorem v11_at (i : S100000x64.Idx) : val_main_v11 (F := Ideal) i = 0 := by
  rw [val_main_v11_apply, val_main_cst_apply]; exact Ideal.ofBits_zero_f32
theorem v50_at (i : S100000x128.Idx) : val_main_v50 (F := Ideal) i = 0 := by
  rw [val_main_v50_apply, val_main_cst_7_apply]; exact Ideal.ofBits_zero_f32
theorem call0_at (i : S100000x128.Idx) : val_main_call0_v0 (F := Ideal) i = 0 := by
  rw [val_main_call0_v0_apply, val_main_call0_cst_apply]; exact Ideal.ofBits_zero_f32
theorem call1_at (i : S100000x64.Idx) : val_main_call1_v0 (F := Ideal) i = 0 := by
  rw [val_main_call1_v0_apply, val_main_call1_cst_apply]; exact Ideal.ofBits_zero_f32
theorem v32_at (i : S128.Idx) : val_main_v32 (F := Ideal) i = bnEps := by
  rw [val_main_v32_apply, val_main_cst_4_apply]; rfl
theorem v71_at (i : S64.Idx) : val_main_v71 (F := Ideal) i = bnEps := by
  rw [val_main_v71_apply, val_main_cst_11_apply]; rfl

/-! ## Layer 1: the mean of the in-neighbours' rows -/

/-- The gathered row of edge `e` is its source node's row. -/
theorem v10_at (e : Fin 1600000) (d : Fin 64) :
    val_main_v10 (F := Ideal) x0 x1 (ix2 e d) = x0 (ix2 (Graph.srcNode x1 e) d) := by
  unfold val_main_v10
  rw [v9_eq]
  exact Cert.RowScatter.gather_rows_apply (by decide) _ rfl rfl rfl rfl rfl rfl x0 (Graph.srcCol x1) e d

/-- The scatter-add sums the source rows over the in-edges. -/
theorem v13_at (n : Fin 100000) (d : Fin 64) :
    val_main_v13 (F := Ideal) x0 x1 (ix2 n d) = 0 + ∑ e ∈ Graph.inEdges x1 n, x0 (ix2 (Graph.srcNode x1 e) d) := by
  unfold val_main_v13
  rw [v12_eq]
  refine (Cert.RowScatter.scatterAdd_rows_apply _ rfl rfl rfl rfl _ _ _ n d).trans ?_
  rw [v11_at]
  exact congrArg (fun t => 0 + t) (Finset.sum_congr rfl fun e _ => v10_at x0 x1 e d)

/-- The guarded in-degree laid along a row of 64. -/
theorem v21_at (n : Fin 100000) (d : Fin 64) : val_main_v21 (F := Ideal) x1 (ix2 n d) = Graph.degMax x1 (ix1 n) := by
  rw [val_main_v21_apply, val_main_v20_apply, v19_eq]
  exact congrArg (Graph.degMax x1) (funext fun a => match a with | ⟨0, _⟩ => rfl)

theorem mean1_at (n : Fin 100000) (d : Fin 64) :
    val_main_v22 (F := Ideal) x0 x1 (ix2 n d)
      = Ideal.div (0 + ∑ e ∈ Graph.inEdges x1 n, x0 (ix2 (Graph.srcNode x1 e) d)) (Graph.degMax x1 (ix1 n)) := by
  rw [val_main_v22_apply, Ideal.hostDivf_def, v13_at, v21_at]

end Stages

section Layers

variable (x0 : S100000x64.Idx → EReal) (x1 : IVec S2x1600000 32) (x2 : S64x128.Idx → EReal) (x3 : S128.Idx → EReal)
    (x4 : S64x128.Idx → EReal) (x5 : S128x64.Idx → EReal) (x6 : S64.Idx → EReal) (x7 : S128x64.Idx → EReal)
    (x8 x9 x10 x11 : S128.Idx → EReal) (x12 x13 x14 x15 : S64.Idx → EReal) (x16 : S64x2.Idx → EReal) (x17 : S2.Idx → EReal)

/-! ## Layer 1: the two products, the bias, batch norm and ReLU -/

/-- The aggregated row through W_l. -/
theorem v23_at (n : Fin 100000) (k : Fin 128) :
    val_main_v23 (F := Ideal) x0 x1 x2 (ix2 n k)
      = ∑ c : Fin 64, val_main_v22 (F := Ideal) x0 x1 (ix2 n c) * x2 (ix2 c k) := by
  rw [val_main_v23_apply]
  refine Finset.sum_congr rfl fun c _ => ?_
  have hl : lidx_main_v23 (ix2 n k) c = ix2 n c := funext fun a => match a with | ⟨0, _⟩ => rfl | ⟨1, _⟩ => rfl
  have hr : ridx_main_v23 (ix2 n k) c = ix2 c k := funext fun a => match a with | ⟨0, _⟩ => rfl | ⟨1, _⟩ => rfl
  rw [hl, hr]

/-- The node's own row through W_r. -/
theorem v27_at (n : Fin 100000) (k : Fin 128) :
    val_main_v27 (F := Ideal) x0 x4 (ix2 n k) = ∑ c : Fin 64, x0 (ix2 n c) * x4 (ix2 c k) := by
  rw [val_main_v27_apply]
  refine Finset.sum_congr rfl fun c _ => ?_
  have hl : lidx_main_v27 (ix2 n k) c = ix2 n c := funext fun a => match a with | ⟨0, _⟩ => rfl | ⟨1, _⟩ => rfl
  have hr : ridx_main_v27 (ix2 n k) c = ix2 c k := funext fun a => match a with | ⟨0, _⟩ => rfl | ⟨1, _⟩ => rfl
  rw [hl, hr]

theorem v25_at (n : Fin 100000) (k : Fin 128) : val_main_v25 (F := Ideal) x3 (ix2 n k) = x3 (ix1 k) := by
  rw [val_main_v25_apply, val_main_v24_apply]
  exact congrArg x3 (funext fun a => match a with | ⟨0, _⟩ => rfl)

theorem v30_at (n : Fin 100000) (k : Fin 128) : val_main_v30 (F := Ideal) x10 (ix2 n k) = x10 (ix1 k) := by
  rw [val_main_v30_apply, val_main_v29_apply]
  exact congrArg x10 (funext fun a => match a with | ⟨0, _⟩ => rfl)

theorem v40_at (n : Fin 100000) (k : Fin 128) : val_main_v40 (F := Ideal) x9 (ix2 n k) = x9 (ix1 k) := by
  rw [val_main_v40_apply, val_main_v39_apply]
  exact congrArg x9 (funext fun a => match a with | ⟨0, _⟩ => rfl)

/-- The batch-norm scale gamma · rsqrt (var + eps). -/
theorem v35_at (i : S128.Idx) : val_main_v35 (F := Ideal) x8 x11 i = x8 i * Ideal.rsqrt (x11 i + bnEps) := by
  rw [val_main_v35_apply, val_main_v34_apply, val_main_v33_apply, v32_at]; rfl

theorem v37_at (n : Fin 100000) (k : Fin 128) :
    val_main_v37 (F := Ideal) x8 x11 (ix2 n k) = x8 (ix1 k) * Ideal.rsqrt (x11 (ix1 k) + bnEps) := by
  rw [val_main_v37_apply, val_main_v36_apply, v35_at]
  have hJ : idx_main_v36 (idx_main_v37 (ix2 n k)) = ix1 k := funext fun a => match a with | ⟨0, _⟩ => rfl
  rw [hJ]

/-- LAYER 1 at node `n`, feature `k`. -/
theorem h1_at (n : Fin 100000) (k : Fin 128) :
    val_main_v42 (F := Ideal) x0 x1 x2 x3 x4 x8 x9 x10 x11 (ix2 n k)
      = h1R (Graph.inEdges x1) (Graph.srcNode x1) (fun n => Graph.degMax x1 (ix1 n))
          (fun n d => x0 (ix2 n d)) (fun d k => x2 (ix2 d k)) (fun d k => x4 (ix2 d k))
          (fun k => x3 (ix1 k)) (fun k => x8 (ix1 k)) (fun k => x9 (ix1 k)) (fun k => x10 (ix1 k)) (fun k => x11 (ix1 k)) n k := by
  rw [val_main_v42_apply, val_main_v41_apply, val_main_v38_apply, val_main_v31_apply, val_main_v28_apply, val_main_v26_apply,
    v23_at, v25_at, v27_at, v30_at, v37_at, v40_at, call0_at]
  simp only [mean1_at]
  rfl

end Layers

section Layer2

variable (x0 : S100000x64.Idx → EReal) (x1 : IVec S2x1600000 32) (x2 : S64x128.Idx → EReal) (x3 : S128.Idx → EReal)
    (x4 : S64x128.Idx → EReal) (x5 : S128x64.Idx → EReal) (x6 : S64.Idx → EReal) (x7 : S128x64.Idx → EReal)
    (x8 x9 x10 x11 : S128.Idx → EReal) (x12 x13 x14 x15 : S64.Idx → EReal) (x16 : S64x2.Idx → EReal) (x17 : S2.Idx → EReal)

/-! ## Layer 2: the mean of the in-neighbours' activations, projected -/

/-- The gathered activations of edge `e` are its source node's. -/
theorem v49_at (e : Fin 1600000) (k : Fin 128) :
    val_main_v49 (F := Ideal) x0 x1 x2 x3 x4 x8 x9 x10 x11 (ix2 e k) = val_main_v42 (F := Ideal) x0 x1 x2 x3 x4 x8 x9 x10 x11 (ix2 (Graph.srcNode x1 e) k) := by
  unfold val_main_v49
  rw [v48_eq]
  exact Cert.RowScatter.gather_rows_apply (by decide) _ rfl rfl rfl rfl rfl rfl _ (Graph.srcCol x1) e k

/-- The scatter-add sums the source activations over the in-edges. -/
theorem v52_at (n : Fin 100000) (k : Fin 128) :
    val_main_v52 (F := Ideal) x0 x1 x2 x3 x4 x8 x9 x10 x11 (ix2 n k)
      = 0 + ∑ e ∈ Graph.inEdges x1 n, val_main_v42 (F := Ideal) x0 x1 x2 x3 x4 x8 x9 x10 x11 (ix2 (Graph.srcNode x1 e) k) := by
  unfold val_main_v52
  rw [v51_eq]
  refine (Cert.RowScatter.scatterAdd_rows_apply _ rfl rfl rfl rfl _ _ _ n k).trans ?_
  rw [v50_at]
  exact congrArg (fun t => 0 + t) (Finset.sum_congr rfl fun e _ => v49_at x0 x1 x2 x3 x4 x8 x9 x10 x11 e k)

/-- The guarded in-degree laid along a row of 128. -/
theorem v60_at (n : Fin 100000) (k : Fin 128) : val_main_v60 (F := Ideal) x1 (ix2 n k) = Graph.degMax x1 (ix1 n) := by
  rw [val_main_v60_apply, val_main_v59_apply, v58_eq]
  exact congrArg (Graph.degMax x1) (funext fun a => match a with | ⟨0, _⟩ => rfl)

theorem mean2_at (n : Fin 100000) (k : Fin 128) :
    val_main_v61 (F := Ideal) x0 x1 x2 x3 x4 x8 x9 x10 x11 (ix2 n k)
      = Ideal.div (0 + ∑ e ∈ Graph.inEdges x1 n, (h1R (Graph.inEdges x1) (Graph.srcNode x1) (fun n => Graph.degMax x1 (ix1 n))
          (fun n d => x0 (ix2 n d)) (fun d k => x2 (ix2 d k)) (fun d k => x4 (ix2 d k))
          (fun k => x3 (ix1 k)) (fun k => x8 (ix1 k)) (fun k => x9 (ix1 k)) (fun k => x10 (ix1 k)) (fun k => x11 (ix1 k))) (Graph.srcNode x1 e) k) (Graph.degMax x1 (ix1 n)) := by
  rw [val_main_v61_apply, Ideal.hostDivf_def, v52_at, v60_at]
  simp only [h1_at]

/-- The aggregated activations through W_l. -/
theorem v62_at (n : Fin 100000) (j : Fin 64) :
    val_main_v62 (F := Ideal) x0 x1 x2 x3 x4 x5 x8 x9 x10 x11 (ix2 n j)
      = ∑ c : Fin 128, val_main_v61 (F := Ideal) x0 x1 x2 x3 x4 x8 x9 x10 x11 (ix2 n c) * x5 (ix2 c j) := by
  rw [val_main_v62_apply]
  refine Finset.sum_congr rfl fun c _ => ?_
  have hl : lidx_main_v62 (ix2 n j) c = ix2 n c := funext fun a => match a with | ⟨0, _⟩ => rfl | ⟨1, _⟩ => rfl
  have hr : ridx_main_v62 (ix2 n j) c = ix2 c j := funext fun a => match a with | ⟨0, _⟩ => rfl | ⟨1, _⟩ => rfl
  rw [hl, hr]

/-- The node's own activations through W_r. -/
theorem v66_at (n : Fin 100000) (j : Fin 64) :
    val_main_v66 (F := Ideal) x0 x1 x2 x3 x4 x7 x8 x9 x10 x11 (ix2 n j)
      = ∑ c : Fin 128, val_main_v42 (F := Ideal) x0 x1 x2 x3 x4 x8 x9 x10 x11 (ix2 n c) * x7 (ix2 c j) := by
  rw [val_main_v66_apply]
  refine Finset.sum_congr rfl fun c _ => ?_
  have hl : lidx_main_v66 (ix2 n j) c = ix2 n c := funext fun a => match a with | ⟨0, _⟩ => rfl | ⟨1, _⟩ => rfl
  have hr : ridx_main_v66 (ix2 n j) c = ix2 c j := funext fun a => match a with | ⟨0, _⟩ => rfl | ⟨1, _⟩ => rfl
  rw [hl, hr]

theorem v64_at (n : Fin 100000) (j : Fin 64) : val_main_v64 (F := Ideal) x6 (ix2 n j) = x6 (ix1 j) := by
  rw [val_main_v64_apply, val_main_v63_apply]
  exact congrArg x6 (funext fun a => match a with | ⟨0, _⟩ => rfl)

theorem v69_at (n : Fin 100000) (j : Fin 64) : val_main_v69 (F := Ideal) x14 (ix2 n j) = x14 (ix1 j) := by
  rw [val_main_v69_apply, val_main_v68_apply]
  exact congrArg x14 (funext fun a => match a with | ⟨0, _⟩ => rfl)

theorem v79_at (n : Fin 100000) (j : Fin 64) : val_main_v79 (F := Ideal) x13 (ix2 n j) = x13 (ix1 j) := by
  rw [val_main_v79_apply, val_main_v78_apply]
  exact congrArg x13 (funext fun a => match a with | ⟨0, _⟩ => rfl)

/-- The batch-norm scale gamma · rsqrt (var + eps). -/
theorem v74_at (i : S64.Idx) : val_main_v74 (F := Ideal) x12 x15 i = x12 i * Ideal.rsqrt (x15 i + bnEps) := by
  rw [val_main_v74_apply, val_main_v73_apply, val_main_v72_apply, v71_at]; rfl

theorem v76_at (n : Fin 100000) (j : Fin 64) :
    val_main_v76 (F := Ideal) x12 x15 (ix2 n j) = x12 (ix1 j) * Ideal.rsqrt (x15 (ix1 j) + bnEps) := by
  rw [val_main_v76_apply, val_main_v75_apply, v74_at]
  have hJ : idx_main_v75 (idx_main_v76 (ix2 n j)) = ix1 j := funext fun a => match a with | ⟨0, _⟩ => rfl
  rw [hJ]

/-- LAYER 2 at node `n`, feature `j`. -/
theorem h2_at (n : Fin 100000) (j : Fin 64) :
    val_main_v81 (F := Ideal) x0 x1 x2 x3 x4 x5 x6 x7 x8 x9 x10 x11 x12 x13 x14 x15 (ix2 n j)
      = h2At (fun n j => ∑ k : Fin 128, Ideal.div (0 + ∑ e ∈ Graph.inEdges x1 n, (h1R (Graph.inEdges x1) (Graph.srcNode x1) (fun n => Graph.degMax x1 (ix1 n))
          (fun n d => x0 (ix2 n d)) (fun d k => x2 (ix2 d k)) (fun d k => x4 (ix2 d k))
          (fun k => x3 (ix1 k)) (fun k => x8 (ix1 k)) (fun k => x9 (ix1 k)) (fun k => x10 (ix1 k)) (fun k => x11 (ix1 k))) (Graph.srcNode x1 e) k)
            (Graph.degMax x1 (ix1 n)) * x5 (ix2 k j))
          (h1R (Graph.inEdges x1) (Graph.srcNode x1) (fun n => Graph.degMax x1 (ix1 n))
          (fun n d => x0 (ix2 n d)) (fun d k => x2 (ix2 d k)) (fun d k => x4 (ix2 d k))
          (fun k => x3 (ix1 k)) (fun k => x8 (ix1 k)) (fun k => x9 (ix1 k)) (fun k => x10 (ix1 k)) (fun k => x11 (ix1 k))) (fun k j => x7 (ix2 k j))
          (fun j => x6 (ix1 j)) (fun j => x12 (ix1 j)) (fun j => x13 (ix1 j)) (fun j => x14 (ix1 j)) (fun j => x15 (ix1 j)) n j := by
  rw [val_main_v81_apply, val_main_v80_apply, val_main_v77_apply, val_main_v70_apply, val_main_v67_apply, val_main_v65_apply,
    v62_at, v64_at, v66_at, v69_at, v76_at, v79_at, call1_at]
  simp only [mean2_at, h1_at]
  rfl

/-! ## The classifier -/

theorem v82_at (n : Fin 100000) (q : Fin 2) :
    val_main_v82 (F := Ideal) x0 x1 x2 x3 x4 x5 x6 x7 x8 x9 x10 x11 x12 x13 x14 x15 x16 (ix2 n q)
      = ∑ c : Fin 64, val_main_v81 (F := Ideal) x0 x1 x2 x3 x4 x5 x6 x7 x8 x9 x10 x11 x12 x13 x14 x15 (ix2 n c) * x16 (ix2 c q) := by
  rw [val_main_v82_apply]
  refine Finset.sum_congr rfl fun c _ => ?_
  have hl : lidx_main_v82 (ix2 n q) c = ix2 n c := funext fun a => match a with | ⟨0, _⟩ => rfl | ⟨1, _⟩ => rfl
  have hr : ridx_main_v82 (ix2 n q) c = ix2 c q := funext fun a => match a with | ⟨0, _⟩ => rfl | ⟨1, _⟩ => rfl
  rw [hl, hr]

theorem v84_at (n : Fin 100000) (q : Fin 2) : val_main_v84 (F := Ideal) x17 (ix2 n q) = x17 (ix1 q) := by
  rw [val_main_v84_apply, val_main_v83_apply]
  exact congrArg x17 (funext fun a => match a with | ⟨0, _⟩ => rfl)

end Layer2

/-- THE REFERENCE'S RESULT at node `n`, class `q`. -/
theorem val_out_apply (x0 : S100000x64.Idx → EReal) (x1 : IVec S2x1600000 32) (x2 : S64x128.Idx → EReal) (x3 : S128.Idx → EReal)
    (x4 : S64x128.Idx → EReal) (x5 : S128x64.Idx → EReal) (x6 : S64.Idx → EReal) (x7 : S128x64.Idx → EReal)
    (x8 x9 x10 x11 : S128.Idx → EReal) (x12 x13 x14 x15 : S64.Idx → EReal) (x16 : S64x2.Idx → EReal) (x17 : S2.Idx → EReal)
    (n : Fin 100000) (q : Fin 2) :
    val_main_v85 (F := Ideal) x0 x1 x2 x3 x4 x5 x6 x7 x8 x9 x10 x11 x12 x13 x14 x15 x16 x17 (ix2 n q)
      = outR (Graph.inEdges x1) (Graph.srcNode x1) (fun n => Graph.degMax x1 (ix1 n))
          (fun n d => x0 (ix2 n d)) (fun d k => x2 (ix2 d k)) (fun d k => x4 (ix2 d k))
          (fun k => x3 (ix1 k)) (fun k => x8 (ix1 k)) (fun k => x9 (ix1 k)) (fun k => x10 (ix1 k)) (fun k => x11 (ix1 k))
          (fun k j => x5 (ix2 k j)) (fun k j => x7 (ix2 k j))
          (fun j => x6 (ix1 j)) (fun j => x12 (ix1 j)) (fun j => x13 (ix1 j)) (fun j => x14 (ix1 j)) (fun j => x15 (ix1 j))
          (fun j q => x16 (ix2 j q)) (fun q => x17 (ix1 q)) n q := by
  rw [val_main_v85_apply, v82_at, v84_at]
  simp only [h2_at]
  rfl

end Cert.ReferenceIdeal.RefValue

end
-- ==== Proof.Bridge.lean ====
/-
  The two programs compute the same logits.  The kernel program's result is the second call's output array; reading the
  two calls' outputs through the arrays each call is entered with gives, at node n and class q, the specification's
  `outK` (neighbour sums multiplied by the reciprocal count; layer 2 aggregating the projected activations).  The
  reference's result is the specification's `outR` (neighbour sums divided by the count; layer 2 projecting the
  aggregated activations).  The two specifications agree (Spec.lean: the count is at least one, and the activations are
  nonnegative), over the same graph: the in-edges, source nodes and guarded in-degrees both programs read off the edge array.
-/
import proofs.«401283_j85796266705369_3_alg».proof.Defs
import proofs.«401283_j85796266705369_3_alg».proof.Proof.RunK
import proofs.«401283_j85796266705369_3_alg».proof.Proof.Region0
import proofs.«401283_j85796266705369_3_alg».proof.Proof.Region1
import proofs.«401283_j85796266705369_3_alg».proof.Proof.KHost0
import proofs.«401283_j85796266705369_3_alg».proof.Proof.KHost1
import proofs.«401283_j85796266705369_3_alg».proof.Proof.RefSide
import proofs.«401283_j85796266705369_3_alg».proof.Proof.TakeMask
import proofs.«401283_j85796266705369_3_alg».proof.Proof.Gen.ReferenceIdeal.Run
import proofs.«401283_j85796266705369_3_alg».proof.Proof.Gen.ReferenceIdeal.Read
import proofs.«401283_j85796266705369_3_alg».proof.Proof.Gen.Pre_finite_inputs

noncomputable section

namespace Cert.Sage

/-! ## Congruences of the specification's layers (equal arguments, equal layers) -/

theorem h1At_congr {N : Nat} {mean mean' X X' : Fin N → Fin 64 → EReal} {Wl Wl' Wr Wr' : Fin 64 → Fin 128 → EReal}
    {b b' g g' be be' mu mu' va va' : Fin 128 → EReal}
    (h1 : ∀ n d, mean n d = mean' n d) (h2 : ∀ n d, X n d = X' n d) (h3 : ∀ d k, Wl d k = Wl' d k)
    (h4 : ∀ d k, Wr d k = Wr' d k) (h5 : ∀ k, b k = b' k) (h6 : ∀ k, g k = g' k) (h7 : ∀ k, be k = be' k)
    (h8 : ∀ k, mu k = mu' k) (h9 : ∀ k, va k = va' k) :
    h1At mean X Wl Wr b g be mu va = h1At mean' X' Wl' Wr' b' g' be' mu' va' := by
  obtain rfl : mean = mean' := funext fun n => funext fun d => h1 n d
  obtain rfl : X = X' := funext fun n => funext fun d => h2 n d
  obtain rfl : Wl = Wl' := funext fun n => funext fun d => h3 n d
  obtain rfl : Wr = Wr' := funext fun n => funext fun d => h4 n d
  obtain rfl : b = b' := funext h5
  obtain rfl : g = g' := funext h6
  obtain rfl : be = be' := funext h7
  obtain rfl : mu = mu' := funext h8
  obtain rfl : va = va' := funext h9
  rfl

theorem projAt_congr {N : Nat} {h h' : Fin N → Fin 128 → EReal} {W W' : Fin 128 → Fin 64 → EReal}
    (h1 : ∀ n k, h n k = h' n k) (h2 : ∀ k j, W k j = W' k j) : projAt h W = projAt h' W' := by
  obtain rfl : h = h' := funext fun n => funext fun d => h1 n d
  obtain rfl : W = W' := funext fun n => funext fun d => h2 n d
  rfl

theorem out_congr {N : Nat} {agg agg' : Fin N → Fin 64 → EReal} {h h' : Fin N → Fin 128 → EReal} {Wr Wr' : Fin 128 → Fin 64 → EReal}
    {b b' g g' be be' mu mu' va va' : Fin 64 → EReal} {Wc Wc' : Fin 64 → Fin 2 → EReal} {bc bc' : Fin 2 → EReal}
    (h1 : ∀ n j, agg n j = agg' n j) (h2 : ∀ n k, h n k = h' n k) (h3 : ∀ k j, Wr k j = Wr' k j)
    (h4 : ∀ j, b j = b' j) (h5 : ∀ j, g j = g' j) (h6 : ∀ j, be j = be' j) (h7 : ∀ j, mu j = mu' j) (h8 : ∀ j, va j = va' j)
    (h9 : ∀ j q, Wc j q = Wc' j q) (h10 : ∀ q, bc q = bc' q) :
    outAt (h2At agg h Wr b g be mu va) Wc bc = outAt (h2At agg' h' Wr' b' g' be' mu' va') Wc' bc' := by
  obtain rfl : agg = agg' := funext fun n => funext fun d => h1 n d
  obtain rfl : h = h' := funext fun n => funext fun d => h2 n d
  obtain rfl : Wr = Wr' := funext fun n => funext fun d => h3 n d
  obtain rfl : b = b' := funext h4
  obtain rfl : g = g' := funext h5
  obtain rfl : be = be' := funext h6
  obtain rfl : mu = mu' := funext h7
  obtain rfl : va = va' := funext h8
  obtain rfl : Wc = Wc' := funext fun n => funext fun d => h9 n d
  obtain rfl : bc = bc' := funext h10
  rfl

end Cert.Sage

namespace Cert.KernelIdeal.Bridge

open Cert.KernelIdeal Cert.KernelIdeal.Gen Cert.KernelIdeal.Args Idealize.ShloMosaic Idealize.ShloMosaic.TcCoe Idealize.SL.Sem
open Idealize.ShloMosaic.ValueIdx Cert.Sage

variable (m : (ℓ : Loc nD τ sig) → Buf (Elt Ideal) ℓ) (ρ : Dev nD → PrngReg) (c : Dev nD)

/-- The guarded in-degree of each node. -/
abbrev deg : Fin 100000 → EReal := fun n => Graph.degMax (argEi m c) (ix1 n)

/-- Layer 1 of the specification over the program's arguments (the reciprocal-count form). -/
abbrev specH1 : Fin 100000 → Fin 128 → EReal :=
  h1K (Graph.inEdges (argEi m c)) (Graph.srcNode (argEi m c)) (deg m c)
    (fun n d => argX m c (ix2 n d)) (fun d k => argW1l m c (ix2 d k)) (fun d k => argW1r m c (ix2 d k))
    (fun k => argB1 m c (ix1 k)) (fun k => argG1 m c (ix1 k)) (fun k => argBe1 m c (ix1 k))
    (fun k => argMu1 m c (ix1 k)) (fun k => argVa1 m c (ix1 k))

/-- The logits of the specification over the program's arguments (the reciprocal-count, project-then-aggregate form). -/
abbrev specOutK : Fin 100000 → Fin 2 → EReal :=
  outK (Graph.inEdges (argEi m c)) (Graph.srcNode (argEi m c)) (deg m c)
    (fun n d => argX m c (ix2 n d)) (fun d k => argW1l m c (ix2 d k)) (fun d k => argW1r m c (ix2 d k))
    (fun k => argB1 m c (ix1 k)) (fun k => argG1 m c (ix1 k)) (fun k => argBe1 m c (ix1 k))
    (fun k => argMu1 m c (ix1 k)) (fun k => argVa1 m c (ix1 k))
    (fun k j => argW2l m c (ix2 k j)) (fun k j => argW2r m c (ix2 k j))
    (fun j => argB2 m c (ix1 j)) (fun j => argG2 m c (ix1 j)) (fun j => argBe2 m c (ix1 j))
    (fun j => argMu2 m c (ix1 j)) (fun j => argVa2 m c (ix1 j))
    (fun j q => argWc m c (ix2 j q)) (fun q => argBc m c (ix1 q))

/-- The first call's activations are the specification's layer 1. -/
theorem h1Of_eq (hsrc : Graph.SrcInRange (argEi m c)) : Region0.h1Of (V3 m ρ) c = specH1 m c := by
  unfold specH1 h1K
  exact h1At_congr
    (fun n d => congrArg₂ (· * ·) (KHost0.sum1_apply m ρ c hsrc n d) (KHost0.inv_apply m ρ c n))
    (fun n d => congrFun (KHost0.entry2 m ρ c) (ix2 n d))
    (fun d k => congrFun (KHost0.entry3 m ρ c) (ix2 d k))
    (fun d k => congrFun (KHost0.entry5 m ρ c) (ix2 d k))
    (fun k => KHost0.entry4 m ρ c k) (fun k => KHost0.entry7 m ρ c k) (fun k => KHost0.entry8 m ρ c k)
    (fun k => KHost0.entry9 m ρ c k) (fun k => KHost0.entry10 m ρ c k)

/-- The first call's activations array, entry by entry. -/
theorem h1Arr_apply (hsrc : Graph.SrcInRange (argEi m c)) (n : Fin 100000) (k : Fin 128) :
    KHost1.h1Arr m ρ c (ix2 n k) = specH1 m c n k :=
  (Region0.h1_arr (V3 m ρ) c n k).trans (congrFun (congrFun (h1Of_eq m ρ c hsrc) n) k)

/-- The first call's projection array, entry by entry. -/
theorem pArr_apply (hsrc : Graph.SrcInRange (argEi m c)) (n : Fin 100000) (j : Fin 64) :
    KHost1.pArr m ρ c (ix2 n j) = projAt (specH1 m c) (fun k j => argW2l m c (ix2 k j)) n j :=
  (Region0.p_arr (V3 m ρ) c n j).trans
    (congrFun (congrFun (projAt_congr (fun n k => congrFun (congrFun (h1Of_eq m ρ c hsrc) n) k)
      (fun k j => congrFun (KHost0.entry6 m ρ c) (ix2 k j))) n) j)

/-- THE KERNEL PROGRAM'S RESULT, entry by entry: the specification's logits. -/
theorem result_apply (hsrc : Graph.SrcInRange (argEi m c)) (n : Fin 100000) (q : Fin 2) :
    (dat1 (F := Ideal) (V6 m ρ) c).arrAt 11 cfg1.N (ix2 n q) = specOutK m c n q := by
  refine (Region1.out_arr (V6 m ρ) c n q).trans ?_
  refine congrFun (congrFun ?_ n) q
  unfold specOutK outK
  refine out_congr
    (fun n j => ?_)
    (fun n k => (congrFun (KHost1.entry2 m ρ c) (ix2 n k)).trans (h1Arr_apply m ρ c hsrc n k))
    (fun k j => congrFun (KHost1.entry4 m ρ c) (ix2 k j))
    (fun j => KHost1.entry3 m ρ c j) (fun j => KHost1.entry5 m ρ c j) (fun j => KHost1.entry6 m ρ c j)
    (fun j => KHost1.entry7 m ρ c j) (fun j => KHost1.entry8 m ρ c j)
    (fun j q => congrFun (KHost1.entry9 m ρ c) (ix2 j q)) (fun q => KHost1.entry10 m ρ c q)
  refine congrArg₂ (· * ·) ?_ (KHost1.inv_apply m ρ c n)
  refine (KHost1.sump_apply m ρ c hsrc n j).trans ?_
  exact congrArg (0 + ·) (Finset.sum_congr rfl fun e _ => pArr_apply m ρ c hsrc _ j)

/-- The guarded in-degree is at least one at every node. -/
theorem one_le_deg (n : Fin 100000) : 1 ≤ deg m c n := Graph.one_le_degMax (argEi m c) n

/-- Equal arguments, equal reference result. -/
theorem val_congr (x0 : Cert.ReferenceIdeal.S100000x64.Idx → EReal) (x1 : IVec Cert.ReferenceIdeal.S2x1600000 32) (x2 : Cert.ReferenceIdeal.S64x128.Idx → EReal) (x3 : Cert.ReferenceIdeal.S128.Idx → EReal) (x4 : Cert.ReferenceIdeal.S64x128.Idx → EReal) (x5 : Cert.ReferenceIdeal.S128x64.Idx → EReal) (x6 : Cert.ReferenceIdeal.S64.Idx → EReal) (x7 : Cert.ReferenceIdeal.S128x64.Idx → EReal) (x8 : Cert.ReferenceIdeal.S128.Idx → EReal) (x9 : Cert.ReferenceIdeal.S128.Idx → EReal) (x10 : Cert.ReferenceIdeal.S128.Idx → EReal) (x11 : Cert.ReferenceIdeal.S128.Idx → EReal) (x12 : Cert.ReferenceIdeal.S64.Idx → EReal) (x13 : Cert.ReferenceIdeal.S64.Idx → EReal) (x14 : Cert.ReferenceIdeal.S64.Idx → EReal) (x15 : Cert.ReferenceIdeal.S64.Idx → EReal) (x16 : Cert.ReferenceIdeal.S64x2.Idx → EReal) (x17 : Cert.ReferenceIdeal.S2.Idx → EReal)
    (x0' : Cert.ReferenceIdeal.S100000x64.Idx → EReal) (x1' : IVec Cert.ReferenceIdeal.S2x1600000 32) (x2' : Cert.ReferenceIdeal.S64x128.Idx → EReal) (x3' : Cert.ReferenceIdeal.S128.Idx → EReal) (x4' : Cert.ReferenceIdeal.S64x128.Idx → EReal) (x5' : Cert.ReferenceIdeal.S128x64.Idx → EReal) (x6' : Cert.ReferenceIdeal.S64.Idx → EReal) (x7' : Cert.ReferenceIdeal.S128x64.Idx → EReal) (x8' : Cert.ReferenceIdeal.S128.Idx → EReal) (x9' : Cert.ReferenceIdeal.S128.Idx → EReal) (x10' : Cert.ReferenceIdeal.S128.Idx → EReal) (x11' : Cert.ReferenceIdeal.S128.Idx → EReal) (x12' : Cert.ReferenceIdeal.S64.Idx → EReal) (x13' : Cert.ReferenceIdeal.S64.Idx → EReal) (x14' : Cert.ReferenceIdeal.S64.Idx → EReal) (x15' : Cert.ReferenceIdeal.S64.Idx → EReal) (x16' : Cert.ReferenceIdeal.S64x2.Idx → EReal) (x17' : Cert.ReferenceIdeal.S2.Idx → EReal)
    (e0 : x0 = x0') (e1 : x1 = x1') (e2 : x2 = x2') (e3 : x3 = x3') (e4 : x4 = x4') (e5 : x5 = x5') (e6 : x6 = x6') (e7 : x7 = x7') (e8 : x8 = x8') (e9 : x9 = x9') (e10 : x10 = x10') (e11 : x11 = x11') (e12 : x12 = x12') (e13 : x13 = x13') (e14 : x14 = x14') (e15 : x15 = x15') (e16 : x16 = x16') (e17 : x17 = x17') :
    Cert.ReferenceIdeal.Read.val_main_v85 (F := Ideal) x0 x1 x2 x3 x4 x5 x6 x7 x8 x9 x10 x11 x12 x13 x14 x15 x16 x17
      = Cert.ReferenceIdeal.Read.val_main_v85 (F := Ideal) x0' x1' x2' x3' x4' x5' x6' x7' x8' x9' x10' x11' x12' x13' x14' x15' x16' x17' := by
  subst e0 e1 e2 e3 e4 e5 e6 e7 e8 e9 e10 e11 e12 e13 e14 e15 e16 e17
  rfl

/-- THE TWO RESULTS ARE EQUAL: from memories that agree on the arguments, under the precondition, the reference's
    result term is the kernel program's output array. -/
theorem reference_eq_result
    (m' : (ℓ : Loc Cert.ReferenceIdeal.nD Cert.ReferenceIdeal.τ Cert.ReferenceIdeal.sig) → Buf (Elt Ideal) ℓ)
    (hsrc : Graph.SrcInRange (argEi m c))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17)) :
    Cert.ReferenceIdeal.Value.res_main_v85 (F := Ideal) m' c = (dat1 (F := Ideal) (V6 m ρ) c).arrAt 11 cfg1.N := by
  refine ((Cert.ReferenceIdeal.Read.val_main_v85_eq (F := Ideal) m' c).trans
    (val_congr _ _ _ _ _ _ _ _ _ _ _ _ _ _ _ _ _ _ (argX m c) (argEi m c) (argW1l m c) (argB1 m c) (argW1r m c) (argW2l m c)
      (argB2 m c) (argW2r m c) (argG1 m c) (argBe1 m c) (argMu1 m c) (argVa1 m c) (argG2 m c) (argBe2 m c) (argMu2 m c)
      (argVa2 m c) (argWc m c) (argBc m c) h0 h1 h2 h3 h4 h5 h6 h7 h8 h9 h10 h11 h12 h13 h14 h15 h16 h17)).trans ?_
  funext i
  obtain ⟨n, q, rfl⟩ : ∃ (n : Fin 100000) (q : Fin 2), i = ix2 n q := ⟨i 0, i 1, eq_ix2 i⟩
  refine Eq.trans ?_ (result_apply m ρ c hsrc n q).symm
  refine (Cert.ReferenceIdeal.RefValue.val_out_apply (argX m c) (argEi m c) (argW1l m c) (argB1 m c) (argW1r m c) (argW2l m c)
    (argB2 m c) (argW2r m c) (argG1 m c) (argBe1 m c) (argMu1 m c) (argVa1 m c) (argG2 m c) (argBe2 m c) (argMu2 m c)
    (argVa2 m c) (argWc m c) (argBc m c) n q).trans ?_
  exact (congrFun (congrFun (outK_eq_outR (Graph.inEdges (argEi m c)) (Graph.srcNode (argEi m c)) (deg m c) _ _ _ _ _ _ _ _ _ _ _ _ _ _ _ _ _
    (one_le_deg m c)) n) q).symm

end Cert.KernelIdeal.Bridge

end
-- ==== Proof.lean ====
/-
  The certificate of a two-layer GraphSAGE network (mean aggregation, inference batch norm, ReLU, linear classifier) over
  100000 nodes and 1600000 edges: a program of two fused pallas_calls among host gathers and scatter-adds, against its
  plain jnp reference.

  The frames of the two kernel programs are the generated ones; the reference has no kernel and its frame is its run with
  the result dropped.  The idealization rewrites nothing, so there is nothing to preserve.  The algebraic claim: the
  kernel program's logits array (what the second call's write-backs leave) equals the reference's, entry by entry, as
  extended reals.  Three things differ between the programs and all three are equalities there: a source row is taken
  with a fill for positions out of range (none is, under the precondition 0 ≤ src < 100000) against a clamping read;
  the neighbour sum is multiplied by the reciprocal count against divided by the count (the count is at least one);
  and layer 2 aggregates the 64-wide projections of the activations against projecting the aggregated 128-wide
  activations (the activations are nonnegative, and a real factor distributes over any sum).
-/
import proofs.«401283_j85796266705369_3_alg».proof.Defs
import proofs.«401283_j85796266705369_3_alg».proof.Proof.Gen.Kernel
import proofs.«401283_j85796266705369_3_alg».proof.Proof.Gen.Kernel.Frame
import proofs.«401283_j85796266705369_3_alg».proof.Proof.Gen.KernelIdeal
import proofs.«401283_j85796266705369_3_alg».proof.Proof.Gen.KernelIdeal.Frame
import proofs.«401283_j85796266705369_3_alg».proof.Proof.Gen.ReferenceIdeal
import proofs.«401283_j85796266705369_3_alg».proof.Proof.Gen.ReferenceIdeal.Run
import proofs.«401283_j85796266705369_3_alg».proof.Proof.Gen.ReferenceIdeal.Read
import proofs.«401283_j85796266705369_3_alg».proof.Proof.Gen.Pre_finite_inputs
import proofs.«401283_j85796266705369_3_alg».proof.Proof.RunK
import proofs.«401283_j85796266705369_3_alg».proof.Proof.Bridge
import proofs.«401283_j85796266705369_3_alg».proof.Proof.TakeMask
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was applied when the kernel program was idealized. -/
theorem preserves : Cert.preserves_Kernel_KernelIdeal := trivial

/-- Both programs end with the same logits: the kernel program's output array. -/
theorem algebraic : Cert.algebraic_KernelIdeal_ReferenceIdeal := by
  intro m ρ m' ρ' hpre hagree
  refine ⟨fun c => (Cert.KernelIdeal.Gen.dat1 (F := Ideal) (Cert.KernelIdeal.Gen.V6 m ρ) c).arrAt 11 Cert.KernelIdeal.cfg1.N,
    Cert.KernelIdeal.RunK.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  exact Cert.KernelIdeal.Bridge.reference_eq_result m ρ c m'
    (Cert.Sage.TakeMask.srcInRange_of_fn _ _ _ _ _ _ _ _ _ _ _ _ _ _ _ _ _ _ (hpre c))
    h0 h1 h2 h3 h4 h5 h6 h7 h8 h9 h10 h11 h12 h13 h14 h15 h16 h17

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
